-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256x128 : Shape := ⟨3, ![128, 256, 128]⟩
abbrev S128x256x256 : Shape := ⟨3, ![128, 256, 256]⟩
abbrev S128x512 : Shape := ⟨2, ![128, 512]⟩
abbrev S512 : Shape := ⟨1, ![512]⟩
abbrev S512x128 : Shape := ⟨2, ![512, 128]⟩
abbrev S128 : Shape := ⟨1, ![128]⟩
abbrev S_ : Shape := ⟨0, ![]⟩

class Facts : Prop where
  bcast_S_S128x256x128 : S_.BroadcastsInDim S128x256x128 (![] : Fin 0 → Fin S128x256x128.rank)
  reducesTo_S128x256x128_S_d0_1_2 : S128x256x128.ReducesTo [0, 1, 2] S_
  h_S_ : 0 < S_.numel
  bcast_S_S128x256x256 : S_.BroadcastsInDim S128x256x256 (![] : Fin 0 → Fin S128x256x256.rank)
  reducesTo_S128x256x256_S_d0_1_2 : S128x256x256.ReducesTo [0, 1, 2] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S512x128 .f32) (main_arg5 : FVec F S128 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x128 .f32 := Host.absf main_arg4
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S128x256x128 .f32) (main_arg1 : FVec F S128x256x256 .f32) (main_arg2 : FVec F S128x512 .f32) (main_arg3 : FVec F S512 .f32) (main_arg4 : FVec F S512x128 .f32) (main_arg5 : FVec F S128 .f32) : IVec S_ 1 :=
  let main_v0 : FVec F S128x256x128 .f32 := Host.absf main_arg0
  let main_cst : FVec F S_ .f32 := constant S_ .f32 0x7F800000#32
  let main_v1 : FVec F S128x256x128 .f32 := broadcastInDim S128x256x128 ![] bcast_S_S128x256x128 main_cst
  let main_v2 : IVec S128x256x128 1 := cmpf .olt main_v0 main_v1
  let main_c : IVec S_ 1 := constantI S_ 1 1#1
  let main_v3 : IVec S_ 1 := (fun x v => Host.reduce IntOp.andi x v reducesTo_S128x256x128_S_d0_1_2 h_S_) main_v2 main_c
  let main_v4 : FVec F S128x256x256 .f32 := Host.absf main_arg1
  let main_cst_0 : FVec F S_ .f32 := constant S_ .f32 0x7F800000#32
  let main_v5 : FVec F S128x256x256 .f32 := broadcastInDim S128x256x256 ![] bcast_S_S128x256x256 main_cst_0
  let main_v6 : IVec S128x256x256 1 := cmpf .olt main_v4 main_v5
  let main_c_1 : IVec S_ 1 := constantI S_ 1 1#1
  let main_v7 : IVec S_ 1 := (fun x v => Host.reduce IntOp.andi x v reducesTo_S128x256x256_S_d0_1_2 h_S_) main_v6 main_c_1
  let main_v8 : IVec S_ 1 := andi main_v3 main_v7
  let main_v9 : FVec F S128x512 .f32 := Host.absf main_arg2
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S128x256x128 : Shape := ⟨3, ![128, 256, 128]⟩
abbrev S128x256x256 : Shape := ⟨3, ![128, 256, 256]⟩
abbrev S128x512 : Shape := ⟨2, ![128, 512]⟩
abbrev S512 : Shape := ⟨1, ![512]⟩
abbrev S512x128 : Shape := ⟨2, ![512, 128]⟩
abbrev S128 : Shape := ⟨1, ![128]⟩
abbrev S8x16x256x128 : Shape := ⟨4, ![8, 16, 256, 128]⟩
abbrev S8x16x256x256 : Shape := ⟨4, ![8, 16, 256, 256]⟩
abbrev S1x512 : Shape := ⟨2, ![1, 512]⟩
abbrev S_ : Shape := ⟨0, ![]⟩
abbrev S127x512 : Shape := ⟨2, ![127, 512]⟩
abbrev S256x512 : Shape := ⟨2, ![256, 512]⟩
abbrev S1x128 : Shape := ⟨2, ![1, 128]⟩
abbrev S8x4096x128 : Shape := ⟨3, ![8, 4096, 128]⟩
abbrev S1x16x256x128 : Shape := ⟨4, ![1, 16, 256, 128]⟩
abbrev S1x16x256x256 : Shape := ⟨4, ![1, 16, 256, 256]⟩
abbrev S1x4096x128 : Shape := ⟨3, ![1, 4096, 128]⟩
abbrev S4096x256 : Shape := ⟨2, ![4096, 256]⟩
abbrev S4096x128 : Shape := ⟨2, ![4096, 128]⟩
abbrev S4096x1 : Shape := ⟨2, ![4096, 1]⟩
abbrev S1x1x256x128 : Shape := ⟨4, ![1, 1, 256, 128]⟩
abbrev S256x128 : Shape := ⟨2, ![256, 128]⟩
abbrev S1x1x256x256 : Shape := ⟨4, ![1, 1, 256, 256]⟩
abbrev S256x256 : Shape := ⟨2, ![256, 256]⟩
abbrev S256x1 : Shape := ⟨2, ![256, 1]⟩
abbrev S4096x512 : Shape := ⟨2, ![4096, 512]⟩

abbrev nBuf : Space → Nat
  | .hbm => 17
  | .vmem => 11
  | .smem => 0
  | _ => 0

abbrev bufTy : (tb : Table) → Fin (tcTables nBuf tb) → BufTy
  | .hbm, ⟨0, _⟩ => ⟨S128x256x128, .f32⟩
  | .hbm, ⟨1, _⟩ => ⟨S128x256x256, .f32⟩
  | .hbm, ⟨2, _⟩ => ⟨S128x512, .f32⟩
  | .hbm, ⟨3, _⟩ => ⟨S512, .f32⟩
  | .hbm, ⟨4, _⟩ => ⟨S512x128, .f32⟩
  | .hbm, ⟨5, _⟩ => ⟨S128, .f32⟩
  | .hbm, ⟨6, _⟩ => ⟨S8x16x256x128, .f32⟩
  | .hbm, ⟨7, _⟩ => ⟨S8x16x256x256, .f32⟩
  | .hbm, ⟨8, _⟩ => ⟨S1x512, .f32⟩
  | .hbm, ⟨9, _⟩ => ⟨S_, .f32⟩
  | .hbm, ⟨10, _⟩ => ⟨S127x512, .f32⟩
  | .hbm, ⟨11, _⟩ => ⟨S256x512, .f32⟩
  | .hbm, ⟨12, _⟩ => ⟨S256x512, .bf16⟩
  | .hbm, ⟨13, _⟩ => ⟨S512x128, .bf16⟩
  | .hbm, ⟨14, _⟩ => ⟨S1x128, .f32⟩
  | .hbm, ⟨15, _⟩ => ⟨S8x4096x128, .f32⟩
  | .hbm, ⟨16, _⟩ => ⟨S128x256x128, .f32⟩
  | .local _ .vmem, ⟨0, _⟩ => ⟨S1x16x256x128, .f32⟩
  | .local _ .vmem, ⟨1, _⟩ => ⟨S1x16x256x128, .f32⟩
  | .local _ .vmem, ⟨2, _⟩ => ⟨S1x16x256x256, .f32⟩
  | .local _ .vmem, ⟨3, _⟩ => ⟨S1x16x256x256, .f32⟩
  | .local _ .vmem, ⟨4, _⟩ => ⟨S256x512, .bf16⟩
  | .local _ .vmem, ⟨5, _⟩ => ⟨S512x128, .bf16⟩
  | .local _ .vmem, ⟨6, _⟩ => ⟨S1x128, .f32⟩
  | .local _ .vmem, ⟨7, _⟩ => ⟨S1x4096x128, .f32⟩
  | .local _ .vmem, ⟨8, _⟩ => ⟨S1x4096x128, .f32⟩
  | .local _ .vmem, ⟨9, _⟩ => ⟨S4096x256, .bf16⟩
  | .local _ .vmem, ⟨10, _⟩ => ⟨S4096x256, .bf16⟩
  | _, _ => ⟨S128x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128x256x128_S8x16x256x128 : S128x256x128.ShapeCasts S8x16x256x128
  shapeCasts_S128x256x256_S8x16x256x256 : S128x256x256.ShapeCasts S8x16x256x256
  bcast_S512_S1x512_1 : S512.BroadcastsInDim S1x512 (![1] : Fin 1 → Fin S1x512.rank)
  bcast_S_S127x512 : S_.BroadcastsInDim S127x512 (![] : Fin 0 → Fin S127x512.rank)
  concatenates_S128x512_S1x512_S127x512_S256x512_d0 : Shape.Concatenates [S128x512, S1x512, S127x512] S256x512 0
  bitsLt_bf16_f32 : FTy.bits .bf16 < FTy.bits .f32
  shapeCasts_S128_S1x128 : S128.ShapeCasts S1x128
  inb_S4096x256_S4096x128_0_128 : ∀ a, (![0, 128] : Fin 2 → Nat) a + S4096x128.size a ≤ S4096x256.size a
  h_S4096x128 : 0 < S4096x128.numel
  shapeCasts_S4096x128_S4096x128 : S4096x128.ShapeCasts S4096x128
  packedbf16_S4096x256_S4096x128_0_128 : (Rect.unit (s := S4096x256) ![0, 128] S4096x128.size inb_S4096x256_S4096x128_0_128).PackedRows (EltTy.packing .bf16)
  inb_S4096x256_S4096x1_0_128 : ∀ a, (![0, 128] : Fin 2 → Nat) a + S4096x1.size a ≤ S4096x256.size a
  h_S4096x1 : 0 < S4096x1.numel
  shapeCasts_S4096x1_S4096x1 : S4096x1.ShapeCasts S4096x1
  packedbf16_S4096x256_S4096x1_0_128 : (Rect.unit (s := S4096x256) ![0, 128] S4096x1.size inb_S4096x256_S4096x1_0_128).PackedRows (EltTy.packing .bf16)
  inb_S1x16x256x128_S1x1x256x128_0_0_0_0 : ∀ a, (![0, 0, 0, 0] : Fin 4 → Nat) a + S1x1x256x128.size a ≤ S1x16x256x128.size a
  h_S1x1x256x128 : 0 < S1x1x256x128.numel
  shapeCasts_S1x1x256x128_S256x128 : S1x1x256x128.ShapeCasts S256x128
  inb_S4096x256_S256x128_0_0 : ∀ a, (![0, 0] : Fin 2 → Nat) a + S256x128.size a ≤ S4096x256.size a
  h_S256x128 : 0 < S256x128.numel
  shapeCasts_S256x128_S256x128 : S256x128.ShapeCasts S256x128
  packedbf16_S4096x256_S256x128_0_0 : (Rect.unit (s := S4096x256) ![0, 0] S256x128.size inb_S4096x256_S256x128_0_0).PackedRows (EltTy.packing .bf16)
  inb_S1x16x256x128_S1x1x256x128_0_1_0_0 : ∀ a, (![0, 1, 0, 0] : Fin 4 → Nat) a + S1x1x256x128.size a ≤ S1x16x256x128.size a
  inb_S4096x256_S256x128_256_0 : ∀ a, (![256, 0] : Fin 2 → Nat) a + S256x128.size a ≤ S4096x256.size a
  packedbf16_S4096x256_S256x128_256_0 : (Rect.unit (s := S4096x256) ![256, 0] S256x128.size inb_S4096x256_S256x128_256_0).PackedRows (EltTy.packing .bf16)
  inb_S1x16x256x128_S1x1x256x128_0_2_0_0 : ∀ a, (![0, 2, 0, 0] : Fin 4 → Nat) a + S1x1x256x128.size a ≤ S1x16x256x128.size a
  inb_S4096x256_S256x128_512_0 : ∀ a, (![512, 0] : Fin 2 → Nat) a + S256x128.size a ≤ S4096x256.size a
  packedbf16_S4096x256_S256x128_512_0 : (Rect.unit (s := S4096x256) ![512, 0] S256x128.size inb_S4096x256_S256x128_512_0).PackedRows (EltTy.packing .bf16)
  inb_S1x16x256x128_S1x1x256x128_0_3_0_0 : ∀ a, (![0, 3, 0, 0] : Fin 4 → Nat) a + S1x1x256x128.size a ≤ S1x16x256x128.size a
  inb_S4096x256_S256x128_768_0 : ∀ a, (![768, 0] : Fin 2 → Nat) a + S256x128.size a ≤ S4096x256.size a
  packedbf16_S4096x256_S256x128_768_0 : (Rect.unit (s := S4096x256) ![768, 0] S256x128.size inb_S4096x256_S256x128_768_0).PackedRows (EltTy.packing .bf16)
  inb_S1x16x256x128_S1x1x256x128_0_4_0_0 : ∀ a, (![0, 4, 0, 0] : Fin 4 → Nat) a + S1x1x256x128.size a ≤ S1x16x256x128.size a
  inb_S4096x256_S256x128_1024_0 : ∀ a, (![1024, 0] : Fin 2 → Nat) a + S256x128.size a ≤ S4096x256.size a
  packedbf16_S4096x256_S256x128_1024_0 : (Rect.unit (s := S4096x256) ![1024, 0] S256x128.size inb_S4096x256_S256x128_1024_0).PackedRows (EltTy.packing .bf16)
  inb_S1x16x256x128_S1x1x256x128_0_5_0_0 : ∀ a, (![0, 5, 0, 0] : Fin 4 → Nat) a + S1x1x256x128.size a ≤ S1x16x256x128.size a
  inb_S4096x256_S256x128_1280_0 : ∀ a, (![1280, 0] : Fin 2 → Nat) a + S256x128.size a ≤ S4096x256.size a
  packedbf16_S4096x256_S256x128_1280_0 : (Rect.unit (s := S4096x256) ![1280, 0] S256x128.size inb_S4096x256_S256x128_1280_0).PackedRows (EltTy.packing .bf16)
  inb_S1x16x256x128_S1x1x256x128_0_6_0_0 : ∀ a, (![0, 6, 0, 0] : Fin 4 → Nat) a + S1x1x256x128.size a ≤ S1x16x256x128.size a
  inb_S4096x256_S256x128_1536_0 : ∀ a, (![1536, 0] : Fin 2 → Nat) a + S256x128.size a ≤ S4096x256.size a
  packedbf16_S4096x256_S256x128_1536_0 : (Rect.unit (s := S4096x256) ![1536, 0] S256x128.size inb_S4096x256_S256x128_1536_0).PackedRows (EltTy.packing .bf16)
  inb_S1x16x256x128_S1x1x256x128_0_7_0_0 : ∀ a, (![0, 7, 0, 0] : Fin 4 → Nat) a + S1x1x256x128.size a ≤ S1x16x256x128.size a
  inb_S4096x256_S256x128_1792_0 : ∀ a, (![1792, 0] : Fin 2 → Nat) a + S256x128.size a ≤ S4096x256.size a
  packedbf16_S4096x256_S256x128_1792_0 : (Rect.unit (s := S4096x256) ![1792, 0] S256x128.size inb_S4096x256_S256x128_1792_0).PackedRows (EltTy.packing .bf16)
  inb_S1x16x256x128_S1x1x256x128_0_8_0_0 : ∀ a, (![0, 8, 0, 0] : Fin 4 → Nat) a + S1x1x256x128.size a ≤ S1x16x256x128.size a
  inb_S4096x256_S256x128_2048_0 : ∀ a, (![2048, 0] : Fin 2 → Nat) a + S256x128.size a ≤ S4096x256.size a
  packedbf16_S4096x256_S256x128_2048_0 : (Rect.unit (s := S4096x256) ![2048, 0] S256x128.size inb_S4096x256_S256x128_2048_0).PackedRows (EltTy.packing .bf16)
  inb_S1x16x256x128_S1x1x256x128_0_9_0_0 : ∀ a, (![0, 9, 0, 0] : Fin 4 → Nat) a + S1x1x256x128.size a ≤ S1x16x256x128.size a
  inb_S4096x256_S256x128_2304_0 : ∀ a, (![2304, 0] : Fin 2 → Nat) a + S256x128.size a ≤ S4096x256.size a
  packedbf16_S4096x256_S256x128_2304_0 : (Rect.unit (s := S4096x256) ![2304, 0] S256x128.size inb_S4096x256_S256x128_2304_0).PackedRows (EltTy.packing .bf16)
  inb_S1x16x256x128_S1x1x256x128_0_10_0_0 : ∀ a, (![0, 10, 0, 0] : Fin 4 → Nat) a + S1x1x256x128.size a ≤ S1x16x256x128.size a
  inb_S4096x256_S256x128_2560_0 : ∀ a, (![2560, 0] : Fin 2 → Nat) a + S256x128.size a ≤ S4096x256.size a
  packedbf16_S4096x256_S256x128_2560_0 : (Rect.unit (s := S4096x256) ![2560, 0] S256x128.size inb_S4096x256_S256x128_2560_0).PackedRows (EltTy.packing .bf16)
  inb_S1x16x256x128_S1x1x256x128_0_11_0_0 : ∀ a, (![0, 11, 0, 0] : Fin 4 → Nat) a + S1x1x256x128.size a ≤ S1x16x256x128.size a
  inb_S4096x256_S256x128_2816_0 : ∀ a, (![2816, 0] : Fin 2 → Nat) a + S256x128.size a ≤ S4096x256.size a
  packedbf16_S4096x256_S256x128_2816_0 : (Rect.unit (s := S4096x256) ![2816, 0] S256x128.size inb_S4096x256_S256x128_2816_0).PackedRows (EltTy.packing .bf16)
  inb_S1x16x256x128_S1x1x256x128_0_12_0_0 : ∀ a, (![0, 12, 0, 0] : Fin 4 → Nat) a + S1x1x256x128.size a ≤ S1x16x256x128.size a
  inb_S4096x256_S256x128_3072_0 : ∀ a, (![3072, 0] : Fin 2 → Nat) a + S256x128.size a ≤ S4096x256.size a
  packedbf16_S4096x256_S256x128_3072_0 : (Rect.unit (s := S4096x256) ![3072, 0] S256x128.size inb_S4096x256_S256x128_3072_0).PackedRows (EltTy.packing .bf16)
  inb_S1x16x256x128_S1x1x256x128_0_13_0_0 : ∀ a, (![0, 13, 0, 0] : Fin 4 → Nat) a + S1x1x256x128.size a ≤ S1x16x256x128.size a
  inb_S4096x256_S256x128_3328_0 : ∀ a, (![3328, 0] : Fin 2 → Nat) a + S256x128.size a ≤ S4096x256.size a
  packedbf16_S4096x256_S256x128_3328_0 : (Rect.unit (s := S4096x256) ![3328, 0] S256x128.size inb_S4096x256_S256x128_3328_0).PackedRows (EltTy.packing .bf16)
  inb_S1x16x256x128_S1x1x256x128_0_14_0_0 : ∀ a, (![0, 14, 0, 0] : Fin 4 → Nat) a + S1x1x256x128.size a ≤ S1x16x256x128.size a
  inb_S4096x256_S256x128_3584_0 : ∀ a, (![3584, 0] : Fin 2 → Nat) a + S256x128.size a ≤ S4096x256.size a
  packedbf16_S4096x256_S256x128_3584_0 : (Rect.unit (s := S4096x256) ![3584, 0] S256x128.size inb_S4096x256_S256x128_3584_0).PackedRows (EltTy.packing .bf16)
  inb_S1x16x256x128_S1x1x256x128_0_15_0_0 : ∀ a, (![0, 15, 0, 0] : Fin 4 → Nat) a + S1x1x256x128.size a ≤ S1x16x256x128.size a
  inb_S4096x256_S256x128_3840_0 : ∀ a, (![3840, 0] : Fin 2 → Nat) a + S256x128.size a ≤ S4096x256.size a
  packedbf16_S4096x256_S256x128_3840_0 : (Rect.unit (s := S4096x256) ![3840, 0] S256x128.size inb_S4096x256_S256x128_3840_0).PackedRows (EltTy.packing .bf16)
  inb_S1x16x256x256_S1x1x256x256_0_0_0_0 : ∀ a, (![0, 0, 0, 0] : Fin 4 → Nat) a + S1x1x256x256.size a ≤ S1x16x256x256.size a
  h_S1x1x256x256 : 0 < S1x1x256x256.numel
  shapeCasts_S1x1x256x256_S256x256 : S1x1x256x256.ShapeCasts S256x256
  inb_S4096x256_S256x256_0_0 : ∀ a, (![0, 0] : Fin 2 → Nat) a + S256x256.size a ≤ S4096x256.size a
  h_S256x256 : 0 < S256x256.numel
  slices_S256x256_o0_128_S256x1 : S256x256.Slices ![0, 128] S256x1
  broadcasts_S256x1_S256x256 : S256x1.Broadcasts S256x256
  shapeCasts_S256x256_S256x256 : S256x256.ShapeCasts S256x256
  packedbf16_S4096x256_S256x256_0_0 : (Rect.unit (s := S4096x256) ![0, 0] S256x256.size inb_S4096x256_S256x256_0_0).PackedRows (EltTy.packing .bf16)
  inb_S1x16x256x256_S1x1x256x256_0_1_0_0 : ∀ a, (![0, 1, 0, 0] : Fin 4 → Nat) a + S1x1x256x256.size a ≤ S1x16x256x256.size a
  inb_S4096x256_S256x256_256_0 : ∀ a, (![256, 0] : Fin 2 → Nat) a + S256x256.size a ≤ S4096x256.size a
  packedbf16_S4096x256_S256x256_256_0 : (Rect.unit (s := S4096x256) ![256, 0] S256x256.size inb_S4096x256_S256x256_256_0).PackedRows (EltTy.packing .bf16)
  inb_S1x16x256x256_S1x1x256x256_0_2_0_0 : ∀ a, (![0, 2, 0, 0] : Fin 4 → Nat) a + S1x1x256x256.size a ≤ S1x16x256x256.size a
  inb_S4096x256_S256x256_512_0 : ∀ a, (![512, 0] : Fin 2 → Nat) a + S256x256.size a ≤ S4096x256.size a
  packedbf16_S4096x256_S256x256_512_0 : (Rect.unit (s := S4096x256) ![512, 0] S256x256.size inb_S4096x256_S256x256_512_0).PackedRows (EltTy.packing .bf16)
  inb_S1x16x256x256_S1x1x256x256_0_3_0_0 : ∀ a, (![0, 3, 0, 0] : Fin 4 → Nat) a + S1x1x256x256.size a ≤ S1x16x256x256.size a
  inb_S4096x256_S256x256_768_0 : ∀ a, (![768, 0] : Fin 2 → Nat) a + S256x256.size a ≤ S4096x256.size a
  packedbf16_S4096x256_S256x256_768_0 : (Rect.unit (s := S4096x256) ![768, 0] S256x256.size inb_S4096x256_S256x256_768_0).PackedRows (EltTy.packing .bf16)
  inb_S1x16x256x256_S1x1x256x256_0_4_0_0 : ∀ a, (![0, 4, 0, 0] : Fin 4 → Nat) a + S1x1x256x256.size a ≤ S1x16x256x256.size a
  inb_S4096x256_S256x256_1024_0 : ∀ a, (![1024, 0] : Fin 2 → Nat) a + S256x256.size a ≤ S4096x256.size a
  packedbf16_S4096x256_S256x256_1024_0 : (Rect.unit (s := S4096x256) ![1024, 0] S256x256.size inb_S4096x256_S256x256_1024_0).PackedRows (EltTy.packing .bf16)
  inb_S1x16x256x256_S1x1x256x256_0_5_0_0 : ∀ a, (![0, 5, 0, 0] : Fin 4 → Nat) a + S1x1x256x256.size a ≤ S1x16x256x256.size a
  inb_S4096x256_S256x256_1280_0 : ∀ a, (![1280, 0] : Fin 2 → Nat) a + S256x256.size a ≤ S4096x256.size a
  packedbf16_S4096x256_S256x256_1280_0 : (Rect.unit (s := S4096x256) ![1280, 0] S256x256.size inb_S4096x256_S256x256_1280_0).PackedRows (EltTy.packing .bf16)
  inb_S1x16x256x256_S1x1x256x256_0_6_0_0 : ∀ a, (![0, 6, 0, 0] : Fin 4 → Nat) a + S1x1x256x256.size a ≤ S1x16x256x256.size a
  inb_S4096x256_S256x256_1536_0 : ∀ a, (![1536, 0] : Fin 2 → Nat) a + S256x256.size a ≤ S4096x256.size a
  packedbf16_S4096x256_S256x256_1536_0 : (Rect.unit (s := S4096x256) ![1536, 0] S256x256.size inb_S4096x256_S256x256_1536_0).PackedRows (EltTy.packing .bf16)
  inb_S1x16x256x256_S1x1x256x256_0_7_0_0 : ∀ a, (![0, 7, 0, 0] : Fin 4 → Nat) a + S1x1x256x256.size a ≤ S1x16x256x256.size a
  inb_S4096x256_S256x256_1792_0 : ∀ a, (![1792, 0] : Fin 2 → Nat) a + S256x256.size a ≤ S4096x256.size a
  packedbf16_S4096x256_S256x256_1792_0 : (Rect.unit (s := S4096x256) ![1792, 0] S256x256.size inb_S4096x256_S256x256_1792_0).PackedRows (EltTy.packing .bf16)
  inb_S1x16x256x256_S1x1x256x256_0_8_0_0 : ∀ a, (![0, 8, 0, 0] : Fin 4 → Nat) a + S1x1x256x256.size a ≤ S1x16x256x256.size a
  inb_S4096x256_S256x256_2048_0 : ∀ a, (![2048, 0] : Fin 2 → Nat) a + S256x256.size a ≤ S4096x256.size a
  packedbf16_S4096x256_S256x256_2048_0 : (Rect.unit (s := S4096x256) ![2048, 0] S256x256.size inb_S4096x256_S256x256_2048_0).PackedRows (EltTy.packing .bf16)
  inb_S1x16x256x256_S1x1x256x256_0_9_0_0 : ∀ a, (![0, 9, 0, 0] : Fin 4 → Nat) a + S1x1x256x256.size a ≤ S1x16x256x256.size a
  inb_S4096x256_S256x256_2304_0 : ∀ a, (![2304, 0] : Fin 2 → Nat) a + S256x256.size a ≤ S4096x256.size a
  packedbf16_S4096x256_S256x256_2304_0 : (Rect.unit (s := S4096x256) ![2304, 0] S256x256.size inb_S4096x256_S256x256_2304_0).PackedRows (EltTy.packing .bf16)
  inb_S1x16x256x256_S1x1x256x256_0_10_0_0 : ∀ a, (![0, 10, 0, 0] : Fin 4 → Nat) a + S1x1x256x256.size a ≤ S1x16x256x256.size a
  inb_S4096x256_S256x256_2560_0 : ∀ a, (![2560, 0] : Fin 2 → Nat) a + S256x256.size a ≤ S4096x256.size a
  packedbf16_S4096x256_S256x256_2560_0 : (Rect.unit (s := S4096x256) ![2560, 0] S256x256.size inb_S4096x256_S256x256_2560_0).PackedRows (EltTy.packing .bf16)
  inb_S1x16x256x256_S1x1x256x256_0_11_0_0 : ∀ a, (![0, 11, 0, 0] : Fin 4 → Nat) a + S1x1x256x256.size a ≤ S1x16x256x256.size a
  inb_S4096x256_S256x256_2816_0 : ∀ a, (![2816, 0] : Fin 2 → Nat) a + S256x256.size a ≤ S4096x256.size a
  packedbf16_S4096x256_S256x256_2816_0 : (Rect.unit (s := S4096x256) ![2816, 0] S256x256.size inb_S4096x256_S256x256_2816_0).PackedRows (EltTy.packing .bf16)
  inb_S1x16x256x256_S1x1x256x256_0_12_0_0 : ∀ a, (![0, 12, 0, 0] : Fin 4 → Nat) a + S1x1x256x256.size a ≤ S1x16x256x256.size a
  inb_S4096x256_S256x256_3072_0 : ∀ a, (![3072, 0] : Fin 2 → Nat) a + S256x256.size a ≤ S4096x256.size a
  packedbf16_S4096x256_S256x256_3072_0 : (Rect.unit (s := S4096x256) ![3072, 0] S256x256.size inb_S4096x256_S256x256_3072_0).PackedRows (EltTy.packing .bf16)
  inb_S1x16x256x256_S1x1x256x256_0_13_0_0 : ∀ a, (![0, 13, 0, 0] : Fin 4 → Nat) a + S1x1x256x256.size a ≤ S1x16x256x256.size a
  inb_S4096x256_S256x256_3328_0 : ∀ a, (![3328, 0] : Fin 2 → Nat) a + S256x256.size a ≤ S4096x256.size a
  packedbf16_S4096x256_S256x256_3328_0 : (Rect.unit (s := S4096x256) ![3328, 0] S256x256.size inb_S4096x256_S256x256_3328_0).PackedRows (EltTy.packing .bf16)
  inb_S1x16x256x256_S1x1x256x256_0_14_0_0 : ∀ a, (![0, 14, 0, 0] : Fin 4 → Nat) a + S1x1x256x256.size a ≤ S1x16x256x256.size a
  inb_S4096x256_S256x256_3584_0 : ∀ a, (![3584, 0] : Fin 2 → Nat) a + S256x256.size a ≤ S4096x256.size a
  packedbf16_S4096x256_S256x256_3584_0 : (Rect.unit (s := S4096x256) ![3584, 0] S256x256.size inb_S4096x256_S256x256_3584_0).PackedRows (EltTy.packing .bf16)
  inb_S1x16x256x256_S1x1x256x256_0_15_0_0 : ∀ a, (![0, 15, 0, 0] : Fin 4 → Nat) a + S1x1x256x256.size a ≤ S1x16x256x256.size a
  inb_S4096x256_S256x256_3840_0 : ∀ a, (![3840, 0] : Fin 2 → Nat) a + S256x256.size a ≤ S4096x256.size a
  packedbf16_S4096x256_S256x256_3840_0 : (Rect.unit (s := S4096x256) ![3840, 0] S256x256.size inb_S4096x256_S256x256_3840_0).PackedRows (EltTy.packing .bf16)
  inb_S4096x256_S4096x256_0_0 : ∀ a, (![0, 0] : Fin 2 → Nat) a + S4096x256.size a ≤ S4096x256.size a
  h_S4096x256 : 0 < S4096x256.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  shapeCasts_S4096x128_S1x4096x128 : S4096x128.ShapeCasts S1x4096x128
  shapeCasts_S8x4096x128_S128x256x128 : S8x4096x128.ShapeCasts S128x256x128
  dot_S256x256_S256x256_S256x256_1_0_0_1_n_n_wf : DotDims.WF S256x256 S256x256 S256x256 [1] [0] [0] [1] [] []
  dot_S4096x256_S256x512_S4096x512_1_0_0_1_n_n_wf : DotDims.WF S4096x256 S256x512 S4096x512 [1] [0] [0] [1] [] []
  dot_S4096x512_S512x128_S4096x128_1_0_0_1_n_n_wf : DotDims.WF S4096x512 S512x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x256x128.size a ≤ S8x16x256x128.size a
  hwx0_0 : ∀ i : grid0.Coords, EltTy.bits .f32 = 32 ∨ (Rect.block (s := S8x16x256x128) S1x16x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x256x256.size a ≤ S8x16x256x256.size a
  hwx0_1 : ∀ i : grid0.Coords, EltTy.bits .f32 = 32 ∨ (Rect.block (s := S8x16x256x256) S1x16x256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .bf16 = 32 ∨ (Rect.block (s := S512x128) S512x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x4096x128.size a ≤ S8x4096x128.size a
  hwx0_5 : ∀ i : grid0.Coords, EltTy.bits .f32 = 32 ∨ (Rect.block (s := S8x4096x128) S1x4096x128.size (cc0_transform_5 i) (hinb0_5 i)).WholeWords (EltTy.packing .f32)

variable [Facts₀]

def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf
def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf

abbrev win0_0 : Pipeline.Window sig grid0 :=
  Pipeline.Window.ofSpec (Memref.whole main_v0) S1x16x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x16x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x4096x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S128x256x128 : Shape := ⟨3, ![128, 256, 128]⟩
abbrev S128x256x256 : Shape := ⟨3, ![128, 256, 256]⟩
abbrev S128x512 : Shape := ⟨2, ![128, 512]⟩
abbrev S512 : Shape := ⟨1, ![512]⟩
abbrev S512x128 : Shape := ⟨2, ![512, 128]⟩
abbrev S128 : Shape := ⟨1, ![128]⟩
abbrev S128x256x512 : Shape := ⟨3, ![128, 256, 512]⟩
abbrev S1x1x512 : Shape := ⟨3, ![1, 1, 512]⟩
abbrev S_ : Shape := ⟨0, ![]⟩
abbrev S128x256 : Shape := ⟨2, ![128, 256]⟩
abbrev S128x256x1 : Shape := ⟨3, ![128, 256, 1]⟩
abbrev S1x1x128 : Shape := ⟨3, ![1, 1, 128]⟩

abbrev nBuf : Space → Nat
  | .hbm => 27
  | .vmem => 0
  | .smem => 0
  | _ => 0

abbrev bufTy : (tb : Table) → Fin (tcTables nBuf tb) → BufTy
  | .hbm, ⟨0, _⟩ => ⟨S128x256x128, .f32⟩
  | .hbm, ⟨1, _⟩ => ⟨S128x256x256, .f32⟩
  | .hbm, ⟨2, _⟩ => ⟨S128x512, .f32⟩
  | .hbm, ⟨3, _⟩ => ⟨S512, .f32⟩
  | .hbm, ⟨4, _⟩ => ⟨S512x128, .f32⟩
  | .hbm, ⟨5, _⟩ => ⟨S128, .f32⟩
  | .hbm, ⟨6, _⟩ => ⟨S128x256x512, .f32⟩
  | .hbm, ⟨7, _⟩ => ⟨S1x1x512, .f32⟩
  | .hbm, ⟨8, _⟩ => ⟨S128x256x512, .f32⟩
  | .hbm, ⟨9, _⟩ => ⟨S128x256x512, .f32⟩
  | .hbm, ⟨10, _⟩ => ⟨S128x256x512, .f32⟩
  | .hbm, ⟨11, _⟩ => ⟨S_, .f32⟩
  | .hbm, ⟨12, _⟩ => ⟨S128x256, .f32⟩
  | .hbm, ⟨13, _⟩ => ⟨S128x256x1, .f32⟩
  | .hbm, ⟨14, _⟩ => ⟨S_, .f32⟩
  | .hbm, ⟨15, _⟩ => ⟨S_, .f32⟩
  | .hbm, ⟨16, _⟩ => ⟨S128x256x1, .f32⟩
  | .hbm, ⟨17, _⟩ => ⟨S128x256x1, .f32⟩
  | .hbm, ⟨18, _⟩ => ⟨S128x256x512, .f32⟩
  | .hbm, ⟨19, _⟩ => ⟨S128x256x512, .f32⟩
  | .hbm, ⟨20, _⟩ => ⟨S_, .f32⟩
  | .hbm, ⟨21, _⟩ => ⟨S128x256x512, .f32⟩
  | .hbm, ⟨22, _⟩ => ⟨S128x256x512, .f32⟩
  | .hbm, ⟨23, _⟩ => ⟨S128x256x128, .f32⟩
  | .hbm, ⟨24, _⟩ => ⟨S1x1x128, .f32⟩
  | .hbm, ⟨25, _⟩ => ⟨S128x256x128, .f32⟩
  | .hbm, ⟨26, _⟩ => ⟨S128x256x128, .f32⟩
  | _, _ => ⟨S128x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call1_cst : Ref sig .tc := ⟨.hbm, 20, rfl⟩
abbrev main_call1_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S128x256x512_0_1_2 : S1x1x512.BroadcastsInDim S128x256x512 (![0, 1, 2] : Fin 3 → Fin S128x256x512.rank)
  reducesTo_S128x256x256_S128x256_d2 : S128x256x256.ReducesTo [2] S128x256
  h_S_ : 0 < S_.numel
  bcast_S128x256_S128x256x1_0_1 : S128x256.BroadcastsInDim S128x256x1 (![0, 1] : Fin 2 → Fin S128x256x1.rank)
  bcast_S_S128x256x1 : S_.BroadcastsInDim S128x256x1 (![] : Fin 0 → Fin S128x256x1.rank)
  bcast_S128x256x1_S128x256x512_0_1_2 : S128x256x1.BroadcastsInDim S128x256x512 (![0, 1, 2] : Fin 3 → Fin S128x256x512.rank)
  bcast_S_S128x256x512 : S_.BroadcastsInDim S128x256x512 (![] : Fin 0 → Fin S128x256x512.rank)
  bcast_S128_S1x1x128_2 : S128.BroadcastsInDim S1x1x128 (![2] : Fin 1 → Fin S1x1x128.rank)
  bcast_S1x1x128_S128x256x128_0_1_2 : S1x1x128.BroadcastsInDim S128x256x128 (![0, 1, 2] : Fin 3 → Fin S128x256x128.rank)
  dot_S128x256x128_S128x512_S128x256x512_2_0_01_1_n_n_wf : DotDims.WF S128x256x128 S128x512 S128x256x512 [2] [0] [0, 1] [1] [] []
  dot_S128x256x256_S128x256x512_S128x256x512_2_1_1_2_0_0_wf : DotDims.WF S128x256x256 S128x256x512 S128x256x512 [2] [1] [1] [2] [0] [0]
  dot_S128x256x512_S512x128_S128x256x128_2_0_01_1_n_n_wf : DotDims.WF S128x256x512 S512x128 S128x256x128 [2] [0] [0, 1] [1] [] []

variable [Facts₀]

def dot_S128x256x128_S128x512_S128x256x512_2_0_01_1_n_n : DotDims S128x256x128 S128x512 S128x256x512 where
  lhsContracting := [2]
  rhsContracting := [0]
  lhsNonContracting := [0, 1]
  rhsNonContracting := [1]
  lhsBatch := []
  rhsBatch := []
  wf := dot_S128x256x128_S128x512_S128x256x512_2_0_01_1_n_n_wf
def dot_S128x256x256_S128x256x512_S128x256x512_2_1_1_2_0_0 : DotDims S128x256x256 S128x256x512 S128x256x512 where
  lhsContracting := [2]
  rhsContracting := [1]
  lhsNonContracting := [1]
  rhsNonContracting := [2]
  lhsBatch := [0]
  rhsBatch := [0]
  wf := dot_S128x256x256_S128x256x512_S128x256x512_2_1_1_2_0_0_wf
def dot_S128x256x512_S512x128_S128x256x128_2_0_01_1_n_n : DotDims S128x256x512 S512x128 S128x256x128 where
  lhsContracting := [2]
  rhsContracting := [0]
  lhsNonContracting := [0, 1]
  rhsNonContracting := [1]
  lhsBatch := []
  rhsBatch := []
  wf := dot_S128x256x512_S512x128_S128x256x128_2_0_01_1_n_n_wf

class Facts : Prop extends Facts₀ where

variable [Facts]
-- ==== Proof.KB.Base.lean ====
/-
  The frame's fixed parts for this program: what the region finds in each buffer (the host operations before it
  applied to the launch memory), the program as "host lines, the region, host lines", each window's block at a grid
  point, the branch of the body decided over the grid (the first point resets the upper half of the first scratch),
  the staging and scratch buffers as the body is called with them, and how the frame claim's post is read off the
  run's post (no argument array is staged by a window, and no host line writes one).
-/
import proofs.«136502_g1906965479736_cont_8to1_1380_11_alg».proof.Proof.Gen.Kernel.Launch
import proofs.«136502_g1906965479736_cont_8to1_1380_11_alg».proof.Proof.Gen.Kernel.Skeleton
import proofs.«136502_g1906965479736_cont_8to1_1380_11_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core c's buffers when the region is entered: the launch memory after the nine host operations before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host operations before the region, the region, and the one reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches only arrays of the pipeline and buffers that bypass it, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes no array of the pipeline (its result is the program's result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays are written by no host line -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg0 (by exact (by decide : ∀ w, Pipeline.arrRef spec0 w ≠ main_arg0))]
  exact V_main_arg0 m c

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg1 (by exact (by decide : ∀ w, Pipeline.arrRef spec0 w ≠ main_arg1))]
  exact V_main_arg1 m c

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg2 (by exact (by decide : ∀ w, Pipeline.arrRef spec0 w ≠ main_arg2))]
  exact V_main_arg2 m c

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg3 (by exact (by decide : ∀ w, Pipeline.arrRef spec0 w ≠ main_arg3))]
  exact V_main_arg3 m c

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg4 (by exact (by decide : ∀ w, Pipeline.arrRef spec0 w ≠ main_arg4))]
  exact V_main_arg4 m c

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetched it or the
    block index did not move since the last fetch. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the point fetched it or the
    block index did not move since the last fetch. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the point fetched it or the
    block index did not move since the last fetch. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the point fetched it or the
    block index did not move since the last fetch. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, whether the point fetched it or the
    block index did not move since the last fetch. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run -/

/-- A run that ends with every buffer outside the pipeline as the host lines leave it ends with the six argument
    arrays as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
    ((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c)⟩) h

/-! ## The body's one branch -/

/-- The body resets the upper half of the first scratch exactly when the grid coordinate is zero. -/
abbrev cond0_0 (i : grid0.Coords) : Prop := (Scalar.cmpi .ne (Scalar.extui (Scalar.cmpi .eq (BitVec.ofNat 32 (i 0).val) 0#32)) 0#32) = 1#1
/-- That is the first of the eight points. -/
theorem hcond0_0 : ∀ t : Fin cfg0.N, cond0_0 (grid0.coords t) ↔ t.val = 0 :=
  (by decide +kernel : ∀ t : Fin grid0.N, cond0_0 (grid0.coords t) ↔ t.val = 0)

/-! ## No window is ever idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel

/-! ## The buffers the body is called with -/
abbrev ms0_0 (t : Fin cfg0.N) : Memref sig .tc .vmem S1x16x256x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x16x256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4096x128 .f32 := win0_5.stage (cfg0.slots t 5)
abbrev hs0_5 (t : Fin cfg0.N) : (ms0_5 t).IsWhole := hstage0_5 ((cfg0.slots t 5).cast nbuf0_5)
/-- The two scratch buffers: the augmented features, carried between points, and the scaled rows. -/
abbrev scM0_0 : Memref sig .tc .vmem S4096x256 .bf16 := Memref.whole cc0_scratch0
abbrev scM0_1 : Memref sig .tc .vmem S4096x256 .bf16 := Memref.whole cc0_scratch1
/-- One staging buffer of the output window, through which its contents are stated. -/
abbrev VO0_5 : View sig .tc .vmem S1x4096x128 .f32 := (Memref.whole cc0_stg5_0 : Memref sig .tc .vmem S1x4096x128 .f32).view
/-- The carried scratch as a view. -/
abbrev VS0_0 : View sig .tc .vmem S4096x256 .bf16 := scM0_0.view

/-- The region's invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.KB.RunA.lean ====
/-
  The body at the first grid point, run symbolically on whole buffers: the inputs' staging buffers at their blocks, the
  output's staging buffer and both scratch buffers at anything. The branch that resets the upper half of the first scratch
  (zeros in columns 128 to 255, then ones in column 128) is taken. The run ends with the inputs as they were and each
  written buffer holding a list of pieces (the last store first), which are the witness: one piece for the output, the
  two resets and sixteen feature blocks for the first scratch, sixteen scaled blocks for the second.
-/
import proofs.«136502_g1906965479736_cont_8to1_1380_11_alg».proof.Proof.KB.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S1x16x256x128 .f32) (harg1 : arg1.IsWhole) (arg2 : Memref sig .tc .vmem S1x16x256x256 .f32) (harg2 : arg2.IsWhole) (arg3 : Memref sig .tc .vmem S256x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1x4096x128 .f32) (harg6 : arg6.IsWhole) (arg7 : Memref sig .tc .vmem S4096x256 .bf16) (harg7 : arg7.IsWhole) (arg8 : Memref sig .tc .vmem S4096x256 .bf16) (harg8 : arg8.IsWhole) (hc0 : cond0_0 i)
    (x0 : Vec F S1x16x256x128 .f32) (x1 : Vec F S1x16x256x256 .f32) (x2 : Vec F S256x512 .bf16) (x3 : Vec F S512x128 .bf16) (x4 : Vec F S1x128 .f32) :
    Σ' (L5 : List (View.Piece (Elt F) S1x4096x128 .f32)) (LS0 : List (View.Piece (Elt F) S4096x256 .bf16)), { LS1 : List (View.Piece (Elt F) S4096x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__fused i arg1 harg1 arg2 harg2 arg3 harg3 arg4 harg4 arg5 harg5 arg6 harg6 arg7 harg7 arg8 harg8) K } := by
  refine ⟨?_, ?_, ?_, fun E K => ?run⟩
  case run =>
    simp only [cc0__fused_eq_skeleton]; unfold cc0__fused_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec_parts (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]; · iexists _; iexact HS0
    iexists _; iexact HS1

end Cert.Kernel.Hand

end
-- ==== Proof.KB.RunB.lean ====
/-
  The body at a later grid point: as at the first, but the reset is skipped, so the first scratch is taken at the contents
  the point before left (its upper half is read again by every product with the mask). The pieces are the witness: one
  for the output, sixteen feature blocks for the first scratch (over what it held), sixteen scaled blocks for the second.
-/
import proofs.«136502_g1906965479736_cont_8to1_1380_11_alg».proof.Proof.KB.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S1x16x256x128 .f32) (harg1 : arg1.IsWhole) (arg2 : Memref sig .tc .vmem S1x16x256x256 .f32) (harg2 : arg2.IsWhole) (arg3 : Memref sig .tc .vmem S256x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1x4096x128 .f32) (harg6 : arg6.IsWhole) (arg7 : Memref sig .tc .vmem S4096x256 .bf16) (harg7 : arg7.IsWhole) (arg8 : Memref sig .tc .vmem S4096x256 .bf16) (harg8 : arg8.IsWhole) (hc0 : ¬cond0_0 i)
    (x0 : Vec F S1x16x256x128 .f32) (x1 : Vec F S1x16x256x256 .f32) (x2 : Vec F S256x512 .bf16) (x3 : Vec F S512x128 .bf16) (x4 : Vec F S1x128 .f32) (xs0 : Vec F S4096x256 .bf16) :
    Σ' (L5 : List (View.Piece (Elt F) S1x4096x128 .f32)) (LS0 : List (View.Piece (Elt F) S4096x256 .bf16)), { LS1 : List (View.Piece (Elt F) S4096x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (arg7.view.loc (c : Thread nD τ) ↦[arg7.view.set]{fullShare} arg7.view.writes (Elt F) (harg7.unread xs0) LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__fused i arg1 harg1 arg2 harg2 arg3 harg3 arg4 harg4 arg5 harg5 arg6 harg6 arg7 harg7 arg8 harg8) K } := by
  refine ⟨?_, ?_, ?_, fun E K => ?run⟩
  case run =>
    simp only [cc0__fused_eq_skeleton]; unfold cc0__fused_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec_parts (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]; · iexact HS0
    iexists _; iexact HS1

end Cert.Kernel.Hand

end
-- ==== Proof.KB.Frame.lean ====
/-
  The frame of the program, and what its buffers hold point by point.

  The first grid point resets the upper half of the first scratch and every point then fills its lower half with the
  point's sixteen feature blocks; so after the first point the scratch is covered by the body's own stores, and after a
  later point it holds that point's blocks over what the point before left. The output's staging buffer is stored whole at
  every point. The proof data name these contents by recursion on the point; the region's invariant carries the first
  scratch at them (the second scratch and the generator register at anything); the body obligation is the symbolic run
  of the case the point is in; the launch is the library's run of a pipeline between two stretches of host lines.
-/
import proofs.«136502_g1906965479736_cont_8to1_1380_11_alg».proof.Proof.KB.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the first point's run leaves -/

/-- The one store into the output's staging buffer covers it. -/
theorem cover0_A_5 (c : Dev nD) (i : grid0.Coords) (arg1 : Memref sig .tc .vmem S1x16x256x128 .f32) (harg1 : arg1.IsWhole) (arg2 : Memref sig .tc .vmem S1x16x256x256 .f32) (harg2 : arg2.IsWhole) (arg3 : Memref sig .tc .vmem S256x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1x4096x128 .f32) (harg6 : arg6.IsWhole) (arg7 : Memref sig .tc .vmem S4096x256 .bf16) (harg7 : arg7.IsWhole) (arg8 : Memref sig .tc .vmem S4096x256 .bf16) (harg8 : arg8.IsWhole) (hc0 : cond0_0 i) (x0 : Vec F S1x16x256x128 .f32) (x1 : Vec F S1x16x256x256 .f32) (x2 : Vec F S256x512 .bf16) (x3 : Vec F S512x128 .bf16) (x4 : Vec F S1x128 .f32) (y : S1x4096x128.Idx) :
    ∃ pc ∈ (kernelRun0_A c i arg1 harg1 arg2 harg2 arg3 harg3 arg4 harg4 arg5 harg5 arg6 harg6 arg7 harg7 arg8 harg8 hc0 x0 x1 x2 x3 x4).1, y ∈ pc.1.set :=
  View.cover_of_tiledL (kernelRun0_A c i arg1 harg1 arg2 harg2 arg3 harg3 arg4 harg4 arg5 harg5 arg6 harg6 arg7 harg7 arg8 harg8 hc0 x0 x1 x2 x3 x4).1 S1x4096x128.size (by sl_kernel_rfl) y

/-- What the first point leaves in the output's staging buffer. -/
def out0_A_5 (c : Dev nD) (i : grid0.Coords) (arg1 : Memref sig .tc .vmem S1x16x256x128 .f32) (harg1 : arg1.IsWhole) (arg2 : Memref sig .tc .vmem S1x16x256x256 .f32) (harg2 : arg2.IsWhole) (arg3 : Memref sig .tc .vmem S256x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1x4096x128 .f32) (harg6 : arg6.IsWhole) (arg7 : Memref sig .tc .vmem S4096x256 .bf16) (harg7 : arg7.IsWhole) (arg8 : Memref sig .tc .vmem S4096x256 .bf16) (harg8 : arg8.IsWhole) (hc0 : cond0_0 i) (x0 : Vec F S1x16x256x128 .f32) (x1 : Vec F S1x16x256x256 .f32) (x2 : Vec F S256x512 .bf16) (x3 : Vec F S512x128 .bf16) (x4 : Vec F S1x128 .f32) : Vec F S1x4096x128 .f32 :=
  VO0_5.read (Elt F) (VO0_5.writes (Elt F) VO0_5.junk (kernelRun0_A c i arg1 harg1 arg2 harg2 arg3 harg3 arg4 harg4 arg5 harg5 arg6 harg6 arg7 harg7 arg8 harg8 hc0 x0 x1 x2 x3 x4).1)

/-- The first point's stores into the first scratch cover it: the sixteen feature blocks tile its lower half (columns
    below 128), the reset to zero covers its upper half. -/
theorem scover0_A_0 (c : Dev nD) (i : grid0.Coords) (arg1 : Memref sig .tc .vmem S1x16x256x128 .f32) (harg1 : arg1.IsWhole) (arg2 : Memref sig .tc .vmem S1x16x256x256 .f32) (harg2 : arg2.IsWhole) (arg3 : Memref sig .tc .vmem S256x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1x4096x128 .f32) (harg6 : arg6.IsWhole) (arg7 : Memref sig .tc .vmem S4096x256 .bf16) (harg7 : arg7.IsWhole) (arg8 : Memref sig .tc .vmem S4096x256 .bf16) (harg8 : arg8.IsWhole) (hc0 : cond0_0 i) (x0 : Vec F S1x16x256x128 .f32) (x1 : Vec F S1x16x256x256 .f32) (x2 : Vec F S256x512 .bf16) (x3 : Vec F S512x128 .bf16) (x4 : Vec F S1x128 .f32) (y : S4096x256.Idx) :
    ∃ pc ∈ (kernelRun0_A c i arg1 harg1 arg2 harg2 arg3 harg3 arg4 harg4 arg5 harg5 arg6 harg6 arg7 harg7 arg8 harg8 hc0 x0 x1 x2 x3 x4).2.1, y ∈ pc.1.set := by
  have h := LoadRect.cover_of_covChk (kernelRun0_A c i arg1 harg1 arg2 harg2 arg3 harg3 arg4 harg4 arg5 harg5 arg6 harg6 arg7 harg7 arg8 harg8 hc0 x0 x1 x2 x3 x4).2.1 (LoadRect.whole S4096x256)
    (.split 1 128 (.split 0 256 (.leaf 15) (.split 0 256 (.leaf 14) (.split 0 256 (.leaf 13) (.split 0 256 (.leaf 12) (.split 0 256 (.leaf 11) (.split 0 256 (.leaf 10) (.split 0 256 (.leaf 9) (.split 0 256 (.leaf 8) (.split 0 256 (.leaf 7) (.split 0 256 (.leaf 6) (.split 0 256 (.leaf 5) (.split 0 256 (.leaf 4) (.split 0 256 (.leaf 3) (.split 0 256 (.leaf 2) (.split 0 256 (.leaf 1) (.leaf 0)))))))))))))))) (.leaf 17)) (by sl_kernel_rfl) y
  rwa [LoadRect.idx_whole] at h

/-- What the first point leaves in the first scratch. -/
def sout0_A_0 (c : Dev nD) (i : grid0.Coords) (arg1 : Memref sig .tc .vmem S1x16x256x128 .f32) (harg1 : arg1.IsWhole) (arg2 : Memref sig .tc .vmem S1x16x256x256 .f32) (harg2 : arg2.IsWhole) (arg3 : Memref sig .tc .vmem S256x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1x4096x128 .f32) (harg6 : arg6.IsWhole) (arg7 : Memref sig .tc .vmem S4096x256 .bf16) (harg7 : arg7.IsWhole) (arg8 : Memref sig .tc .vmem S4096x256 .bf16) (harg8 : arg8.IsWhole) (hc0 : cond0_0 i) (x0 : Vec F S1x16x256x128 .f32) (x1 : Vec F S1x16x256x256 .f32) (x2 : Vec F S256x512 .bf16) (x3 : Vec F S512x128 .bf16) (x4 : Vec F S1x128 .f32) : Vec F S4096x256 .bf16 :=
  VS0_0.read (Elt F) (VS0_0.writes (Elt F) VS0_0.junk (kernelRun0_A c i arg1 harg1 arg2 harg2 arg3 harg3 arg4 harg4 arg5 harg5 arg6 harg6 arg7 harg7 arg8 harg8 hc0 x0 x1 x2 x3 x4).2.1)

/-! ## What a later point's run leaves -/

theorem cover0_B_5 (c : Dev nD) (i : grid0.Coords) (arg1 : Memref sig .tc .vmem S1x16x256x128 .f32) (harg1 : arg1.IsWhole) (arg2 : Memref sig .tc .vmem S1x16x256x256 .f32) (harg2 : arg2.IsWhole) (arg3 : Memref sig .tc .vmem S256x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1x4096x128 .f32) (harg6 : arg6.IsWhole) (arg7 : Memref sig .tc .vmem S4096x256 .bf16) (harg7 : arg7.IsWhole) (arg8 : Memref sig .tc .vmem S4096x256 .bf16) (harg8 : arg8.IsWhole) (hc0 : ¬cond0_0 i) (x0 : Vec F S1x16x256x128 .f32) (x1 : Vec F S1x16x256x256 .f32) (x2 : Vec F S256x512 .bf16) (x3 : Vec F S512x128 .bf16) (x4 : Vec F S1x128 .f32) (xs0 : Vec F S4096x256 .bf16) (y : S1x4096x128.Idx) :
    ∃ pc ∈ (kernelRun0_B c i arg1 harg1 arg2 harg2 arg3 harg3 arg4 harg4 arg5 harg5 arg6 harg6 arg7 harg7 arg8 harg8 hc0 x0 x1 x2 x3 x4 xs0).1, y ∈ pc.1.set :=
  View.cover_of_tiledL (kernelRun0_B c i arg1 harg1 arg2 harg2 arg3 harg3 arg4 harg4 arg5 harg5 arg6 harg6 arg7 harg7 arg8 harg8 hc0 x0 x1 x2 x3 x4 xs0).1 S1x4096x128.size (by sl_kernel_rfl) y

def out0_B_5 (c : Dev nD) (i : grid0.Coords) (arg1 : Memref sig .tc .vmem S1x16x256x128 .f32) (harg1 : arg1.IsWhole) (arg2 : Memref sig .tc .vmem S1x16x256x256 .f32) (harg2 : arg2.IsWhole) (arg3 : Memref sig .tc .vmem S256x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1x4096x128 .f32) (harg6 : arg6.IsWhole) (arg7 : Memref sig .tc .vmem S4096x256 .bf16) (harg7 : arg7.IsWhole) (arg8 : Memref sig .tc .vmem S4096x256 .bf16) (harg8 : arg8.IsWhole) (hc0 : ¬cond0_0 i) (x0 : Vec F S1x16x256x128 .f32) (x1 : Vec F S1x16x256x256 .f32) (x2 : Vec F S256x512 .bf16) (x3 : Vec F S512x128 .bf16) (x4 : Vec F S1x128 .f32) (xs0 : Vec F S4096x256 .bf16) : Vec F S1x4096x128 .f32 :=
  VO0_5.read (Elt F) (VO0_5.writes (Elt F) VO0_5.junk (kernelRun0_B c i arg1 harg1 arg2 harg2 arg3 harg3 arg4 harg4 arg5 harg5 arg6 harg6 arg7 harg7 arg8 harg8 hc0 x0 x1 x2 x3 x4 xs0).1)

/-- What a later point leaves in the first scratch: its feature blocks written over what the scratch held. -/
def sout0_B_0 (c : Dev nD) (i : grid0.Coords) (arg1 : Memref sig .tc .vmem S1x16x256x128 .f32) (harg1 : arg1.IsWhole) (arg2 : Memref sig .tc .vmem S1x16x256x256 .f32) (harg2 : arg2.IsWhole) (arg3 : Memref sig .tc .vmem S256x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1x4096x128 .f32) (harg6 : arg6.IsWhole) (arg7 : Memref sig .tc .vmem S4096x256 .bf16) (harg7 : arg7.IsWhole) (arg8 : Memref sig .tc .vmem S4096x256 .bf16) (harg8 : arg8.IsWhole) (hc0 : ¬cond0_0 i) (x0 : Vec F S1x16x256x128 .f32) (x1 : Vec F S1x16x256x256 .f32) (x2 : Vec F S256x512 .bf16) (x3 : Vec F S512x128 .bf16) (x4 : Vec F S1x128 .f32) (xs0 : Vec F S4096x256 .bf16) : Vec F S4096x256 .bf16 :=
  arg7.view.read (Elt F) (arg7.view.writes (Elt F) (harg7.unread xs0) (kernelRun0_B c i arg1 harg1 arg2 harg2 arg3 harg3 arg4 harg4 arg5 harg5 arg6 harg6 arg7 harg7 arg8 harg8 hc0 x0 x1 x2 x3 x4 xs0).2.1)

/-! ## Point by point -/

/-- The output's staging buffer and the first scratch after the body at position n. -/
def outsAt0 (c : Dev nD) : (n : ℕ) → n < cfg0.N → Vec F S1x4096x128 .f32 × Vec F S4096x256 .bf16
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩))
  | n + 1, hn => (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2,
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)

theorem outsAt0_A (c : Dev nD) (t : Fin cfg0.N) (h0 : t.val = 0) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t)) := by
  obtain ⟨n, hn⟩ := t
  cases n with
  | zero => exact rfl
  | succ n => exact absurd h0 (Nat.succ_ne_zero n)

theorem outsAt0_B (c : Dev nD) (t : Fin cfg0.N) (h0 : ¬t.val = 0) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2,
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact absurd rfl h0
  | succ n => exact rfl

/-- The region's invariant before position n: before the first point both scratch buffers at anything; afterwards the
    first scratch at what the point before left, the second at anything; the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2) ∗ (∃ d, owns (c : Thread nD τ) scM0_1 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2) ∗ (∃ d, owns (c : Thread nD τ) scM0_1 fullShare d)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem leaves0_5 (c : Dev nD) (t : Fin cfg0.N) : (dats m 0 c).leavesExact 5 t = owns (c : Thread nD τ) (ms0_5 t) fullShare ((outsAt0 m c t.val t.isLt).1) := by
  unfold Dat.leavesExact; rw [liveAt0_5 t, after0_5]

set_option maxHeartbeats 4800000 in
/-- The body at any point: the inputs' staging buffers hold their blocks; the first point runs with both scratch buffers
    at anything and its stores cover the first; a later point runs with the first scratch at what the point before left
    and writes over it; either way the output's staging buffer ends covered by the point's one store. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5]
  by_cases h0 : t.val = 0
  · rw [outsAt0_A m c t h0]
    unfold out0_A_5 sout0_A_0; (try dsimp only)
    rw [PhiS_castSucc m c t, PhiS_zero m c _ _ h0, PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ _ _ ((hcond0_0 t).mpr h0) (iblk m c 0 t) (iblk m c 1 t) (iblk m c 2 t) (iblk m c 3 t) (iblk m c 4 t)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, ⟨%e5, H5⟩, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _)
        · iexists _; unfold owns; iexists _; isplitr
          swap; · iexact HS1
          ipureintro; rfl
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_A_5 c _ _ _ _ _ _ _ _ _ _ _ _ _ _ _ _ _ _ _ _ _ _ _)
  · rw [outsAt0_B m c t h0]
    unfold out0_B_5 sout0_B_0; (try dsimp only)
    rw [PhiS_castSucc m c t, PhiS_pos m c _ _ h0]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ _ _ (fun h => h0 ((hcond0_0 t).mp h)) (iblk m c 0 t) (iblk m c 1 t) (iblk m c 2 t) (iblk m c 3 t) (iblk m c 4 t) _).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, ⟨%e5, H5⟩, HS0, ⟨%es1, HS1⟩⟩
    isplitl [HS0 HS1 Hg]
    · isplitl [HS0 HS1]
      · isplitl [HS0]
        · unfold owns; iexists _; isplitr
          swap; · iexact HS0
          ipureintro; rfl
        · iexists _; unfold owns; iexists _; isplitr
          swap; · iexact HS1
          ipureintro; rfl
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_B_5 c _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexact HS1
  iexact Hg

theorem hout (c : Dev nD) : (dats m 0 c).Φ (Fin.last cfg0.N) ⊢ Pipeline.ΦA spec0 c :=
  Phi_out m c _ (by rw [Fin.val_last]; have : cfg0.N = 8 := N_0; omega)

/-! ## The run and the frame -/

set_option backward.isDefEq.respectTransparency.types false in
/-- Every weakly fair execution of the program terminates, and every final state has each array of the pipeline at
    what the proof data say and every other buffer as the host lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere, and leaves its six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (run_main m ρ)

end Cert.Kernel.Hand

end
-- ==== Proof.KI.Base.lean ====
/-
  The frame's fixed parts for this program: what the region finds in each buffer (the host operations before it
  applied to the launch memory), the program as "host lines, the region, host lines", each window's block at a grid
  point, the branch of the body decided over the grid (the first point resets the upper half of the first scratch),
  the staging and scratch buffers as the body is called with them, and how the frame claim's post is read off the
  run's post (no argument array is staged by a window, and no host line writes one).
-/
import proofs.«136502_g1906965479736_cont_8to1_1380_11_alg».proof.Proof.Gen.KernelIdeal.Launch
import proofs.«136502_g1906965479736_cont_8to1_1380_11_alg».proof.Proof.Gen.KernelIdeal.Skeleton
import proofs.«136502_g1906965479736_cont_8to1_1380_11_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core c's buffers when the region is entered: the launch memory after the nine host operations before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host operations before the region, the region, and the one reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches only arrays of the pipeline and buffers that bypass it, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes no array of the pipeline (its result is the program's result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays are written by no host line -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg0 (by exact (by decide : ∀ w, Pipeline.arrRef spec0 w ≠ main_arg0))]
  exact V_main_arg0 m c

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg1 (by exact (by decide : ∀ w, Pipeline.arrRef spec0 w ≠ main_arg1))]
  exact V_main_arg1 m c

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg2 (by exact (by decide : ∀ w, Pipeline.arrRef spec0 w ≠ main_arg2))]
  exact V_main_arg2 m c

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg3 (by exact (by decide : ∀ w, Pipeline.arrRef spec0 w ≠ main_arg3))]
  exact V_main_arg3 m c

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg4 (by exact (by decide : ∀ w, Pipeline.arrRef spec0 w ≠ main_arg4))]
  exact V_main_arg4 m c

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetched it or the
    block index did not move since the last fetch. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the point fetched it or the
    block index did not move since the last fetch. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the point fetched it or the
    block index did not move since the last fetch. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the point fetched it or the
    block index did not move since the last fetch. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, whether the point fetched it or the
    block index did not move since the last fetch. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run -/

/-- A run that ends with every buffer outside the pipeline as the host lines leave it ends with the six argument
    arrays as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
    ((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c)⟩) h

/-! ## The body's one branch -/

/-- The body resets the upper half of the first scratch exactly when the grid coordinate is zero. -/
abbrev cond0_0 (i : grid0.Coords) : Prop := (Scalar.cmpi .ne (Scalar.extui (Scalar.cmpi .eq (BitVec.ofNat 32 (i 0).val) 0#32)) 0#32) = 1#1
/-- That is the first of the eight points. -/
theorem hcond0_0 : ∀ t : Fin cfg0.N, cond0_0 (grid0.coords t) ↔ t.val = 0 :=
  (by decide +kernel : ∀ t : Fin grid0.N, cond0_0 (grid0.coords t) ↔ t.val = 0)

/-! ## No window is ever idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel

/-! ## The buffers the body is called with -/
abbrev ms0_0 (t : Fin cfg0.N) : Memref sig .tc .vmem S1x16x256x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x16x256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4096x128 .f32 := win0_5.stage (cfg0.slots t 5)
abbrev hs0_5 (t : Fin cfg0.N) : (ms0_5 t).IsWhole := hstage0_5 ((cfg0.slots t 5).cast nbuf0_5)
/-- The two scratch buffers: the augmented features, carried between points, and the scaled rows. -/
abbrev scM0_0 : Memref sig .tc .vmem S4096x256 .bf16 := Memref.whole cc0_scratch0
abbrev scM0_1 : Memref sig .tc .vmem S4096x256 .bf16 := Memref.whole cc0_scratch1
/-- One staging buffer of the output window, through which its contents are stated. -/
abbrev VO0_5 : View sig .tc .vmem S1x4096x128 .f32 := (Memref.whole cc0_stg5_0 : Memref sig .tc .vmem S1x4096x128 .f32).view
/-- The carried scratch as a view. -/
abbrev VS0_0 : View sig .tc .vmem S4096x256 .bf16 := scM0_0.view

/-- The region's invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KI.RunA.lean ====
/-
  The body at the first grid point, run symbolically on whole buffers: the inputs' staging buffers at their blocks, the
  output's staging buffer and both scratch buffers at anything. The branch that resets the upper half of the first scratch
  (zeros in columns 128 to 255, then ones in column 128) is taken. The run ends with the inputs as they were and each
  written buffer holding a list of pieces (the last store first), which are the witness: one piece for the output, the
  two resets and sixteen feature blocks for the first scratch, sixteen scaled blocks for the second.
-/
import proofs.«136502_g1906965479736_cont_8to1_1380_11_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S1x16x256x128 .f32) (harg1 : arg1.IsWhole) (arg2 : Memref sig .tc .vmem S1x16x256x256 .f32) (harg2 : arg2.IsWhole) (arg3 : Memref sig .tc .vmem S256x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1x4096x128 .f32) (harg6 : arg6.IsWhole) (arg7 : Memref sig .tc .vmem S4096x256 .bf16) (harg7 : arg7.IsWhole) (arg8 : Memref sig .tc .vmem S4096x256 .bf16) (harg8 : arg8.IsWhole) (hc0 : cond0_0 i)
    (x0 : Vec F S1x16x256x128 .f32) (x1 : Vec F S1x16x256x256 .f32) (x2 : Vec F S256x512 .bf16) (x3 : Vec F S512x128 .bf16) (x4 : Vec F S1x128 .f32) :
    Σ' (L5 : List (View.Piece (Elt F) S1x4096x128 .f32)) (LS0 : List (View.Piece (Elt F) S4096x256 .bf16)), { LS1 : List (View.Piece (Elt F) S4096x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__fused i arg1 harg1 arg2 harg2 arg3 harg3 arg4 harg4 arg5 harg5 arg6 harg6 arg7 harg7 arg8 harg8) K } := by
  refine ⟨?_, ?_, ?_, fun E K => ?run⟩
  case run =>
    simp only [cc0__fused_eq_skeleton]; unfold cc0__fused_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec_parts (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]; · iexists _; iexact HS0
    iexists _; iexact HS1

end Cert.KernelIdeal.Hand

end
-- ==== Proof.KI.RunB.lean ====
/-
  The body at a later grid point: as at the first, but the reset is skipped, so the first scratch is taken at the contents
  the point before left (its upper half is read again by every product with the mask). The pieces are the witness: one
  for the output, sixteen feature blocks for the first scratch (over what it held), sixteen scaled blocks for the second.
-/
import proofs.«136502_g1906965479736_cont_8to1_1380_11_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S1x16x256x128 .f32) (harg1 : arg1.IsWhole) (arg2 : Memref sig .tc .vmem S1x16x256x256 .f32) (harg2 : arg2.IsWhole) (arg3 : Memref sig .tc .vmem S256x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1x4096x128 .f32) (harg6 : arg6.IsWhole) (arg7 : Memref sig .tc .vmem S4096x256 .bf16) (harg7 : arg7.IsWhole) (arg8 : Memref sig .tc .vmem S4096x256 .bf16) (harg8 : arg8.IsWhole) (hc0 : ¬cond0_0 i)
    (x0 : Vec F S1x16x256x128 .f32) (x1 : Vec F S1x16x256x256 .f32) (x2 : Vec F S256x512 .bf16) (x3 : Vec F S512x128 .bf16) (x4 : Vec F S1x128 .f32) (xs0 : Vec F S4096x256 .bf16) :
    Σ' (L5 : List (View.Piece (Elt F) S1x4096x128 .f32)) (LS0 : List (View.Piece (Elt F) S4096x256 .bf16)), { LS1 : List (View.Piece (Elt F) S4096x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (arg7.view.loc (c : Thread nD τ) ↦[arg7.view.set]{fullShare} arg7.view.writes (Elt F) (harg7.unread xs0) LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__fused i arg1 harg1 arg2 harg2 arg3 harg3 arg4 harg4 arg5 harg5 arg6 harg6 arg7 harg7 arg8 harg8) K } := by
  refine ⟨?_, ?_, ?_, fun E K => ?run⟩
  case run =>
    simp only [cc0__fused_eq_skeleton]; unfold cc0__fused_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec_parts (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]; · iexact HS0
    iexists _; iexact HS1

end Cert.KernelIdeal.Hand

end
-- ==== Proof.KI.Frame.lean ====
/-
  The frame of the program, and what its buffers hold point by point.

  The first grid point resets the upper half of the first scratch and every point then fills its lower half with the
  point's sixteen feature blocks; so after the first point the scratch is covered by the body's own stores, and after a
  later point it holds that point's blocks over what the point before left. The output's staging buffer is stored whole at
  every point. The proof data name these contents by recursion on the point; the region's invariant carries the first
  scratch at them (the second scratch and the generator register at anything); the body obligation is the symbolic run
  of the case the point is in; the launch is the library's run of a pipeline between two stretches of host lines.
-/
import proofs.«136502_g1906965479736_cont_8to1_1380_11_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the first point's run leaves -/

/-- The one store into the output's staging buffer covers it. -/
theorem cover0_A_5 (c : Dev nD) (i : grid0.Coords) (arg1 : Memref sig .tc .vmem S1x16x256x128 .f32) (harg1 : arg1.IsWhole) (arg2 : Memref sig .tc .vmem S1x16x256x256 .f32) (harg2 : arg2.IsWhole) (arg3 : Memref sig .tc .vmem S256x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1x4096x128 .f32) (harg6 : arg6.IsWhole) (arg7 : Memref sig .tc .vmem S4096x256 .bf16) (harg7 : arg7.IsWhole) (arg8 : Memref sig .tc .vmem S4096x256 .bf16) (harg8 : arg8.IsWhole) (hc0 : cond0_0 i) (x0 : Vec F S1x16x256x128 .f32) (x1 : Vec F S1x16x256x256 .f32) (x2 : Vec F S256x512 .bf16) (x3 : Vec F S512x128 .bf16) (x4 : Vec F S1x128 .f32) (y : S1x4096x128.Idx) :
    ∃ pc ∈ (kernelRun0_A c i arg1 harg1 arg2 harg2 arg3 harg3 arg4 harg4 arg5 harg5 arg6 harg6 arg7 harg7 arg8 harg8 hc0 x0 x1 x2 x3 x4).1, y ∈ pc.1.set :=
  View.cover_of_tiledL (kernelRun0_A c i arg1 harg1 arg2 harg2 arg3 harg3 arg4 harg4 arg5 harg5 arg6 harg6 arg7 harg7 arg8 harg8 hc0 x0 x1 x2 x3 x4).1 S1x4096x128.size (by sl_kernel_rfl) y

/-- What the first point leaves in the output's staging buffer. -/
def out0_A_5 (c : Dev nD) (i : grid0.Coords) (arg1 : Memref sig .tc .vmem S1x16x256x128 .f32) (harg1 : arg1.IsWhole) (arg2 : Memref sig .tc .vmem S1x16x256x256 .f32) (harg2 : arg2.IsWhole) (arg3 : Memref sig .tc .vmem S256x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1x4096x128 .f32) (harg6 : arg6.IsWhole) (arg7 : Memref sig .tc .vmem S4096x256 .bf16) (harg7 : arg7.IsWhole) (arg8 : Memref sig .tc .vmem S4096x256 .bf16) (harg8 : arg8.IsWhole) (hc0 : cond0_0 i) (x0 : Vec F S1x16x256x128 .f32) (x1 : Vec F S1x16x256x256 .f32) (x2 : Vec F S256x512 .bf16) (x3 : Vec F S512x128 .bf16) (x4 : Vec F S1x128 .f32) : Vec F S1x4096x128 .f32 :=
  VO0_5.read (Elt F) (VO0_5.writes (Elt F) VO0_5.junk (kernelRun0_A c i arg1 harg1 arg2 harg2 arg3 harg3 arg4 harg4 arg5 harg5 arg6 harg6 arg7 harg7 arg8 harg8 hc0 x0 x1 x2 x3 x4).1)

/-- The first point's stores into the first scratch cover it: the sixteen feature blocks tile its lower half (columns
    below 128), the reset to zero covers its upper half. -/
theorem scover0_A_0 (c : Dev nD) (i : grid0.Coords) (arg1 : Memref sig .tc .vmem S1x16x256x128 .f32) (harg1 : arg1.IsWhole) (arg2 : Memref sig .tc .vmem S1x16x256x256 .f32) (harg2 : arg2.IsWhole) (arg3 : Memref sig .tc .vmem S256x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1x4096x128 .f32) (harg6 : arg6.IsWhole) (arg7 : Memref sig .tc .vmem S4096x256 .bf16) (harg7 : arg7.IsWhole) (arg8 : Memref sig .tc .vmem S4096x256 .bf16) (harg8 : arg8.IsWhole) (hc0 : cond0_0 i) (x0 : Vec F S1x16x256x128 .f32) (x1 : Vec F S1x16x256x256 .f32) (x2 : Vec F S256x512 .bf16) (x3 : Vec F S512x128 .bf16) (x4 : Vec F S1x128 .f32) (y : S4096x256.Idx) :
    ∃ pc ∈ (kernelRun0_A c i arg1 harg1 arg2 harg2 arg3 harg3 arg4 harg4 arg5 harg5 arg6 harg6 arg7 harg7 arg8 harg8 hc0 x0 x1 x2 x3 x4).2.1, y ∈ pc.1.set := by
  have h := LoadRect.cover_of_covChk (kernelRun0_A c i arg1 harg1 arg2 harg2 arg3 harg3 arg4 harg4 arg5 harg5 arg6 harg6 arg7 harg7 arg8 harg8 hc0 x0 x1 x2 x3 x4).2.1 (LoadRect.whole S4096x256)
    (.split 1 128 (.split 0 256 (.leaf 15) (.split 0 256 (.leaf 14) (.split 0 256 (.leaf 13) (.split 0 256 (.leaf 12) (.split 0 256 (.leaf 11) (.split 0 256 (.leaf 10) (.split 0 256 (.leaf 9) (.split 0 256 (.leaf 8) (.split 0 256 (.leaf 7) (.split 0 256 (.leaf 6) (.split 0 256 (.leaf 5) (.split 0 256 (.leaf 4) (.split 0 256 (.leaf 3) (.split 0 256 (.leaf 2) (.split 0 256 (.leaf 1) (.leaf 0)))))))))))))))) (.leaf 17)) (by sl_kernel_rfl) y
  rwa [LoadRect.idx_whole] at h

/-- What the first point leaves in the first scratch. -/
def sout0_A_0 (c : Dev nD) (i : grid0.Coords) (arg1 : Memref sig .tc .vmem S1x16x256x128 .f32) (harg1 : arg1.IsWhole) (arg2 : Memref sig .tc .vmem S1x16x256x256 .f32) (harg2 : arg2.IsWhole) (arg3 : Memref sig .tc .vmem S256x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1x4096x128 .f32) (harg6 : arg6.IsWhole) (arg7 : Memref sig .tc .vmem S4096x256 .bf16) (harg7 : arg7.IsWhole) (arg8 : Memref sig .tc .vmem S4096x256 .bf16) (harg8 : arg8.IsWhole) (hc0 : cond0_0 i) (x0 : Vec F S1x16x256x128 .f32) (x1 : Vec F S1x16x256x256 .f32) (x2 : Vec F S256x512 .bf16) (x3 : Vec F S512x128 .bf16) (x4 : Vec F S1x128 .f32) : Vec F S4096x256 .bf16 :=
  VS0_0.read (Elt F) (VS0_0.writes (Elt F) VS0_0.junk (kernelRun0_A c i arg1 harg1 arg2 harg2 arg3 harg3 arg4 harg4 arg5 harg5 arg6 harg6 arg7 harg7 arg8 harg8 hc0 x0 x1 x2 x3 x4).2.1)

/-! ## What a later point's run leaves -/

theorem cover0_B_5 (c : Dev nD) (i : grid0.Coords) (arg1 : Memref sig .tc .vmem S1x16x256x128 .f32) (harg1 : arg1.IsWhole) (arg2 : Memref sig .tc .vmem S1x16x256x256 .f32) (harg2 : arg2.IsWhole) (arg3 : Memref sig .tc .vmem S256x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1x4096x128 .f32) (harg6 : arg6.IsWhole) (arg7 : Memref sig .tc .vmem S4096x256 .bf16) (harg7 : arg7.IsWhole) (arg8 : Memref sig .tc .vmem S4096x256 .bf16) (harg8 : arg8.IsWhole) (hc0 : ¬cond0_0 i) (x0 : Vec F S1x16x256x128 .f32) (x1 : Vec F S1x16x256x256 .f32) (x2 : Vec F S256x512 .bf16) (x3 : Vec F S512x128 .bf16) (x4 : Vec F S1x128 .f32) (xs0 : Vec F S4096x256 .bf16) (y : S1x4096x128.Idx) :
    ∃ pc ∈ (kernelRun0_B c i arg1 harg1 arg2 harg2 arg3 harg3 arg4 harg4 arg5 harg5 arg6 harg6 arg7 harg7 arg8 harg8 hc0 x0 x1 x2 x3 x4 xs0).1, y ∈ pc.1.set :=
  View.cover_of_tiledL (kernelRun0_B c i arg1 harg1 arg2 harg2 arg3 harg3 arg4 harg4 arg5 harg5 arg6 harg6 arg7 harg7 arg8 harg8 hc0 x0 x1 x2 x3 x4 xs0).1 S1x4096x128.size (by sl_kernel_rfl) y

def out0_B_5 (c : Dev nD) (i : grid0.Coords) (arg1 : Memref sig .tc .vmem S1x16x256x128 .f32) (harg1 : arg1.IsWhole) (arg2 : Memref sig .tc .vmem S1x16x256x256 .f32) (harg2 : arg2.IsWhole) (arg3 : Memref sig .tc .vmem S256x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1x4096x128 .f32) (harg6 : arg6.IsWhole) (arg7 : Memref sig .tc .vmem S4096x256 .bf16) (harg7 : arg7.IsWhole) (arg8 : Memref sig .tc .vmem S4096x256 .bf16) (harg8 : arg8.IsWhole) (hc0 : ¬cond0_0 i) (x0 : Vec F S1x16x256x128 .f32) (x1 : Vec F S1x16x256x256 .f32) (x2 : Vec F S256x512 .bf16) (x3 : Vec F S512x128 .bf16) (x4 : Vec F S1x128 .f32) (xs0 : Vec F S4096x256 .bf16) : Vec F S1x4096x128 .f32 :=
  VO0_5.read (Elt F) (VO0_5.writes (Elt F) VO0_5.junk (kernelRun0_B c i arg1 harg1 arg2 harg2 arg3 harg3 arg4 harg4 arg5 harg5 arg6 harg6 arg7 harg7 arg8 harg8 hc0 x0 x1 x2 x3 x4 xs0).1)

/-- What a later point leaves in the first scratch: its feature blocks written over what the scratch held. -/
def sout0_B_0 (c : Dev nD) (i : grid0.Coords) (arg1 : Memref sig .tc .vmem S1x16x256x128 .f32) (harg1 : arg1.IsWhole) (arg2 : Memref sig .tc .vmem S1x16x256x256 .f32) (harg2 : arg2.IsWhole) (arg3 : Memref sig .tc .vmem S256x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1x4096x128 .f32) (harg6 : arg6.IsWhole) (arg7 : Memref sig .tc .vmem S4096x256 .bf16) (harg7 : arg7.IsWhole) (arg8 : Memref sig .tc .vmem S4096x256 .bf16) (harg8 : arg8.IsWhole) (hc0 : ¬cond0_0 i) (x0 : Vec F S1x16x256x128 .f32) (x1 : Vec F S1x16x256x256 .f32) (x2 : Vec F S256x512 .bf16) (x3 : Vec F S512x128 .bf16) (x4 : Vec F S1x128 .f32) (xs0 : Vec F S4096x256 .bf16) : Vec F S4096x256 .bf16 :=
  arg7.view.read (Elt F) (arg7.view.writes (Elt F) (harg7.unread xs0) (kernelRun0_B c i arg1 harg1 arg2 harg2 arg3 harg3 arg4 harg4 arg5 harg5 arg6 harg6 arg7 harg7 arg8 harg8 hc0 x0 x1 x2 x3 x4 xs0).2.1)

/-! ## Point by point -/

/-- The output's staging buffer and the first scratch after the body at position n. -/
def outsAt0 (c : Dev nD) : (n : ℕ) → n < cfg0.N → Vec F S1x4096x128 .f32 × Vec F S4096x256 .bf16
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩))
  | n + 1, hn => (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2,
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)

theorem outsAt0_A (c : Dev nD) (t : Fin cfg0.N) (h0 : t.val = 0) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t)) := by
  obtain ⟨n, hn⟩ := t
  cases n with
  | zero => exact rfl
  | succ n => exact absurd h0 (Nat.succ_ne_zero n)

theorem outsAt0_B (c : Dev nD) (t : Fin cfg0.N) (h0 : ¬t.val = 0) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2,
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact absurd rfl h0
  | succ n => exact rfl

/-- The region's invariant before position n: before the first point both scratch buffers at anything; afterwards the
    first scratch at what the point before left, the second at anything; the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2) ∗ (∃ d, owns (c : Thread nD τ) scM0_1 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2) ∗ (∃ d, owns (c : Thread nD τ) scM0_1 fullShare d)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem leaves0_5 (c : Dev nD) (t : Fin cfg0.N) : (dats m 0 c).leavesExact 5 t = owns (c : Thread nD τ) (ms0_5 t) fullShare ((outsAt0 m c t.val t.isLt).1) := by
  unfold Dat.leavesExact; rw [liveAt0_5 t, after0_5]

set_option maxHeartbeats 4800000 in
/-- The body at any point: the inputs' staging buffers hold their blocks; the first point runs with both scratch buffers
    at anything and its stores cover the first; a later point runs with the first scratch at what the point before left
    and writes over it; either way the output's staging buffer ends covered by the point's one store. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5]
  by_cases h0 : t.val = 0
  · rw [outsAt0_A m c t h0]
    unfold out0_A_5 sout0_A_0; (try dsimp only)
    rw [PhiS_castSucc m c t, PhiS_zero m c _ _ h0, PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ _ _ ((hcond0_0 t).mpr h0) (iblk m c 0 t) (iblk m c 1 t) (iblk m c 2 t) (iblk m c 3 t) (iblk m c 4 t)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, ⟨%e5, H5⟩, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _)
        · iexists _; unfold owns; iexists _; isplitr
          swap; · iexact HS1
          ipureintro; rfl
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_A_5 c _ _ _ _ _ _ _ _ _ _ _ _ _ _ _ _ _ _ _ _ _ _ _)
  · rw [outsAt0_B m c t h0]
    unfold out0_B_5 sout0_B_0; (try dsimp only)
    rw [PhiS_castSucc m c t, PhiS_pos m c _ _ h0]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ _ _ (fun h => h0 ((hcond0_0 t).mp h)) (iblk m c 0 t) (iblk m c 1 t) (iblk m c 2 t) (iblk m c 3 t) (iblk m c 4 t) _).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, ⟨%e5, H5⟩, HS0, ⟨%es1, HS1⟩⟩
    isplitl [HS0 HS1 Hg]
    · isplitl [HS0 HS1]
      · isplitl [HS0]
        · unfold owns; iexists _; isplitr
          swap; · iexact HS0
          ipureintro; rfl
        · iexists _; unfold owns; iexists _; isplitr
          swap; · iexact HS1
          ipureintro; rfl
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_B_5 c _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexact HS1
  iexact Hg

theorem hout (c : Dev nD) : (dats m 0 c).Φ (Fin.last cfg0.N) ⊢ Pipeline.ΦA spec0 c :=
  Phi_out m c _ (by rw [Fin.val_last]; have : cfg0.N = 8 := N_0; omega)

/-! ## The run and the frame -/

set_option backward.isDefEq.respectTransparency.types false in
/-- Every weakly fair execution of the program terminates, and every final state has each array of the pipeline at
    what the proof data say and every other buffer as the host lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere, and leaves its six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (run_main m ρ)

end Cert.KernelIdeal.Hand

end
-- ==== Proof.Spec.lean ====
/-
  The mathematics both programs compute, stated once over the argument arrays, index by index.

  Arrays: node features h[b, j, k] (128 graphs, 256 nodes, 128 features), an adjacency mask[b, i, j], a first weight
  Wc[k, q] with bias bc[q] (512 hidden units), a second weight Wf[q, d] with bias bf[d].

  The reference's arrangement (G): the support of node j is its features through Wc plus bc; node i aggregates the
  supports of its neighbours weighted by the mask, divided by its degree clipped below at one; the rectified result goes
  through Wf plus bf.

  The kernel's arrangement (GK): the features are augmented by a column of ones and zero columns, the first weight by the
  row bc and zero rows; the mask times the augmented features carries the degree in column 128; each row is scaled by the
  reciprocal of the clipped degree and then multiplied by the augmented weight, so that the bias rides the product.
-/
import Idealize.ShloMosaic.PureOps.Ideal
import Idealize.ShloMosaic.Lib.ValueIdx

noncomputable section

open scoped BigOperators

namespace Cert.FFConv

open Idealize.ShloMosaic Idealize.ShloMosaic.ValueIdx

abbrev Sh : Shape := ⟨3, ![128, 256, 128]⟩
abbrev Smask : Shape := ⟨3, ![128, 256, 256]⟩
abbrev Swc : Shape := ⟨2, ![128, 512]⟩
abbrev Sbc : Shape := ⟨1, ![512]⟩
abbrev Swf : Shape := ⟨2, ![512, 128]⟩
abbrev Sbf : Shape := ⟨1, ![128]⟩

variable (h : Sh.Idx → EReal) (mask : Smask.Idx → EReal) (Wc : Swc.Idx → EReal) (bc : Sbc.Idx → EReal)
  (Wf : Swf.Idx → EReal) (bf : Sbf.Idx → EReal)

/-! ## The reference's arrangement -/

/-- Node j's support at hidden unit q: its features through the first weight, plus the bias. -/
def support (b : Fin 128) (j : Fin 256) (q : Fin 512) : EReal :=
  (∑ k : Fin 128, h (ix3 b j k) * Wc (ix2 k q)) + bc (ix1 q)

/-- Node i's degree, clipped below at one. -/
def deg (b : Fin 128) (i : Fin 256) : EReal := max 1 (∑ j : Fin 256, mask (ix3 b i j))

/-- The rectified mean of the neighbours' supports. -/
def hidden (b : Fin 128) (i : Fin 256) (q : Fin 512) : EReal :=
  max (Ideal.div (∑ j : Fin 256, mask (ix3 b i j) * support h Wc bc b j q) (deg mask b i)) 0

/-- The result, in the reference's arrangement. -/
def G : Sh.Idx → EReal := fun x =>
  (∑ q : Fin 512, hidden h mask Wc bc (x 0) (x 1) q * Wf (ix2 q (x 2))) + bf (ix1 (x 2))

/-! ## The kernel's arrangement -/

/-- The features augmented: column 128 is one, the columns after it zero. -/
def haug (b : Fin 128) (j : Fin 256) (k : Fin 256) : EReal :=
  if hk : k.val < 128 then h (ix3 b j ⟨k.val, hk⟩) else if k.val = 128 then 1 else 0

/-- The first weight augmented: row 128 is the bias, the rows after it zero. -/
def wca (k : Fin 256) (q : Fin 512) : EReal :=
  if hk : k.val < 128 then Wc (ix2 ⟨k.val, hk⟩ q) else if k.val = 128 then bc (ix1 q) else 0

/-- The mask times the augmented features: columns below 128 the aggregated features, column 128 the degree. -/
def mh (b : Fin 128) (i : Fin 256) (k : Fin 256) : EReal := ∑ j : Fin 256, mask (ix3 b i j) * haug h b j k

/-- The reciprocal of the clipped degree, read off column 128. -/
def inv (b : Fin 128) (i : Fin 256) : EReal := Ideal.div 1 (max (mh h mask b i ⟨128, by decide⟩) 1)

/-- The rectified product of the scaled rows with the augmented weight. -/
def hiddenK (b : Fin 128) (i : Fin 256) (q : Fin 512) : EReal :=
  max (∑ k : Fin 256, (mh h mask b i k * inv h mask b i) * wca Wc bc k q) 0

/-- The result, in the kernel's arrangement. -/
def GK : Sh.Idx → EReal := fun x =>
  (∑ q : Fin 512, hiddenK h mask Wc bc (x 0) (x 1) q * Wf (ix2 q (x 2))) + bf (ix1 (x 2))

/-! ## The three literals the programs use -/

theorem one_f32 : Ideal.ofBits .f32 0x3F800000#32 = 1 := by simp [Ideal.ofBits, Ideal.ieee, -EReal.coe_mul]; norm_num
theorem one_bf16 : Ideal.ofBits .bf16 0x3F80#16 = 1 := by simp [Ideal.ofBits, Ideal.ieee, -EReal.coe_mul]; norm_num
theorem zero_bf16 : Ideal.ofBits .bf16 0x0000#16 = 0 := by simp [Ideal.ofBits, Ideal.ieee]
theorem zero_f32 : Ideal.ofBits .f32 0x00000000#32 = 0 := by simp [Ideal.ofBits, Ideal.ieee]

end Cert.FFConv

end
-- ==== Proof.KI.BlockSpec.lean ====
/-
  What one grid point computes, stated over its five input blocks at the ideal values: x0 the sixteen graphs' features
  [1, 16, 256, 128], x1 their masks [1, 16, 256, 256], x2 the augmented first weight [256, 512], x3 the second weight
  [512, 128], x4 its bias [1, 128]. Row r of the 4096 rows of the point is node r mod 256 of graph r div 256.

  The first scratch holds the augmented features: columns below 128 the features, column 128 one, the rest zero. The
  second scratch holds, row by row, the mask times the augmented features scaled by the reciprocal of the degree clipped
  at one (the degree is column 128 of the product). The output is the rectified product of the second scratch with the
  augmented weight, through the second weight, plus the bias.
-/
import proofs.«136502_g1906965479736_cont_8to1_1380_11_alg».proof.Proof.KI.Frame
import proofs.«136502_g1906965479736_cont_8to1_1380_11_alg».proof.Proof.Spec

noncomputable section

open scoped BigOperators

namespace Cert.KernelIdeal.Hand

open Cert.KernelIdeal Cert.KernelIdeal.Gen
open Idealize.ShloMosaic Idealize.ShloMosaic.ValueIdx

/-- The graph (within the point) of row r, and its node. -/
def rowB (r : Fin 4096) : Fin 16 := ⟨r.val / 256, by have := r.isLt; omega⟩
def rowI (r : Fin 4096) : Fin 256 := ⟨r.val % 256, Nat.mod_lt _ (by decide)⟩
/-- Row j of graph b within the point. -/
def rowOf (b : Fin 16) (j : Fin 256) : Fin 4096 := ⟨b.val * 256 + j.val, by have := b.isLt; have := j.isLt; omega⟩

/-- Row j of graph b is in graph b, at node j. -/
theorem rowB_rowOf (b : Fin 16) (j : Fin 256) : rowB (rowOf b j) = b := Fin.ext (by
  show (b.val * 256 + j.val) / 256 = b.val
  have := j.isLt; omega)

theorem rowI_rowOf (b : Fin 16) (j : Fin 256) : rowI (rowOf b j) = j := Fin.ext (by
  show (b.val * 256 + j.val) % 256 = j.val
  have := j.isLt; omega)

variable (x0 : Vec Ideal S1x16x256x128 .f32) (x1 : Vec Ideal S1x16x256x256 .f32) (x2 : Vec Ideal S256x512 .bf16)
  (x3 : Vec Ideal S512x128 .bf16) (x4 : Vec Ideal S1x128 .f32)

/-- The augmented features at row r, column k. -/
def haugAt (r : Fin 4096) (k : Fin 256) : EReal :=
  if hk : k.val < 128 then x0 (ix4 (0 : Fin 1) (rowB r) (rowI r) ⟨k.val, hk⟩) else if k.val = 128 then 1 else 0

/-- The first scratch as one array. -/
def haugW : Vec Ideal S4096x256 .bf16 := fun y =>
  haugAt x0 ⟨(y 0).val, (y 0).isLt⟩ ⟨(y 1).val, (y 1).isLt⟩

theorem haugW_ix2 (r : Fin 4096) (k : Fin 256) : haugW x0 (ix2 r k) = haugAt x0 r k := rfl

/-- The upper half of a scratch's contents is the augmentation: one in column 128, zero after it. -/
def TailOK (d : Vec Ideal S4096x256 .bf16) : Prop :=
  ∀ (r : Fin 4096) (k : Fin 256), 128 ≤ k.val → d (ix2 r k) = if k.val = 128 then 1 else 0

theorem tailOK_haugW : TailOK (haugW x0) := by
  intro r k hk
  rw [haugW_ix2]; unfold haugAt
  rw [dif_neg (by omega)]

/-- The mask times the augmented features at row r, column k. -/
def mhAt (r : Fin 4096) (k : Fin 256) : EReal :=
  ∑ j : Fin 256, x1 (ix4 (0 : Fin 1) (rowB r) (rowI r) j) * haugAt x0 (rowOf (rowB r) j) k

/-- The reciprocal of row r's clipped degree. -/
def invAt (r : Fin 4096) : EReal := Ideal.div 1 (max (mhAt x0 x1 r ⟨128, by decide⟩) 1)

/-- The second scratch at row r, column k. -/
def scaledAt (r : Fin 4096) (k : Fin 256) : EReal := mhAt x0 x1 r k * invAt x0 x1 r

/-- The second scratch as one array. -/
def scaledW : Vec Ideal S4096x256 .bf16 := fun y =>
  scaledAt x0 x1 ⟨(y 0).val, (y 0).isLt⟩ ⟨(y 1).val, (y 1).isLt⟩

theorem scaledW_ix2 (r : Fin 4096) (k : Fin 256) : scaledW x0 x1 (ix2 r k) = scaledAt x0 x1 r k := rfl

/-- The output at row r, feature d. -/
def outAt (r : Fin 4096) (d : Fin 128) : EReal :=
  (∑ q : Fin 512, max (∑ k : Fin 256, scaledAt x0 x1 r k * x2 (ix2 k q)) 0 * x3 (ix2 q d)) + x4 (ix2 (0 : Fin 1) d)

/-- The output block as one array. -/
def outBlk : Vec Ideal S1x4096x128 .f32 := fun y =>
  outAt x0 x1 x2 x3 x4 ⟨(y 1).val, (y 1).isLt⟩ ⟨(y 2).val, (y 2).isLt⟩

theorem outBlk_ix3 (r : Fin 4096) (d : Fin 128) : outBlk x0 x1 x2 x3 x4 (ix3 (0 : Fin 1) r d) = outAt x0 x1 x2 x3 x4 r d := rfl

end Cert.KernelIdeal.Hand

end
-- ==== Proof.LibMatmulPlain.lean ====
/-
  Two general facts about rank-2 blocks at the ideal values, stated for any extents.

  * A kernel's matrix product of an m×k block by a k×n block into the zero accumulator, read at entry (a, b), is the
    plain sum over the contracted coordinate c of A(a, c) · B(c, b), whatever contraction precision the operation
    carries: at the ideal values the product into zero and the host's `dot_general` are the same sum over the
    contraction index, and the library already reads the host's plain product as that sum.
  * A one-row block [1, n] broadcast down m rows, read at (a, b), is the row's entry at column b.
-/
import Idealize.ShloMosaic.PureOps.Ideal.Laws
import Idealize.ShloMosaic.Lib.ValueIdx
import Idealize.ShloMosaic.Lib.StackMember
import Idealize.ShloMosaic.Lib.Pipeline.Value

noncomputable section

open scoped BigOperators

namespace Cert.LibMatmulPlain

open Idealize.ShloMosaic Idealize.ShloMosaic.ValueIdx

/-- The product of an m×k block by a k×n block into the zero accumulator, at the ideal values, read at (a, b):
    Σ_c A(a, c) · B(c, b). The precision argument plays no part: the ideal product is exact. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec _ A B (ix2 a b)).symm.trans
      (StackMember.dotGeneral_plain_apply prec A B a b))

/-- A one-row block broadcast down the rows, read at (a, b), is the row at column b. -/
theorem rowBroadcast_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 0 b) := by
  refine broadcastTo_apply x h (ix2 a b) (ix2 0 b) fun ax => ?_
  match ax with
  | ⟨0, _⟩ => rfl
  | ⟨1, _⟩ =>
    show b.val = if n = 1 then 0 else b.val
    split
    · have := b.isLt; omega
    · rfl

end Cert.LibMatmulPlain

end
-- ==== Proof.KI.Pure.lean ====
/-
  The body's arithmetic, payload by payload, read at an index at the ideal values.

  The sixteen feature blocks are stored through one and the same conversion; the sixteen row blocks of the second scratch
  are one and the same function of a mask block and a block of the first scratch (a product into zero, its column 128
  clipped at one and inverted, the rows scaled), although the printed text cuts some of them in two or three pieces; the
  output is the product of the second scratch with the augmented weight, rectified, through the second weight, plus the
  bias row.
-/
import proofs.«136502_g1906965479736_cont_8to1_1380_11_alg».proof.Proof.KI.BlockSpec
import proofs.«136502_g1906965479736_cont_8to1_1380_11_alg».proof.Proof.LibMatmulPlain
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Hand

open Cert.KernelIdeal Cert.KernelIdeal.Gen
open Idealize.ShloMosaic Idealize.ShloMosaic.ValueIdx

section AnyValues

variable {F : FTy → Type} [FloatOps F]

/-! ## The payloads that are one function under several names -/

theorem hpay6_eq (v : Vec F S1x1x256x128 .f32) : k0_pay6 v = k0_pay5 v := rfl
theorem hpay7_eq (v : Vec F S1x1x256x128 .f32) : k0_pay7 v = k0_pay5 v := rfl
theorem hpay8_eq (v : Vec F S1x1x256x128 .f32) : k0_pay8 v = k0_pay5 v := rfl
theorem hpay9_eq (v : Vec F S1x1x256x128 .f32) : k0_pay9 v = k0_pay5 v := rfl
theorem hpay10_eq (v : Vec F S1x1x256x128 .f32) : k0_pay10 v = k0_pay5 v := rfl
theorem hpay11_eq (v : Vec F S1x1x256x128 .f32) : k0_pay11 v = k0_pay5 v := rfl
theorem hpay12_eq (v : Vec F S1x1x256x128 .f32) : k0_pay12 v = k0_pay5 v := rfl
theorem hpay15_eq (v : Vec F S1x1x256x128 .f32) : k0_pay15 v = k0_pay5 v := rfl
theorem hpay16_eq (v : Vec F S1x1x256x128 .f32) : k0_pay16 v = k0_pay5 v := rfl
theorem hpay17_eq (v : Vec F S1x1x256x128 .f32) : k0_pay17 v = k0_pay5 v := rfl
theorem hpay18_eq (v : Vec F S1x1x256x128 .f32) : k0_pay18 v = k0_pay5 v := rfl
theorem hpay19_eq (v : Vec F S1x1x256x128 .f32) : k0_pay19 v = k0_pay5 v := rfl
theorem hpay20_eq (v : Vec F S1x1x256x128 .f32) : k0_pay20 v = k0_pay5 v := rfl
theorem hpay21_eq (v : Vec F S1x1x256x128 .f32) : k0_pay21 v = k0_pay5 v := rfl
theorem hpay14_13 (v : Vec F S1x1x256x128 .f32) : k0_pay14 (k0_pay13 v) = k0_pay5 v := rfl

theorem pay25_eq (a : Vec F S1x1x256x256 .f32) (b : Vec F S256x256 .bf16) : k0_pay25 a b = k0_pay24 a b := rfl
theorem pay26_eq (a : Vec F S1x1x256x256 .f32) (b : Vec F S256x256 .bf16) : k0_pay26 a b = k0_pay24 a b := rfl
theorem pay27_eq (a : Vec F S1x1x256x256 .f32) (b : Vec F S256x256 .bf16) : k0_pay27 a b = k0_pay24 a b := rfl
theorem pay28_eq (a : Vec F S1x1x256x256 .f32) (b : Vec F S256x256 .bf16) : k0_pay28 a b = k0_pay24 a b := rfl
theorem pay29_eq (a : Vec F S1x1x256x256 .f32) (b : Vec F S256x256 .bf16) : k0_pay29 a b = k0_pay24 a b := rfl
theorem pay32_eq (a : Vec F S1x1x256x256 .f32) (b : Vec F S256x256 .bf16) : k0_pay32 a b = k0_pay24 a b := rfl
theorem pay36_eq (a : Vec F S1x1x256x256 .f32) (b : Vec F S256x256 .bf16) : k0_pay36 a b = k0_pay24 a b := rfl
theorem pay40_eq (a : Vec F S1x1x256x256 .f32) (b : Vec F S256x256 .bf16) : k0_pay40 a b = k0_pay24 a b := rfl
theorem pay43_eq (a : Vec F S1x1x256x256 .f32) (b : Vec F S256x256 .bf16) : k0_pay43 a b = k0_pay24 a b := rfl
theorem pay23_22 (a : Vec F S1x1x256x256 .f32) (b : Vec F S256x256 .bf16) : k0_pay23 (k0_pay22 a b) = k0_pay24 a b := rfl
theorem pay31_30 (a : Vec F S1x1x256x256 .f32) (b : Vec F S256x256 .bf16) : k0_pay31 (k0_pay30 a) b = k0_pay24 a b := rfl
theorem pay35_33_34 (a : Vec F S1x1x256x256 .f32) (b : Vec F S256x256 .bf16) : k0_pay35 (k0_pay33 a b) (k0_pay34 a b) = k0_pay24 a b := rfl
theorem pay39_37_38 (a : Vec F S1x1x256x256 .f32) (b : Vec F S256x256 .bf16) : k0_pay39 (k0_pay37 a b) (k0_pay38 a b) (FloatOps.ofBits .f32 1065353216#32) = k0_pay24 a b := rfl
theorem pay42_41 (a : Vec F S1x1x256x256 .f32) (b : Vec F S256x256 .bf16) : k0_pay42 (k0_pay41 a b) = k0_pay24 a b := rfl
theorem pay1_44 (a : Vec F S1x1x256x256 .f32) (b : Vec F S256x256 .bf16) : k0_pay1 (k0_pay44 a b) = k0_pay24 a b := rfl

end AnyValues

/-! ## At the ideal values, at an index -/

/-- A `[1, 1, a, b]` array cast to `[a, b]` reads, at `(i, j)`, the operand at `(0, 0, i, j)`: the two leading unit axes
    carry no offset in the row-major position. -/
private theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[m, 1]` column broadcast along the rows to `[m, n]` reads, at `(a, b)`, the column's entry in row `a`. -/
private theorem colBroadcast_apply {α : Type} {m n : ℕ} (x : (⟨2, ![m, 1]⟩ : Shape).Idx → α)
    (h : (⟨2, ![m, 1]⟩ : Shape).Broadcasts ⟨2, ![m, n]⟩) (a : Fin m) (b : Fin n) :
    broadcastTo ⟨2, ![m, n]⟩ x h (ix2 a b) = x (ix2 a (0 : Fin 1)) := by
  refine broadcastTo_apply x h (ix2 a b) (ix2 a (0 : Fin 1)) fun ax => ?_
  match ax with
  | ⟨0, _⟩ =>
    show a.val = if m = 1 then 0 else a.val
    split
    · have := a.isLt; omega
    · rfl
  | ⟨1, _⟩ => rfl

/-- The record of the 256×256 by 256×256 product is the plain one: contract the left operand's columns with the right
    operand's rows. -/
private theorem dot256_eq : dot_S256x256_S256x256_S256x256_1_0_0_1_n_n = DotDims.plain 256 256 256 := rfl

/-- That product into zero, read at `(i, c)`, is the sum over the contracted coordinate. -/
private theorem mm256_apply (A B : FVec Ideal S256x256 .bf16) (i c : Fin 256) :
    matmul dot_S256x256_S256x256_S256x256_1_0_0_1_n_n none A B (constant (F := Ideal) S256x256 .f32 0x00000000#32) (ix2 i c)
      = ∑ j : Fin 256, A (ix2 i j) * B (ix2 j c) := by
  rw [dot256_eq]
  exact Cert.LibMatmulPlain.matmul_plain_zero_apply none A B i c

/-- The records of the two products of the output are plain too: 4096×256 by 256×512 and 4096×512 by 512×128. -/
private theorem dotFirst_eq : dot_S4096x256_S256x512_S4096x512_1_0_0_1_n_n = DotDims.plain 4096 256 512 := rfl
private theorem dotSecond_eq : dot_S4096x512_S512x128_S4096x128_1_0_0_1_n_n = DotDims.plain 4096 512 128 := rfl

/-- The first of them into zero, read at `(r, q)`. -/
private theorem mmFirst_apply (A : FVec Ideal S4096x256 .bf16) (B : FVec Ideal S256x512 .bf16) (r : Fin 4096) (q : Fin 512) :
    matmul dot_S4096x256_S256x512_S4096x512_1_0_0_1_n_n none A B (constant (F := Ideal) S4096x512 .f32 0x00000000#32) (ix2 r q)
      = ∑ k : Fin 256, A (ix2 r k) * B (ix2 k q) := by
  rw [dotFirst_eq]
  exact Cert.LibMatmulPlain.matmul_plain_zero_apply none A B r q

/-- The second into zero, read at `(r, d)`. -/
private theorem mmSecond_apply (A : FVec Ideal S4096x512 .bf16) (B : FVec Ideal S512x128 .bf16) (r : Fin 4096) (d : Fin 128) :
    matmul dot_S4096x512_S512x128_S4096x128_1_0_0_1_n_n none A B (constant (F := Ideal) S4096x128 .f32 0x00000000#32) (ix2 r d)
      = ∑ q : Fin 512, A (ix2 r q) * B (ix2 q d) := by
  rw [dotSecond_eq]
  exact Cert.LibMatmulPlain.matmul_plain_zero_apply none A B r d

/-- A feature block is stored as read (the conversion is the identity at the ideal values). -/
theorem hpay_apply (v : Vec Ideal S1x1x256x128 .f32) (i : Fin 256) (k : Fin 128) :
    k0_pay5 (F := Ideal) v (ix2 i k) = v (ix4 (0 : Fin 1) (0 : Fin 1) i k) := by
  unfold k0_pay5
  rw [shapeCast_self]
  exact shapeCast_11ab_ab_apply (α := EReal) v _ i k

/-- The reset of the upper half writes zeros, -/
theorem pay3_apply (y : S4096x128.Idx) : k0_pay3 (F := Ideal) y = 0 := by
  unfold k0_pay3
  rw [shapeCast_self]
  exact Cert.FFConv.zero_bf16

/-- and then ones into column 128. -/
theorem pay4_apply (y : S4096x1.Idx) : k0_pay4 (F := Ideal) y = 1 := by
  unfold k0_pay4
  rw [shapeCast_self]
  exact Cert.FFConv.one_bf16

/-- A row block of the second scratch: the mask block times the block of the first scratch, each row scaled by the
    reciprocal of its entry in column 128 clipped below at one. -/
theorem pay24_apply (mb : Vec Ideal S1x1x256x256 .f32) (hb : Vec Ideal S256x256 .bf16) (i k : Fin 256) :
    k0_pay24 (F := Ideal) mb hb (ix2 i k)
      = (∑ j : Fin 256, mb (ix4 (0 : Fin 1) (0 : Fin 1) i j) * hb (ix2 j k))
        * Ideal.div 1 (max (∑ j : Fin 256, mb (ix4 (0 : Fin 1) (0 : Fin 1) i j) * hb (ix2 j ⟨128, by decide⟩)) 1) := by
  unfold k0_pay24
  rw [shapeCast_self, truncf_apply, mulf_apply, colBroadcast_apply, divf_apply, broadcast_apply, maximumf_apply,
    broadcast_apply, slice2_axis1_apply 128 _ _ i (0 : Fin 1) ⟨128, by decide⟩ rfl]
  rw [mm256_apply, mm256_apply, Ideal.ofBits_def, Cert.FFConv.one_f32]
  simp only [truncf_apply, shapeCast_11ab_ab_apply]

/-- The output: the second scratch through the augmented weight, rectified, through the second weight, plus the bias. -/
theorem pay2_apply (s : Vec Ideal S4096x256 .bf16) (w2 : Vec Ideal S256x512 .bf16) (w3 : Vec Ideal S512x128 .bf16)
    (b4 : Vec Ideal S1x128 .f32) (r : Fin 4096) (d : Fin 128) :
    k0_pay2 (F := Ideal) s w2 w3 b4 (ix3 (0 : Fin 1) r d)
      = (∑ q : Fin 512, max (∑ k : Fin 256, s (ix2 r k) * w2 (ix2 k q)) 0 * w3 (ix2 q d)) + b4 (ix2 (0 : Fin 1) d) := by
  unfold k0_pay2
  simp only [shapeCast_self]
  rw [shapeCast_ab_1ab_apply, addf_apply, Cert.LibMatmulPlain.rowBroadcast_apply, mmSecond_apply]
  congr 1
  refine Finset.sum_congr rfl fun q _ => ?_
  rw [maximumf_apply, truncf_apply, broadcast_apply, mmFirst_apply, Ideal.ofBits_def, Cert.FFConv.zero_bf16]

end Cert.KernelIdeal.Hand

end
-- ==== Proof.KI.ValA.lean ====
/-
  What the first grid point leaves, as values: the first scratch ends at the augmented features of the point's feature
  block (its own stores cover it), and the output's staging buffer at the point's output block.
-/
import proofs.«136502_g1906965479736_cont_8to1_1380_11_alg».proof.Proof.KI.Pure
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.ValueIdx Idealize.ShloMosaic.Tactic

variable (c : Dev nD) (i : grid0.Coords) (arg1 : Memref sig .tc .vmem S1x16x256x128 .f32) (harg1 : arg1.IsWhole) (arg2 : Memref sig .tc .vmem S1x16x256x256 .f32) (harg2 : arg2.IsWhole) (arg3 : Memref sig .tc .vmem S256x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1x4096x128 .f32) (harg6 : arg6.IsWhole) (arg7 : Memref sig .tc .vmem S4096x256 .bf16) (harg7 : arg7.IsWhole) (arg8 : Memref sig .tc .vmem S4096x256 .bf16) (harg8 : arg8.IsWhole) (hc0 : cond0_0 i)
  (x0 : Vec Ideal S1x16x256x128 .f32) (x1 : Vec Ideal S1x16x256x256 .f32) (x2 : Vec Ideal S256x512 .bf16)
  (x3 : Vec Ideal S512x128 .bf16) (x4 : Vec Ideal S1x128 .f32)

/-! ## Rows of the point -/

theorem rowOf_rowB_rowI (r : Fin 4096) : rowOf (rowB r) (rowI r) = r := Fin.ext (by
  show r.val / 256 * 256 + r.val % 256 = r.val
  omega)

/-! ## A list of stores of whole-row blocks, read from the earliest store outwards

A store of the rows [o, o + 256) and the columns below C, over earlier stores: on the rows of its own graph it leaves its
payload, on the rows of the graphs before it what the earlier stores left, and it leaves the columns from C on alone. -/

theorem canon_rows_cons {C : ℕ} (hC : C ≤ 256) (G : Fin 4096 → Fin 256 → EReal) (n : ℕ) (hn : n < 16) (o : ℕ) (ho : o = 256 * n)
    (inb : ∀ a, (![o, 0] : Fin 2 → ℕ) a + (![256, C] : Fin 2 → ℕ) a ≤ S4096x256.size a)
    (w : (Rect.unit (s := S4096x256) ![o, 0] ![256, C] inb).shape.Idx → Elt Ideal .bf16)
    (hw : ∀ (i : Fin 256) (k : Fin C), w (ix2 i k) = G (rowOf ⟨n, hn⟩ i) ⟨k.val, lt_of_lt_of_le k.isLt hC⟩)
    (L : List (View.Piece (Elt Ideal) S4096x256 .bf16))
    (hL : ∀ (b : Fin 16) (i : Fin 256) (k : Fin 256), b.val < n → k.val < C →
      View.canon L (ix2 (rowOf b i) k) = G (rowOf b i) k)
    (b : Fin 16) (i : Fin 256) (k : Fin 256) (hb : b.val < n + 1) (hk : k.val < C) :
    View.canon ((⟨Rect.unit (s := S4096x256) ![o, 0] ![256, C] inb, w⟩ : View.Piece (Elt Ideal) S4096x256 .bf16) :: L) (ix2 (rowOf b i) k)
      = G (rowOf b i) k := by
  by_cases hbn : b.val = n
  · obtain rfl : b = ⟨n, hn⟩ := Fin.ext hbn
    have e : (Rect.unit (s := S4096x256) ![o, 0] ![256, C] inb).emb (ix2 i (⟨k.val, hk⟩ : Fin C)) = ix2 (rowOf ⟨n, hn⟩ i) k :=
      funext fun a => Fin.ext (by
        match a with
        | ⟨0, _⟩ => show o + 1 * i.val = n * 256 + i.val; omega
        | ⟨1, _⟩ => show 0 + 1 * k.val = k.val; omega)
    rw [← e, View.canon_cons_emb, hw]
  · refine (View.canon_cons_of_not_mem _ _ ?_).trans (hL b i k (by omega) hk)
    rw [Rect.mem_set_unit]
    intro h
    have h0 : o ≤ b.val * 256 + i.val ∧ b.val * 256 + i.val < o + 256 := h 0
    have := i.isLt
    omega

theorem canon_rows_cons_tail {C : ℕ} (o : ℕ)
    (inb : ∀ a, (![o, 0] : Fin 2 → ℕ) a + (![256, C] : Fin 2 → ℕ) a ≤ S4096x256.size a)
    (w : (Rect.unit (s := S4096x256) ![o, 0] ![256, C] inb).shape.Idx → Elt Ideal .bf16)
    (L : List (View.Piece (Elt Ideal) S4096x256 .bf16)) (r : Fin 4096) (k : Fin 256) (hk : C ≤ k.val) :
    View.canon ((⟨Rect.unit (s := S4096x256) ![o, 0] ![256, C] inb, w⟩ : View.Piece (Elt Ideal) S4096x256 .bf16) :: L) (ix2 r k)
      = View.canon L (ix2 r k) := by
  refine View.canon_cons_of_not_mem _ _ ?_
  rw [Rect.mem_set_unit]
  intro h
  have h1 : k.val < 0 + C := (h 1).2
  omega

/-- Every row is a row of its graph: what holds on the rows of all sixteen graphs holds on every row. -/
theorem eq_of_rows (d : Vec Ideal S4096x256 .bf16) (G : Fin 4096 → Fin 256 → EReal) (r : Fin 4096) (k : Fin 256)
    (h : ∀ (b : Fin 16) (i : Fin 256), d (ix2 (rowOf b i) k) = G (rowOf b i) k) : d (ix2 r k) = G r k := by
  have := h (rowB r) (rowI r)
  rwa [rowOf_rowB_rowI] at this

/-! ## The first scratch -/

/-- The two resets of the upper half: ones in column 128 (the later store), zeros after it. -/
theorem canon_resets (inb1 : ∀ a, (![0, 128] : Fin 2 → ℕ) a + S4096x1.size a ≤ S4096x256.size a)
    (inb0 : ∀ a, (![0, 128] : Fin 2 → ℕ) a + S4096x128.size a ≤ S4096x256.size a) (r : Fin 4096) (k : Fin 256) (hk : 128 ≤ k.val) :
    View.canon [(⟨Rect.unit (s := S4096x256) ![0, 128] S4096x1.size inb1, k0_pay4 (F := Ideal)⟩ : View.Piece (Elt Ideal) S4096x256 .bf16),
        ⟨Rect.unit (s := S4096x256) ![0, 128] S4096x128.size inb0, k0_pay3 (F := Ideal)⟩] (ix2 r k)
      = if k.val = 128 then 1 else 0 := by
  by_cases h : k.val = 128
  · rw [if_pos h]
    have e : (Rect.unit (s := S4096x256) ![0, 128] S4096x1.size inb1).emb (ix2 r (0 : Fin 1)) = ix2 r k :=
      funext fun a => Fin.ext (by
        match a with
        | ⟨0, _⟩ => show 0 + 1 * r.val = r.val; omega
        | ⟨1, _⟩ => show 128 + 1 * 0 = k.val; omega)
    rw [← e, View.canon_cons_emb, pay4_apply]
  · rw [if_neg h]
    refine (View.canon_cons_of_not_mem _ _ ?_).trans ?_
    · rw [Rect.mem_set_unit]
      intro hm
      have h1 : k.val < 128 + 1 := (hm 1).2
      omega
    have hk' : k.val - 128 < 128 := by have := k.isLt; omega
    have e : (Rect.unit (s := S4096x256) ![0, 128] S4096x128.size inb0).emb (ix2 r (⟨k.val - 128, hk'⟩ : Fin 128)) = ix2 r k :=
      funext fun a => Fin.ext (by
        match a with
        | ⟨0, _⟩ => show 0 + 1 * r.val = r.val; omega
        | ⟨1, _⟩ => show 128 + 1 * (k.val - 128) = k.val; omega)
    rw [← e, View.canon_cons_emb, pay3_apply]

/-- A feature block is stored as the features of its graph. -/
theorem blockA_read (n : ℕ) (hn : n < 16)
    (inb' : ∀ a, (![0, n, 0, 0] : Fin 4 → ℕ) a + S1x1x256x128.size a ≤ S1x16x256x128.size a) (i : Fin 256) (k : Fin 128) :
    k0_pay5 (F := Ideal) (View.readAt (Elt Ideal) arg1.view (Rect.unit (s := S1x16x256x128) ![0, n, 0, 0] S1x1x256x128.size inb').toLoadRect (harg1.unread x0)) (ix2 i k)
      = haugAt x0 (rowOf ⟨n, hn⟩ i) ⟨k.val, lt_of_lt_of_le k.isLt (by decide)⟩ := by
  rw [hpay_apply, View.readAt_eq_ld, harg1.read_unread]
  unfold haugAt
  rw [dif_pos k.isLt]
  show x0 _ = x0 _
  refine congrArg x0 (funext fun a => Fin.ext ?_)
  match a with
  | ⟨0, _⟩ => rfl
  | ⟨1, _⟩ => show n + 1 * 0 = (n * 256 + i.val) / 256; have := i.isLt; omega
  | ⟨2, _⟩ => show 0 + 1 * i.val = (n * 256 + i.val) % 256; have := i.isLt; omega
  | ⟨3, _⟩ => show 0 + 1 * k.val = k.val; omega

/-- The first point's stores into the first scratch leave the augmented features. -/
theorem canonA_eq : View.canon (kernelRun0_A.sl.HS0_18 (F := Ideal) c arg1 harg1 x0) = haugW x0 := by
  have low : ∀ (b : Fin 16) (i : Fin 256) (k : Fin 256), b.val < 15 + 1 → k.val < 128 →
      View.canon (kernelRun0_A.sl.HS0_18 (F := Ideal) c arg1 harg1 x0) (ix2 (rowOf b i) k) = haugAt x0 (rowOf b i) k := by
    unfold kernelRun0_A.sl.HS0_18 kernelRun0_A.sl.HS0_15 kernelRun0_A.sl.HS0_10 kernelRun0_A.sl.HS0_6 kernelRun0_A.sl.r
    refine canon_rows_cons (C := 128) (by decide) (haugAt x0) 15 (by decide) 3840 rfl _ _ (fun i k => (congrFun (hpay21_eq _) _).trans (blockA_read arg1 harg1 x0 15 (by decide) _ i k)) _ ?_
    refine canon_rows_cons (C := 128) (by decide) (haugAt x0) 14 (by decide) 3584 rfl _ _ (fun i k => (congrFun (hpay20_eq _) _).trans (blockA_read arg1 harg1 x0 14 (by decide) _ i k)) _ ?_
    refine canon_rows_cons (C := 128) (by decide) (haugAt x0) 13 (by decide) 3328 rfl _ _ (fun i k => (congrFun (hpay19_eq _) _).trans (blockA_read arg1 harg1 x0 13 (by decide) _ i k)) _ ?_
    refine canon_rows_cons (C := 128) (by decide) (haugAt x0) 12 (by decide) 3072 rfl _ _ (fun i k => (congrFun (hpay18_eq _) _).trans (blockA_read arg1 harg1 x0 12 (by decide) _ i k)) _ ?_
    refine canon_rows_cons (C := 128) (by decide) (haugAt x0) 11 (by decide) 2816 rfl _ _ (fun i k => (congrFun (hpay17_eq _) _).trans (blockA_read arg1 harg1 x0 11 (by decide) _ i k)) _ ?_
    refine canon_rows_cons (C := 128) (by decide) (haugAt x0) 10 (by decide) 2560 rfl _ _ (fun i k => (congrFun (hpay16_eq _) _).trans (blockA_read arg1 harg1 x0 10 (by decide) _ i k)) _ ?_
    refine canon_rows_cons (C := 128) (by decide) (haugAt x0) 9 (by decide) 2304 rfl _ _ (fun i k => (congrFun (hpay15_eq _) _).trans (blockA_read arg1 harg1 x0 9 (by decide) _ i k)) _ ?_
    refine canon_rows_cons (C := 128) (by decide) (haugAt x0) 8 (by decide) 2048 rfl _ _ (fun i k => (congrFun (hpay14_13 _) _).trans (blockA_read arg1 harg1 x0 8 (by decide) _ i k)) _ ?_
    refine canon_rows_cons (C := 128) (by decide) (haugAt x0) 7 (by decide) 1792 rfl _ _ (fun i k => (congrFun (hpay12_eq _) _).trans (blockA_read arg1 harg1 x0 7 (by decide) _ i k)) _ ?_
    refine canon_rows_cons (C := 128) (by decide) (haugAt x0) 6 (by decide) 1536 rfl _ _ (fun i k => (congrFun (hpay11_eq _) _).trans (blockA_read arg1 harg1 x0 6 (by decide) _ i k)) _ ?_
    refine canon_rows_cons (C := 128) (by decide) (haugAt x0) 5 (by decide) 1280 rfl _ _ (fun i k => (congrFun (hpay10_eq _) _).trans (blockA_read arg1 harg1 x0 5 (by decide) _ i k)) _ ?_
    refine canon_rows_cons (C := 128) (by decide) (haugAt x0) 4 (by decide) 1024 rfl _ _ (fun i k => (congrFun (hpay9_eq _) _).trans (blockA_read arg1 harg1 x0 4 (by decide) _ i k)) _ ?_
    refine canon_rows_cons (C := 128) (by decide) (haugAt x0) 3 (by decide) 768 rfl _ _ (fun i k => (congrFun (hpay8_eq _) _).trans (blockA_read arg1 harg1 x0 3 (by decide) _ i k)) _ ?_
    refine canon_rows_cons (C := 128) (by decide) (haugAt x0) 2 (by decide) 512 rfl _ _ (fun i k => (congrFun (hpay7_eq _) _).trans (blockA_read arg1 harg1 x0 2 (by decide) _ i k)) _ ?_
    refine canon_rows_cons (C := 128) (by decide) (haugAt x0) 1 (by decide) 256 rfl _ _ (fun i k => (congrFun (hpay6_eq _) _).trans (blockA_read arg1 harg1 x0 1 (by decide) _ i k)) _ ?_
    refine canon_rows_cons (C := 128) (by decide) (haugAt x0) 0 (by decide) 0 rfl _ _ (fun i k => blockA_read arg1 harg1 x0 0 (by decide) _ i k) _ ?_
    exact fun b _ _ h => absurd h (Nat.not_lt_zero _)
  have tail : ∀ (r : Fin 4096) (k : Fin 256), 128 ≤ k.val →
      View.canon (kernelRun0_A.sl.HS0_18 (F := Ideal) c arg1 harg1 x0) (ix2 r k) = if k.val = 128 then 1 else 0 := by
    intro r k hk
    unfold kernelRun0_A.sl.HS0_18 kernelRun0_A.sl.HS0_15 kernelRun0_A.sl.HS0_10 kernelRun0_A.sl.HS0_6
    iterate 16 rw [canon_rows_cons_tail (C := 128) _ _ _ _ r k hk]
    exact canon_resets _ _ r k hk
  funext y
  obtain ⟨r, k, rfl⟩ : ∃ (r : Fin 4096) (k : Fin 256), y = ix2 r k := ⟨y 0, y 1, eq_ix2 y⟩
  rw [haugW_ix2]
  by_cases hk : k.val < 128
  · exact eq_of_rows _ (haugAt x0) r k fun b i => low b i k b.isLt hk
  · rw [tail r k (by omega)]
    unfold haugAt
    rw [dif_neg hk]

/-- After the first point the first scratch holds the augmented features. -/
theorem sout_A_eq : sout0_A_0 (F := Ideal) c i arg1 harg1 arg2 harg2 arg3 harg3 arg4 harg4 arg5 harg5 arg6 harg6 arg7 harg7 arg8 harg8 hc0 x0 x1 x2 x3 x4 = haugW x0 := by
  unfold sout0_A_0
  rw [View.read_writes_junk_eq_canon]
  unfold kernelRun0_A
  dsimp only
  exact canonA_eq c arg1 harg1 x0

/-! ## The second scratch -/

/-- A mask block is read as the mask of its graph. -/
theorem maskA_read (n : ℕ) (hn : n < 16)
    (inb' : ∀ a, (![0, n, 0, 0] : Fin 4 → ℕ) a + S1x1x256x256.size a ≤ S1x16x256x256.size a) (i j : Fin 256) :
    View.readAt (Elt Ideal) arg2.view (Rect.unit (s := S1x16x256x256) ![0, n, 0, 0] S1x1x256x256.size inb').toLoadRect (harg2.unread x1)
        (ix4 (0 : Fin 1) (0 : Fin 1) i j)
      = x1 (ix4 (0 : Fin 1) (⟨n, hn⟩ : Fin 16) i j) := by
  rw [View.readAt_eq_ld, harg2.read_unread]
  show x1 _ = x1 _
  refine congrArg x1 (funext fun a => Fin.ext ?_)
  match a with
  | ⟨0, _⟩ => rfl
  | ⟨1, _⟩ => show n + 1 * 0 = n; omega
  | ⟨2, _⟩ => show 0 + 1 * i.val = i.val; omega
  | ⟨3, _⟩ => show 0 + 1 * j.val = j.val; omega

/-- A block of rows of the first scratch is loaded back as the augmented features of its graph's rows. -/
theorem loadA_eq (n : ℕ) (hn : n < 16) (o : ℕ) (ho : o = 256 * n)
    (inb : ∀ a, (![o, 0] : Fin 2 → ℕ) a + S256x256.size a ≤ S4096x256.size a) (j k : Fin 256) :
    arg7.view.readCov (kernelRun0_A.sl.HS0_18 (F := Ideal) c arg1 harg1 x0)
        (Rect.unit (s := S4096x256) ![o, 0] S256x256.size inb).toLoadRect (ix2 j k)
      = haugAt x0 (rowOf ⟨n, hn⟩ j) k := by
  rw [View.readCov_eq_canon', canonA_eq]
  show haugW x0 _ = _
  rw [← haugW_ix2]
  refine congrArg (haugW x0) (funext fun a => Fin.ext ?_)
  match a with
  | ⟨0, _⟩ => show o + 1 * j.val = n * 256 + j.val; omega
  | ⟨1, _⟩ => show 0 + 1 * k.val = k.val; omega

/-- A row block of the second scratch, from the mask of its graph and the augmented features of its graph's rows: the
    scaled product on its rows. -/
theorem rowA_read (n : ℕ) (hn : n < 16) (M : Vec Ideal S1x1x256x256 .f32) (H : Vec Ideal S256x256 .bf16)
    (hM : ∀ i j : Fin 256, M (ix4 (0 : Fin 1) (0 : Fin 1) i j) = x1 (ix4 (0 : Fin 1) (⟨n, hn⟩ : Fin 16) i j))
    (hH : ∀ j k : Fin 256, H (ix2 j k) = haugAt x0 (rowOf ⟨n, hn⟩ j) k) (i k : Fin 256) :
    k0_pay24 (F := Ideal) M H (ix2 i k) = scaledAt x0 x1 (rowOf ⟨n, hn⟩ i) k := by
  rw [pay24_apply]
  unfold scaledAt invAt mhAt
  rw [rowB_rowOf, rowI_rowOf]
  simp only [hM, hH]

/-- The first point's stores into the second scratch leave the scaled products. -/
theorem canonS1_eq :
    View.canon (kernelRun0_A.sl.HS1_16 (F := Ideal) c arg1 harg1 arg2 harg2 arg7 x0 x1) = scaledW x0 x1 := by
  have rows : ∀ (b : Fin 16) (i : Fin 256) (k : Fin 256), b.val < 15 + 1 → k.val < 256 →
      View.canon (kernelRun0_A.sl.HS1_16 (F := Ideal) c arg1 harg1 arg2 harg2 arg7 x0 x1) (ix2 (rowOf b i) k)
        = scaledAt x0 x1 (rowOf b i) k := by
    unfold kernelRun0_A.sl.HS1_16 kernelRun0_A.sl.HS1_13 kernelRun0_A.sl.HS1_11 kernelRun0_A.sl.HS1_9 kernelRun0_A.sl.HS1_7 kernelRun0_A.sl.HS1_5 kernelRun0_A.sl.HS1_3
    refine canon_rows_cons (C := 256) (le_refl _) (scaledAt x0 x1) 15 (by decide) 3840 rfl _ _ (fun i k => (congrFun (pay1_44 _ _) _).trans (rowA_read x0 x1 15 (by decide) _ _ (maskA_read arg2 harg2 x1 15 (by decide) _) (loadA_eq c arg1 harg1 arg7 x0 15 (by decide) 3840 rfl _) i k)) _ ?_
    refine canon_rows_cons (C := 256) (le_refl _) (scaledAt x0 x1) 14 (by decide) 3584 rfl _ _ (fun i k => (congrFun (pay43_eq _ _) _).trans (rowA_read x0 x1 14 (by decide) _ _ (maskA_read arg2 harg2 x1 14 (by decide) _) (loadA_eq c arg1 harg1 arg7 x0 14 (by decide) 3584 rfl _) i k)) _ ?_
    refine canon_rows_cons (C := 256) (le_refl _) (scaledAt x0 x1) 13 (by decide) 3328 rfl _ _ (fun i k => (congrFun (pay42_41 _ _) _).trans (rowA_read x0 x1 13 (by decide) _ _ (maskA_read arg2 harg2 x1 13 (by decide) _) (loadA_eq c arg1 harg1 arg7 x0 13 (by decide) 3328 rfl _) i k)) _ ?_
    refine canon_rows_cons (C := 256) (le_refl _) (scaledAt x0 x1) 12 (by decide) 3072 rfl _ _ (fun i k => (congrFun (pay40_eq _ _) _).trans (rowA_read x0 x1 12 (by decide) _ _ (maskA_read arg2 harg2 x1 12 (by decide) _) (loadA_eq c arg1 harg1 arg7 x0 12 (by decide) 3072 rfl _) i k)) _ ?_
    refine canon_rows_cons (C := 256) (le_refl _) (scaledAt x0 x1) 11 (by decide) 2816 rfl _ _ (fun i k => (congrFun (pay39_37_38 _ _) _).trans (rowA_read x0 x1 11 (by decide) _ _ (maskA_read arg2 harg2 x1 11 (by decide) _) (loadA_eq c arg1 harg1 arg7 x0 11 (by decide) 2816 rfl _) i k)) _ ?_
    refine canon_rows_cons (C := 256) (le_refl _) (scaledAt x0 x1) 10 (by decide) 2560 rfl _ _ (fun i k => (congrFun (pay36_eq _ _) _).trans (rowA_read x0 x1 10 (by decide) _ _ (maskA_read arg2 harg2 x1 10 (by decide) _) (loadA_eq c arg1 harg1 arg7 x0 10 (by decide) 2560 rfl _) i k)) _ ?_
    refine canon_rows_cons (C := 256) (le_refl _) (scaledAt x0 x1) 9 (by decide) 2304 rfl _ _ (fun i k => (congrFun (pay35_33_34 _ _) _).trans (rowA_read x0 x1 9 (by decide) _ _ (maskA_read arg2 harg2 x1 9 (by decide) _) (loadA_eq c arg1 harg1 arg7 x0 9 (by decide) 2304 rfl _) i k)) _ ?_
    refine canon_rows_cons (C := 256) (le_refl _) (scaledAt x0 x1) 8 (by decide) 2048 rfl _ _ (fun i k => (congrFun (pay32_eq _ _) _).trans (rowA_read x0 x1 8 (by decide) _ _ (maskA_read arg2 harg2 x1 8 (by decide) _) (loadA_eq c arg1 harg1 arg7 x0 8 (by decide) 2048 rfl _) i k)) _ ?_
    refine canon_rows_cons (C := 256) (le_refl _) (scaledAt x0 x1) 7 (by decide) 1792 rfl _ _ (fun i k => (congrFun (pay31_30 _ _) _).trans (rowA_read x0 x1 7 (by decide) _ _ (maskA_read arg2 harg2 x1 7 (by decide) _) (loadA_eq c arg1 harg1 arg7 x0 7 (by decide) 1792 rfl _) i k)) _ ?_
    refine canon_rows_cons (C := 256) (le_refl _) (scaledAt x0 x1) 6 (by decide) 1536 rfl _ _ (fun i k => (congrFun (pay29_eq _ _) _).trans (rowA_read x0 x1 6 (by decide) _ _ (maskA_read arg2 harg2 x1 6 (by decide) _) (loadA_eq c arg1 harg1 arg7 x0 6 (by decide) 1536 rfl _) i k)) _ ?_
    refine canon_rows_cons (C := 256) (le_refl _) (scaledAt x0 x1) 5 (by decide) 1280 rfl _ _ (fun i k => (congrFun (pay28_eq _ _) _).trans (rowA_read x0 x1 5 (by decide) _ _ (maskA_read arg2 harg2 x1 5 (by decide) _) (loadA_eq c arg1 harg1 arg7 x0 5 (by decide) 1280 rfl _) i k)) _ ?_
    refine canon_rows_cons (C := 256) (le_refl _) (scaledAt x0 x1) 4 (by decide) 1024 rfl _ _ (fun i k => (congrFun (pay27_eq _ _) _).trans (rowA_read x0 x1 4 (by decide) _ _ (maskA_read arg2 harg2 x1 4 (by decide) _) (loadA_eq c arg1 harg1 arg7 x0 4 (by decide) 1024 rfl _) i k)) _ ?_
    refine canon_rows_cons (C := 256) (le_refl _) (scaledAt x0 x1) 3 (by decide) 768 rfl _ _ (fun i k => (congrFun (pay26_eq _ _) _).trans (rowA_read x0 x1 3 (by decide) _ _ (maskA_read arg2 harg2 x1 3 (by decide) _) (loadA_eq c arg1 harg1 arg7 x0 3 (by decide) 768 rfl _) i k)) _ ?_
    refine canon_rows_cons (C := 256) (le_refl _) (scaledAt x0 x1) 2 (by decide) 512 rfl _ _ (fun i k => (congrFun (pay25_eq _ _) _).trans (rowA_read x0 x1 2 (by decide) _ _ (maskA_read arg2 harg2 x1 2 (by decide) _) (loadA_eq c arg1 harg1 arg7 x0 2 (by decide) 512 rfl _) i k)) _ ?_
    refine canon_rows_cons (C := 256) (le_refl _) (scaledAt x0 x1) 1 (by decide) 256 rfl _ _ (fun i k => rowA_read x0 x1 1 (by decide) _ _ (maskA_read arg2 harg2 x1 1 (by decide) _) (loadA_eq c arg1 harg1 arg7 x0 1 (by decide) 256 rfl _) i k) _ ?_
    refine canon_rows_cons (C := 256) (le_refl _) (scaledAt x0 x1) 0 (by decide) 0 rfl _ _ (fun i k => (congrFun (pay23_22 _ _) _).trans (rowA_read x0 x1 0 (by decide) _ _ (maskA_read arg2 harg2 x1 0 (by decide) _) (loadA_eq c arg1 harg1 arg7 x0 0 (by decide) 0 rfl _) i k)) _ ?_
    exact fun b _ _ h => absurd h (Nat.not_lt_zero _)
  funext y
  obtain ⟨r, k, rfl⟩ : ∃ (r : Fin 4096) (k : Fin 256), y = ix2 r k := ⟨y 0, y 1, eq_ix2 y⟩
  rw [scaledW_ix2]
  exact eq_of_rows _ (scaledAt x0 x1) r k fun b i => rows b i k b.isLt k.isLt

/-- The second scratch, loaded whole, is read as the scaled products. -/
theorem v355_apply (r : Fin 4096) (k : Fin 256) :
    kernelRun0_A.sl.v355 (F := Ideal) c arg1 harg1 arg2 harg2 arg7 arg8 x0 x1 (ix2 r k) = scaledAt x0 x1 r k := by
  unfold kernelRun0_A.sl.v355
  rw [View.readCov_eq_canon', canonS1_eq]
  show scaledW x0 x1 _ = _
  rw [← scaledW_ix2]
  refine congrArg (scaledW x0 x1) (funext fun a => Fin.ext ?_)
  match a with
  | ⟨0, _⟩ => show 0 + 1 * r.val = r.val; omega
  | ⟨1, _⟩ => show 0 + 1 * k.val = k.val; omega

/-- The first point's output block. -/
theorem out_A_eq : out0_A_5 (F := Ideal) c i arg1 harg1 arg2 harg2 arg3 harg3 arg4 harg4 arg5 harg5 arg6 harg6 arg7 harg7 arg8 harg8 hc0 x0 x1 x2 x3 x4 = outBlk x0 x1 x2 x3 x4 := by
  have hz3 : (![0, 0, 0] : Fin 3 → ℕ) = fun _ => 0 := by funext a; fin_cases a <;> rfl
  have hz2 : (![0, 0] : Fin 2 → ℕ) = fun _ => 0 := by funext a; fin_cases a <;> rfl
  unfold out0_A_5
  rw [View.read_writes_junk_eq_canon]
  unfold kernelRun0_A
  dsimp only
  rw [View.canon_unit_zero (S := S1x4096x128) hz3]
  simp only [View.readAt_eq_ld, harg3.read_unread, harg4.read_unread, harg5.read_unread,
    View.ld_unit_zero (S := S256x512) hz2, View.ld_unit_zero (S := S512x128) hz2, View.ld_unit_zero (S := S1x128) hz2]
  funext y
  obtain ⟨r, d, rfl⟩ : ∃ (r : Fin 4096) (d : Fin 128), y = ix3 (0 : Fin 1) r d :=
    ⟨y 1, y 2, (eq_ix3 y).trans (by rw [Fin.eq_zero (y 0)]; rfl)⟩
  rw [pay2_apply, outBlk_ix3]
  unfold outAt
  simp only [v355_apply]

end Cert.KernelIdeal.Hand

end
-- ==== Proof.KI.ValB.lean ====
/-
  What a later grid point leaves, as values, when the first scratch still holds the augmentation in its upper half: the
  first scratch ends at the augmented features of this point's feature block, and the output's staging buffer at the
  point's output block.
-/
import proofs.«136502_g1906965479736_cont_8to1_1380_11_alg».proof.Proof.KI.Pure
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.ValueIdx Idealize.ShloMosaic.Tactic

variable (c : Dev nD) (i : grid0.Coords) (arg1 : Memref sig .tc .vmem S1x16x256x128 .f32) (harg1 : arg1.IsWhole) (arg2 : Memref sig .tc .vmem S1x16x256x256 .f32) (harg2 : arg2.IsWhole) (arg3 : Memref sig .tc .vmem S256x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1x4096x128 .f32) (harg6 : arg6.IsWhole) (arg7 : Memref sig .tc .vmem S4096x256 .bf16) (harg7 : arg7.IsWhole) (arg8 : Memref sig .tc .vmem S4096x256 .bf16) (harg8 : arg8.IsWhole) (hc0 : ¬cond0_0 i)
  (x0 : Vec Ideal S1x16x256x128 .f32) (x1 : Vec Ideal S1x16x256x256 .f32) (x2 : Vec Ideal S256x512 .bf16)
  (x3 : Vec Ideal S512x128 .bf16) (x4 : Vec Ideal S1x128 .f32) (xs0 : Vec Ideal S4096x256 .bf16)

namespace ValB

/-- Block bb of the features, stored through the conversion at rows 256·bb …, is the augmented features there. -/
theorem featPiece_eq (bb : Nat) (hbb : bb < 16) (off2 : Fin 2 → Nat) (off4 : Fin 4 → Nat)
    (h2 : off2 = ![256 * bb, 0]) (h4 : off4 = ![0, bb, 0, 0])
    (inb2 : ∀ a, off2 a + S256x128.size a ≤ S4096x256.size a)
    (inb4 : ∀ a, off4 a + S1x1x256x128.size a ≤ S1x16x256x128.size a)
    (x : (Rect.unit (s := S4096x256) off2 S256x128.size inb2).shape.Idx) :
    k0_pay5 (F := Ideal) (View.readAt (Elt Ideal) arg1.view (Rect.unit (s := S1x16x256x128) off4 S1x1x256x128.size inb4).toLoadRect (harg1.unread x0)) x
      = haugW x0 ((Rect.unit (s := S4096x256) off2 S256x128.size inb2).emb x) := by
  subst h2 h4
  obtain ⟨i, k, rfl⟩ : ∃ (i : Fin 256) (k : Fin 128), x = ix2 i k := ⟨x 0, x 1, eq_ix2 x⟩
  rw [hpay_apply, View.readAt_eq_ld, harg1.read_unread]
  have hk := k.isLt
  have hi := i.isLt
  have hlt : (((Rect.unit (s := S4096x256) ![256 * bb, 0] S256x128.size inb2).emb (ix2 i k)) 1).val < 128 := by
    show 0 + 1 * k.val < 128
    omega
  unfold haugW haugAt View.ld
  rw [dif_pos hlt]
  congr 1
  funext a
  match a with
  | ⟨0, _⟩ => apply Fin.ext; show 0 + 1 * 0 = 0; omega
  | ⟨1, _⟩ => apply Fin.ext; show bb + 1 * 0 = (256 * bb + 1 * i.val) / 256; omega
  | ⟨2, _⟩ => apply Fin.ext; show 0 + 1 * i.val = (256 * bb + 1 * i.val) % 256; omega
  | ⟨3, _⟩ => apply Fin.ext; show 0 + 1 * k.val = 0 + 1 * k.val; rfl

/-- A property of every member of a list, one member at a time. -/
theorem forall_mem_cons' {α : Type} {P : α → Prop} {a : α} {l : List α} (ha : P a) (hl : ∀ p ∈ l, P p) :
    ∀ p ∈ a :: l, P p := List.forall_mem_cons.2 ⟨ha, hl⟩

theorem forall_mem_nil' {α : Type} {P : α → Prop} : ∀ p ∈ ([] : List α), P p := fun _ h => nomatch h

/-- No feature block reaches column 128. -/
theorem featRect_not_mem {off2 : Fin 2 → Nat} (h1 : off2 1 = 0) (inb2 : ∀ a, off2 a + S256x128.size a ≤ S4096x256.size a)
    (y : S4096x256.Idx) (hy : 128 ≤ (y 1).val) : y ∉ (Rect.unit (s := S4096x256) off2 S256x128.size inb2).set := by
  rw [Rect.mem_set_unit]
  intro h
  have h1' := (h 1).2
  rw [h1] at h1'
  have : S256x128.size 1 = 128 := rfl
  omega

/-- What a later point's first scratch reads after the point's sixteen feature stores: the augmented features. -/
theorem loadB_eq (ht : TailOK xs0) (r : Fin 4096) (k : Fin 256) :
    arg7.view.read (Elt Ideal) (arg7.view.writes (Elt Ideal) (harg7.unread xs0) (kernelRun0_B.sl.HS0_16 c arg1 harg1 x0)) (ix2 r k)
      = haugAt x0 r k := by
  by_cases hk : k.val < 128
  · rw [← haugW_ix2]
    refine View.read_writes_apply_of_pieces _ _ (haugW x0) _ ?_ (ix2 r k) ?_
    · sl_unfold_run_names
      refine forall_mem_cons' (fun x => (congrFun (hpay21_eq _) x).trans (featPiece_eq arg1 harg1 x0 15 (by omega) ![3840, 0] ![0, 15, 0, 0] rfl rfl inb_S4096x256_S256x128_3840_0 inb_S1x16x256x128_S1x1x256x128_0_15_0_0 x)) ?_
      refine forall_mem_cons' (fun x => (congrFun (hpay20_eq _) x).trans (featPiece_eq arg1 harg1 x0 14 (by omega) ![3584, 0] ![0, 14, 0, 0] rfl rfl inb_S4096x256_S256x128_3584_0 inb_S1x16x256x128_S1x1x256x128_0_14_0_0 x)) ?_
      refine forall_mem_cons' (fun x => (congrFun (hpay19_eq _) x).trans (featPiece_eq arg1 harg1 x0 13 (by omega) ![3328, 0] ![0, 13, 0, 0] rfl rfl inb_S4096x256_S256x128_3328_0 inb_S1x16x256x128_S1x1x256x128_0_13_0_0 x)) ?_
      refine forall_mem_cons' (fun x => (congrFun (hpay18_eq _) x).trans (featPiece_eq arg1 harg1 x0 12 (by omega) ![3072, 0] ![0, 12, 0, 0] rfl rfl inb_S4096x256_S256x128_3072_0 inb_S1x16x256x128_S1x1x256x128_0_12_0_0 x)) ?_
      refine forall_mem_cons' (fun x => (congrFun (hpay17_eq _) x).trans (featPiece_eq arg1 harg1 x0 11 (by omega) ![2816, 0] ![0, 11, 0, 0] rfl rfl inb_S4096x256_S256x128_2816_0 inb_S1x16x256x128_S1x1x256x128_0_11_0_0 x)) ?_
      refine forall_mem_cons' (fun x => (congrFun (hpay16_eq _) x).trans (featPiece_eq arg1 harg1 x0 10 (by omega) ![2560, 0] ![0, 10, 0, 0] rfl rfl inb_S4096x256_S256x128_2560_0 inb_S1x16x256x128_S1x1x256x128_0_10_0_0 x)) ?_
      refine forall_mem_cons' (fun x => (congrFun (hpay15_eq _) x).trans (featPiece_eq arg1 harg1 x0 9 (by omega) ![2304, 0] ![0, 9, 0, 0] rfl rfl inb_S4096x256_S256x128_2304_0 inb_S1x16x256x128_S1x1x256x128_0_9_0_0 x)) ?_
      refine forall_mem_cons' (fun x => (congrFun (hpay14_13 _) x).trans (featPiece_eq arg1 harg1 x0 8 (by omega) ![2048, 0] ![0, 8, 0, 0] rfl rfl inb_S4096x256_S256x128_2048_0 inb_S1x16x256x128_S1x1x256x128_0_8_0_0 x)) ?_
      refine forall_mem_cons' (fun x => (congrFun (hpay12_eq _) x).trans (featPiece_eq arg1 harg1 x0 7 (by omega) ![1792, 0] ![0, 7, 0, 0] rfl rfl inb_S4096x256_S256x128_1792_0 inb_S1x16x256x128_S1x1x256x128_0_7_0_0 x)) ?_
      refine forall_mem_cons' (fun x => (congrFun (hpay11_eq _) x).trans (featPiece_eq arg1 harg1 x0 6 (by omega) ![1536, 0] ![0, 6, 0, 0] rfl rfl inb_S4096x256_S256x128_1536_0 inb_S1x16x256x128_S1x1x256x128_0_6_0_0 x)) ?_
      refine forall_mem_cons' (fun x => (congrFun (hpay10_eq _) x).trans (featPiece_eq arg1 harg1 x0 5 (by omega) ![1280, 0] ![0, 5, 0, 0] rfl rfl inb_S4096x256_S256x128_1280_0 inb_S1x16x256x128_S1x1x256x128_0_5_0_0 x)) ?_
      refine forall_mem_cons' (fun x => (congrFun (hpay9_eq _) x).trans (featPiece_eq arg1 harg1 x0 4 (by omega) ![1024, 0] ![0, 4, 0, 0] rfl rfl inb_S4096x256_S256x128_1024_0 inb_S1x16x256x128_S1x1x256x128_0_4_0_0 x)) ?_
      refine forall_mem_cons' (fun x => (congrFun (hpay8_eq _) x).trans (featPiece_eq arg1 harg1 x0 3 (by omega) ![768, 0] ![0, 3, 0, 0] rfl rfl inb_S4096x256_S256x128_768_0 inb_S1x16x256x128_S1x1x256x128_0_3_0_0 x)) ?_
      refine forall_mem_cons' (fun x => (congrFun (hpay7_eq _) x).trans (featPiece_eq arg1 harg1 x0 2 (by omega) ![512, 0] ![0, 2, 0, 0] rfl rfl inb_S4096x256_S256x128_512_0 inb_S1x16x256x128_S1x1x256x128_0_2_0_0 x)) ?_
      refine forall_mem_cons' (fun x => (congrFun (hpay6_eq _) x).trans (featPiece_eq arg1 harg1 x0 1 (by omega) ![256, 0] ![0, 1, 0, 0] rfl rfl inb_S4096x256_S256x128_256_0 inb_S1x16x256x128_S1x1x256x128_0_1_0_0 x)) ?_
      refine forall_mem_cons' (fun x => featPiece_eq arg1 harg1 x0 0 (by omega) ![0, 0] ![0, 0, 0, 0] rfl rfl inb_S4096x256_S256x128_0_0 inb_S1x16x256x128_S1x1x256x128_0_0_0_0 x) ?_
      exact forall_mem_nil'
    · have h := LoadRect.cover_of_covChk (kernelRun0_B.sl.HS0_16 (F := Ideal) c arg1 harg1 x0)
        (Rect.unit (s := S4096x256) ![0, 0] ![4096, 128] (by decide)).toLoadRect
        (.split 0 256 (.leaf 15) (.split 0 256 (.leaf 14) (.split 0 256 (.leaf 13) (.split 0 256 (.leaf 12) (.split 0 256 (.leaf 11) (.split 0 256 (.leaf 10) (.split 0 256 (.leaf 9) (.split 0 256 (.leaf 8) (.split 0 256 (.leaf 7) (.split 0 256 (.leaf 6) (.split 0 256 (.leaf 5) (.split 0 256 (.leaf 4) (.split 0 256 (.leaf 3) (.split 0 256 (.leaf 2) (.split 0 256 (.leaf 1) (.leaf 0)))))))))))))))) (by sl_kernel_rfl) (ix2 r ⟨k.val, hk⟩)
      have e : (Rect.unit (s := S4096x256) ![0, 0] ![4096, 128] (by decide)).toLoadRect.idx (ix2 r ⟨k.val, hk⟩) = ix2 r k := by
        funext a
        match a with
        | ⟨0, _⟩ => apply Fin.ext; show 0 + 1 * r.val = r.val; omega
        | ⟨1, _⟩ => apply Fin.ext; show 0 + 1 * k.val = k.val; omega
      rwa [e] at h
  · have hk' : 128 ≤ ((ix2 r k : S4096x256.Idx) 1).val := Nat.le_of_not_lt hk
    rw [View.read_writes_apply_of_forall_not_mem _ _ (ix2 r k) _ ?hnm, harg7.read_unread]
    · rw [ht r k (Nat.le_of_not_lt hk)]
      unfold haugAt
      rw [dif_neg hk]
    case hnm =>
      sl_unfold_run_names
      refine forall_mem_cons' (featRect_not_mem (off2 := ![3840, 0]) rfl inb_S4096x256_S256x128_3840_0 _ hk') ?_
      refine forall_mem_cons' (featRect_not_mem (off2 := ![3584, 0]) rfl inb_S4096x256_S256x128_3584_0 _ hk') ?_
      refine forall_mem_cons' (featRect_not_mem (off2 := ![3328, 0]) rfl inb_S4096x256_S256x128_3328_0 _ hk') ?_
      refine forall_mem_cons' (featRect_not_mem (off2 := ![3072, 0]) rfl inb_S4096x256_S256x128_3072_0 _ hk') ?_
      refine forall_mem_cons' (featRect_not_mem (off2 := ![2816, 0]) rfl inb_S4096x256_S256x128_2816_0 _ hk') ?_
      refine forall_mem_cons' (featRect_not_mem (off2 := ![2560, 0]) rfl inb_S4096x256_S256x128_2560_0 _ hk') ?_
      refine forall_mem_cons' (featRect_not_mem (off2 := ![2304, 0]) rfl inb_S4096x256_S256x128_2304_0 _ hk') ?_
      refine forall_mem_cons' (featRect_not_mem (off2 := ![2048, 0]) rfl inb_S4096x256_S256x128_2048_0 _ hk') ?_
      refine forall_mem_cons' (featRect_not_mem (off2 := ![1792, 0]) rfl inb_S4096x256_S256x128_1792_0 _ hk') ?_
      refine forall_mem_cons' (featRect_not_mem (off2 := ![1536, 0]) rfl inb_S4096x256_S256x128_1536_0 _ hk') ?_
      refine forall_mem_cons' (featRect_not_mem (off2 := ![1280, 0]) rfl inb_S4096x256_S256x128_1280_0 _ hk') ?_
      refine forall_mem_cons' (featRect_not_mem (off2 := ![1024, 0]) rfl inb_S4096x256_S256x128_1024_0 _ hk') ?_
      refine forall_mem_cons' (featRect_not_mem (off2 := ![768, 0]) rfl inb_S4096x256_S256x128_768_0 _ hk') ?_
      refine forall_mem_cons' (featRect_not_mem (off2 := ![512, 0]) rfl inb_S4096x256_S256x128_512_0 _ hk') ?_
      refine forall_mem_cons' (featRect_not_mem (off2 := ![256, 0]) rfl inb_S4096x256_S256x128_256_0 _ hk') ?_
      refine forall_mem_cons' (featRect_not_mem (off2 := ![0, 0]) rfl inb_S4096x256_S256x128_0_0 _ hk') ?_
      exact forall_mem_nil'

theorem rowB_rowOf (bb : Fin 16) (j : Fin 256) : rowB (rowOf bb j) = bb := by
  apply Fin.ext
  show (bb.val * 256 + j.val) / 256 = bb.val
  have := j.isLt
  omega

theorem rowI_rowOf (bb : Fin 16) (j : Fin 256) : rowI (rowOf bb j) = j := by
  apply Fin.ext
  show (bb.val * 256 + j.val) % 256 = j.val
  have := j.isLt
  omega

/-- A row block of the second scratch, from a mask block that reads graph bb's mask and a block of the first scratch
    that reads the augmented features at graph bb's rows: the scaled product at those rows. -/
theorem pay24_block (bb : Fin 16) (M : Vec Ideal S1x1x256x256 .f32) (H : Vec Ideal S256x256 .bf16)
    (hM : ∀ i j : Fin 256, M (ix4 (0 : Fin 1) (0 : Fin 1) i j) = x1 (ix4 (0 : Fin 1) bb i j))
    (hH : ∀ j k : Fin 256, H (ix2 j k) = haugAt x0 (rowOf bb j) k) (i k : Fin 256) :
    k0_pay24 (F := Ideal) M H (ix2 i k) = scaledAt x0 x1 (rowOf bb i) k := by
  rw [pay24_apply]
  unfold scaledAt invAt mhAt
  rw [rowB_rowOf, rowI_rowOf]
  simp only [hM, hH]

/-- Row block bb of the second scratch: the mask block of graph bb times the first scratch's rows of graph bb, scaled. -/
theorem rowPiece_eq (ht : TailOK xs0) (bb : Nat) (hbb : bb < 16) (off2 : Fin 2 → Nat) (off4 : Fin 4 → Nat)
    (h2 : off2 = ![256 * bb, 0]) (h4 : off4 = ![0, bb, 0, 0])
    (inb2 : ∀ a, off2 a + S256x256.size a ≤ S4096x256.size a)
    (inb4 : ∀ a, off4 a + S1x1x256x256.size a ≤ S1x16x256x256.size a)
    (x : (Rect.unit (s := S4096x256) off2 S256x256.size inb2).shape.Idx) :
    k0_pay24 (F := Ideal)
        (View.readAt (Elt Ideal) arg2.view (Rect.unit (s := S1x16x256x256) off4 S1x1x256x256.size inb4).toLoadRect (harg2.unread x1))
        (View.readAt (Elt Ideal) arg7.view (Rect.unit (s := S4096x256) off2 S256x256.size inb2).toLoadRect
          (arg7.view.writes (Elt Ideal) (harg7.unread xs0) (kernelRun0_B.sl.HS0_16 c arg1 harg1 x0))) x
      = scaledW x0 x1 ((Rect.unit (s := S4096x256) off2 S256x256.size inb2).emb x) := by
  subst h2 h4
  obtain ⟨i, k, rfl⟩ : ∃ (i : Fin 256) (k : Fin 256), x = ix2 i k := ⟨x 0, x 1, eq_ix2 x⟩
  have hi := i.isLt
  have hk := k.isLt
  have he : (Rect.unit (s := S4096x256) ![256 * bb, 0] S256x256.size inb2).emb (ix2 i k) = ix2 (rowOf ⟨bb, hbb⟩ i) k := by
    funext a
    match a with
    | ⟨0, _⟩ => apply Fin.ext; show 256 * bb + 1 * i.val = bb * 256 + i.val; omega
    | ⟨1, _⟩ => apply Fin.ext; show 0 + 1 * k.val = k.val; omega
  rw [he, scaledW_ix2]
  refine pay24_block x0 x1 ⟨bb, hbb⟩ _ _ ?_ ?_ i k
  · intro i j
    rw [View.readAt_eq_ld, harg2.read_unread]
    show x1 _ = x1 _
    congr 1
    funext a
    match a with
    | ⟨0, _⟩ => apply Fin.ext; show 0 + 1 * 0 = 0; omega
    | ⟨1, _⟩ => apply Fin.ext; show bb + 1 * 0 = bb; omega
    | ⟨2, _⟩ => apply Fin.ext; show 0 + 1 * i.val = i.val; omega
    | ⟨3, _⟩ => apply Fin.ext; show 0 + 1 * j.val = j.val; omega
  · intro j k
    rw [View.readAt_eq_ld]
    have hj := j.isLt
    have hk := k.isLt
    have he' : (Rect.unit (s := S4096x256) ![256 * bb, 0] S256x256.size inb2).toLoadRect.idx (ix2 j k) = ix2 (rowOf ⟨bb, hbb⟩ j) k := by
      funext a
      match a with
      | ⟨0, _⟩ => apply Fin.ext; show 256 * bb + 1 * j.val = bb * 256 + j.val; omega
      | ⟨1, _⟩ => apply Fin.ext; show 0 + 1 * k.val = k.val; omega
    show arg7.view.read (Elt Ideal) _ ((Rect.unit (s := S4096x256) ![256 * bb, 0] S256x256.size inb2).toLoadRect.idx (ix2 j k)) = _
    rw [he']
    exact loadB_eq c arg1 harg1 arg7 harg7 x0 xs0 ht _ k

/-- The second scratch as the output's product reads it: the scaled rows. -/
theorem v355_eq (ht : TailOK xs0) (r : Fin 4096) (k : Fin 256) :
    kernelRun0_B.sl.v355 (F := Ideal) c arg1 harg1 arg2 harg2 arg7 harg7 arg8 x0 x1 xs0 (ix2 r k) = scaledAt x0 x1 r k := by
  unfold kernelRun0_B.sl.v355
  rw [View.readCov_eq_canon']
  have e : (Rect.unit (s := S4096x256) ![0, 0] S4096x256.size inb_S4096x256_S4096x256_0_0).toLoadRect.idx (ix2 r k) = ix2 r k := by
    funext a
    match a with
    | ⟨0, _⟩ => apply Fin.ext; show 0 + 1 * r.val = r.val; omega
    | ⟨1, _⟩ => apply Fin.ext; show 0 + 1 * k.val = k.val; omega
  show View.canon _ ((Rect.unit (s := S4096x256) ![0, 0] S4096x256.size inb_S4096x256_S4096x256_0_0).toLoadRect.idx (ix2 r k)) = _
  rw [e, ← scaledW_ix2]
  refine View.canon_apply_of_pieces (scaledW x0 x1) _ ?_ (ix2 r k) ?_
  · sl_unfold_run_names
    refine forall_mem_cons' (fun x => (congrFun (pay1_44 _ _) x).trans (rowPiece_eq c arg1 harg1 arg2 harg2 arg7 harg7 x0 x1 xs0 ht 15 (by omega) ![3840, 0] ![0, 15, 0, 0] rfl rfl inb_S4096x256_S256x256_3840_0 inb_S1x16x256x256_S1x1x256x256_0_15_0_0 x)) ?_
    refine forall_mem_cons' (fun x => (congrFun (pay43_eq _ _) x).trans (rowPiece_eq c arg1 harg1 arg2 harg2 arg7 harg7 x0 x1 xs0 ht 14 (by omega) ![3584, 0] ![0, 14, 0, 0] rfl rfl inb_S4096x256_S256x256_3584_0 inb_S1x16x256x256_S1x1x256x256_0_14_0_0 x)) ?_
    refine forall_mem_cons' (fun x => (congrFun (pay42_41 _ _) x).trans (rowPiece_eq c arg1 harg1 arg2 harg2 arg7 harg7 x0 x1 xs0 ht 13 (by omega) ![3328, 0] ![0, 13, 0, 0] rfl rfl inb_S4096x256_S256x256_3328_0 inb_S1x16x256x256_S1x1x256x256_0_13_0_0 x)) ?_
    refine forall_mem_cons' (fun x => (congrFun (pay40_eq _ _) x).trans (rowPiece_eq c arg1 harg1 arg2 harg2 arg7 harg7 x0 x1 xs0 ht 12 (by omega) ![3072, 0] ![0, 12, 0, 0] rfl rfl inb_S4096x256_S256x256_3072_0 inb_S1x16x256x256_S1x1x256x256_0_12_0_0 x)) ?_
    refine forall_mem_cons' (fun x => (congrFun (pay39_37_38 _ _) x).trans (rowPiece_eq c arg1 harg1 arg2 harg2 arg7 harg7 x0 x1 xs0 ht 11 (by omega) ![2816, 0] ![0, 11, 0, 0] rfl rfl inb_S4096x256_S256x256_2816_0 inb_S1x16x256x256_S1x1x256x256_0_11_0_0 x)) ?_
    refine forall_mem_cons' (fun x => (congrFun (pay36_eq _ _) x).trans (rowPiece_eq c arg1 harg1 arg2 harg2 arg7 harg7 x0 x1 xs0 ht 10 (by omega) ![2560, 0] ![0, 10, 0, 0] rfl rfl inb_S4096x256_S256x256_2560_0 inb_S1x16x256x256_S1x1x256x256_0_10_0_0 x)) ?_
    refine forall_mem_cons' (fun x => (congrFun (pay35_33_34 _ _) x).trans (rowPiece_eq c arg1 harg1 arg2 harg2 arg7 harg7 x0 x1 xs0 ht 9 (by omega) ![2304, 0] ![0, 9, 0, 0] rfl rfl inb_S4096x256_S256x256_2304_0 inb_S1x16x256x256_S1x1x256x256_0_9_0_0 x)) ?_
    refine forall_mem_cons' (fun x => (congrFun (pay32_eq _ _) x).trans (rowPiece_eq c arg1 harg1 arg2 harg2 arg7 harg7 x0 x1 xs0 ht 8 (by omega) ![2048, 0] ![0, 8, 0, 0] rfl rfl inb_S4096x256_S256x256_2048_0 inb_S1x16x256x256_S1x1x256x256_0_8_0_0 x)) ?_
    refine forall_mem_cons' (fun x => (congrFun (pay31_30 _ _) x).trans (rowPiece_eq c arg1 harg1 arg2 harg2 arg7 harg7 x0 x1 xs0 ht 7 (by omega) ![1792, 0] ![0, 7, 0, 0] rfl rfl inb_S4096x256_S256x256_1792_0 inb_S1x16x256x256_S1x1x256x256_0_7_0_0 x)) ?_
    refine forall_mem_cons' (fun x => (congrFun (pay29_eq _ _) x).trans (rowPiece_eq c arg1 harg1 arg2 harg2 arg7 harg7 x0 x1 xs0 ht 6 (by omega) ![1536, 0] ![0, 6, 0, 0] rfl rfl inb_S4096x256_S256x256_1536_0 inb_S1x16x256x256_S1x1x256x256_0_6_0_0 x)) ?_
    refine forall_mem_cons' (fun x => (congrFun (pay28_eq _ _) x).trans (rowPiece_eq c arg1 harg1 arg2 harg2 arg7 harg7 x0 x1 xs0 ht 5 (by omega) ![1280, 0] ![0, 5, 0, 0] rfl rfl inb_S4096x256_S256x256_1280_0 inb_S1x16x256x256_S1x1x256x256_0_5_0_0 x)) ?_
    refine forall_mem_cons' (fun x => (congrFun (pay27_eq _ _) x).trans (rowPiece_eq c arg1 harg1 arg2 harg2 arg7 harg7 x0 x1 xs0 ht 4 (by omega) ![1024, 0] ![0, 4, 0, 0] rfl rfl inb_S4096x256_S256x256_1024_0 inb_S1x16x256x256_S1x1x256x256_0_4_0_0 x)) ?_
    refine forall_mem_cons' (fun x => (congrFun (pay26_eq _ _) x).trans (rowPiece_eq c arg1 harg1 arg2 harg2 arg7 harg7 x0 x1 xs0 ht 3 (by omega) ![768, 0] ![0, 3, 0, 0] rfl rfl inb_S4096x256_S256x256_768_0 inb_S1x16x256x256_S1x1x256x256_0_3_0_0 x)) ?_
    refine forall_mem_cons' (fun x => (congrFun (pay25_eq _ _) x).trans (rowPiece_eq c arg1 harg1 arg2 harg2 arg7 harg7 x0 x1 xs0 ht 2 (by omega) ![512, 0] ![0, 2, 0, 0] rfl rfl inb_S4096x256_S256x256_512_0 inb_S1x16x256x256_S1x1x256x256_0_2_0_0 x)) ?_
    refine forall_mem_cons' (fun x => rowPiece_eq c arg1 harg1 arg2 harg2 arg7 harg7 x0 x1 xs0 ht 1 (by omega) ![256, 0] ![0, 1, 0, 0] rfl rfl inb_S4096x256_S256x256_256_0 inb_S1x16x256x256_S1x1x256x256_0_1_0_0 x) ?_
    refine forall_mem_cons' (fun x => (congrFun (pay23_22 _ _) x).trans (rowPiece_eq c arg1 harg1 arg2 harg2 arg7 harg7 x0 x1 xs0 ht 0 (by omega) ![0, 0] ![0, 0, 0, 0] rfl rfl inb_S4096x256_S256x256_0_0 inb_S1x16x256x256_S1x1x256x256_0_0_0_0 x)) ?_
    exact forall_mem_nil'
  · have h := LoadRect.cover_of_covChk (kernelRun0_B.sl.HS1_16 (F := Ideal) c arg1 harg1 arg2 harg2 arg7 harg7 x0 x1 xs0)
      (Rect.unit (s := S4096x256) ![0, 0] S4096x256.size inb_S4096x256_S4096x256_0_0).toLoadRect
      (.split 0 256 (.leaf 15) (.split 0 256 (.leaf 14) (.split 0 256 (.leaf 13) (.split 0 256 (.leaf 12) (.split 0 256 (.leaf 11) (.split 0 256 (.leaf 10) (.split 0 256 (.leaf 9) (.split 0 256 (.leaf 8) (.split 0 256 (.leaf 7) (.split 0 256 (.leaf 6) (.split 0 256 (.leaf 5) (.split 0 256 (.leaf 4) (.split 0 256 (.leaf 3) (.split 0 256 (.leaf 2) (.split 0 256 (.leaf 1) (.leaf 0)))))))))))))))) (by sl_kernel_rfl) (ix2 r k)
    rwa [e] at h

end ValB

/-- After a later point the first scratch holds the augmented features of that point's block. -/
theorem sout_B_eq (ht : TailOK xs0) : sout0_B_0 (F := Ideal) c i arg1 harg1 arg2 harg2 arg3 harg3 arg4 harg4 arg5 harg5 arg6 harg6 arg7 harg7 arg8 harg8 hc0 x0 x1 x2 x3 x4 xs0 = haugW x0 := by
  unfold sout0_B_0
  funext y
  obtain ⟨r, k, rfl⟩ : ∃ (r : Fin 4096) (k : Fin 256), y = ix2 r k := ⟨y 0, y 1, eq_ix2 y⟩
  rw [haugW_ix2]
  exact ValB.loadB_eq c arg1 harg1 arg7 harg7 x0 xs0 ht r k

/-- A later point's output block. -/
theorem out_B_eq (ht : TailOK xs0) : out0_B_5 (F := Ideal) c i arg1 harg1 arg2 harg2 arg3 harg3 arg4 harg4 arg5 harg5 arg6 harg6 arg7 harg7 arg8 harg8 hc0 x0 x1 x2 x3 x4 xs0 = outBlk x0 x1 x2 x3 x4 := by
  unfold out0_B_5
  rw [View.read_writes_junk_eq_canon]
  unfold kernelRun0_B
  dsimp only
  have hz3 : (![0, 0, 0] : Fin 3 → Nat) = fun _ => 0 := by funext a; fin_cases a <;> rfl
  have hz2 : (![0, 0] : Fin 2 → Nat) = fun _ => 0 := by funext a; fin_cases a <;> rfl
  rw [View.canon_unit_zero (S := S1x4096x128) hz3]
  simp only [View.readAt_eq_ld, Memref.IsWhole.read_unread]
  rw [View.ld_unit_zero (S := S256x512) hz2, View.ld_unit_zero (S := S512x128) hz2, View.ld_unit_zero (S := S1x128) hz2]
  funext y
  have h0 : y 0 = (0 : Fin 1) := Subsingleton.elim (α := Fin 1) _ _
  obtain ⟨r, d, rfl⟩ : ∃ (r : Fin 4096) (d : Fin 128), y = ix3 (0 : Fin 1) r d :=
    ⟨y 1, y 2, by funext a; match a with | ⟨0, _⟩ => exact h0 | ⟨1, _⟩ => rfl | ⟨2, _⟩ => rfl⟩
  rw [outBlk_ix3, pay2_apply]
  unfold outAt
  simp only [ValB.v355_eq c arg1 harg1 arg2 harg2 arg7 harg7 arg8 x0 x1 xs0 ht]

end Cert.KernelIdeal.Hand

end
-- ==== Proof.KI.Host.lean ====
/-
  The host side of the kernel's program at the ideal values: what the region finds in the five arrays it stages (the
  features and the mask regrouped sixteen graphs to a grid point, the first weight with the bias row and zero rows under
  it, the second weight, the bias as a row), each window's block at a grid point read at an index, and the point's output
  (KI/BlockSpec.lean) read as the kernel's arrangement of the whole arrays (Spec.lean's GK).
-/
import proofs.«136502_g1906965479736_cont_8to1_1380_11_alg».proof.Proof.KI.BlockSpec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (c : Dev nD)

/-- The six argument arrays as launched, at their literal types. -/
abbrev A0 : FVec Ideal S128x256x128 .f32 := m ((c : Thread nD τ).loc main_arg0)
abbrev A1 : FVec Ideal S128x256x256 .f32 := m ((c : Thread nD τ).loc main_arg1)
abbrev A2 : FVec Ideal S128x512 .f32 := m ((c : Thread nD τ).loc main_arg2)
abbrev A3 : FVec Ideal S512 .f32 := m ((c : Thread nD τ).loc main_arg3)
abbrev A4 : FVec Ideal S512x128 .f32 := m ((c : Thread nD τ).loc main_arg4)
abbrev A5 : FVec Ideal S128 .f32 := m ((c : Thread nD τ).loc main_arg5)

/-- The input blocks of grid point t, at their literal types. -/
abbrev xb0 (t : Fin cfg0.N) : Vec Ideal S1x16x256x128 .f32 := iblk m c 0 t
abbrev xb1 (t : Fin cfg0.N) : Vec Ideal S1x16x256x256 .f32 := iblk m c 1 t
abbrev xb2 (t : Fin cfg0.N) : Vec Ideal S256x512 .bf16 := iblk m c 2 t
abbrev xb3 (t : Fin cfg0.N) : Vec Ideal S512x128 .bf16 := iblk m c 3 t
abbrev xb4 (t : Fin cfg0.N) : Vec Ideal S1x128 .f32 := iblk m c 4 t

/-- Graph bb of grid point t is graph 16 t + bb of the batch. -/
def gOf (t : Fin cfg0.N) (bb : Fin 16) : Fin 128 :=
  ⟨16 * t.val + bb.val, by have h : t.val < 8 := lt_of_lt_of_eq t.isLt (show cfg0.N = 8 from N_0); have := bb.isLt; omega⟩

/-! ## What the region finds -/

theorem V_v0 : (V m c main_v0 : S8x16x256x128.Idx → EReal) = shapeCast S8x16x256x128 (A0 m c) shapeCasts_S128x256x128_S8x16x256x128 := by
  dsimp only [V, V0]
  simp only [hostOps0, List.flatten_cons, List.flatten_nil, List.append_nil]
  after_results
  rfl

theorem V_v1 : (V m c main_v1 : S8x16x256x256.Idx → EReal) = shapeCast S8x16x256x256 (A1 m c) shapeCasts_S128x256x256_S8x16x256x256 := by
  dsimp only [V, V0]
  simp only [hostOps0, List.flatten_cons, List.flatten_nil, List.append_nil]
  after_results
  rfl

theorem V_v5 : (V m c main_v5 : S256x512.Idx → EReal) = truncf .bf16 (concatenate S256x512 0 [⟨S128x512, A2 m c⟩, ⟨S1x512, broadcastInDim S1x512 ![1] bcast_S512_S1x512_1 (A3 m c)⟩, ⟨S127x512, broadcastInDim S127x512 ![] bcast_S_S127x512 (constant (F := Ideal) S_ .f32 0x00000000#32)⟩] concatenates_S128x512_S1x512_S127x512_S256x512_d0) bitsLt_bf16_f32 := by
  dsimp only [V, V0]
  simp only [hostOps0, List.flatten_cons, List.flatten_nil, List.append_nil]
  after_results
  congr 1

theorem V_v6 : (V m c main_v6 : S512x128.Idx → EReal) = truncf (F := Ideal) .bf16 (A4 m c) bitsLt_bf16_f32 := by
  dsimp only [V, V0]
  simp only [hostOps0, List.flatten_cons, List.flatten_nil, List.append_nil]
  after_results

theorem V_v7 : (V m c main_v7 : S1x128.Idx → EReal) = shapeCast S1x128 (A5 m c) shapeCasts_S128_S1x128 := by
  dsimp only [V, V0]
  simp only [hostOps0, List.flatten_cons, List.flatten_nil, List.append_nil]
  after_results
  rfl

/-! ## The blocks at an index -/

/-- The block index of the features' window at point t: the point along the first axis, zero elsewhere. -/
theorem idx0_0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, win0_0.index t (0 : Fin 4) = t.val ∧ win0_0.index t (1 : Fin 4) = 0
    ∧ win0_0.index t (2 : Fin 4) = 0 ∧ win0_0.index t (3 : Fin 4) = 0)

theorem blk0_apply (t : Fin cfg0.N) (bb : Fin 16) (i : Fin 256) (k : Fin 128) :
    xb0 m c t (ix4 (0 : Fin 1) bb i k) = A0 m c (ix3 (gOf t bb) i k) := by
  obtain ⟨e0, e1, e2, e3⟩ := idx0_0 t
  show V m c main_v0 (((cfg0.win 0).blk t).view.emb (ix4 (0 : Fin 1) bb i k)) = _
  rw [V_v0]
  refine shapeCast_apply _ _ _ (ix3 (gOf t bb) i k) ?_
  rw [Shape.rowMajor_val_three, Shape.rowMajor_val_four]
  show ((16 * t.val + bb.val) * 256 + i.val) * 128 + k.val
      = (((win0_0.index t (0 : Fin 4) * 1 + 1 * 0) * 16 + (win0_0.index t (1 : Fin 4) * 16 + 1 * bb.val)) * 256
          + (win0_0.index t (2 : Fin 4) * 256 + 1 * i.val)) * 128 + (win0_0.index t (3 : Fin 4) * 128 + 1 * k.val)
  rw [e0, e1, e2, e3]
  omega

/-- The block index of the masks' window at point t: the point along the first axis, zero elsewhere. -/
theorem idx0_1 : ∀ t : Fin cfg0.N, win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, win0_1.index t (0 : Fin 4) = t.val ∧ win0_1.index t (1 : Fin 4) = 0
    ∧ win0_1.index t (2 : Fin 4) = 0 ∧ win0_1.index t (3 : Fin 4) = 0)

theorem blk1_apply (t : Fin cfg0.N) (bb : Fin 16) (i : Fin 256) (j : Fin 256) :
    xb1 m c t (ix4 (0 : Fin 1) bb i j) = A1 m c (ix3 (gOf t bb) i j) := by
  obtain ⟨e0, e1, e2, e3⟩ := idx0_1 t
  show V m c main_v1 (((cfg0.win 1).blk t).view.emb (ix4 (0 : Fin 1) bb i j)) = _
  rw [V_v1]
  refine shapeCast_apply _ _ _ (ix3 (gOf t bb) i j) ?_
  rw [Shape.rowMajor_val_three, Shape.rowMajor_val_four]
  show ((16 * t.val + bb.val) * 256 + i.val) * 256 + j.val
      = (((win0_1.index t (0 : Fin 4) * 1 + 1 * 0) * 16 + (win0_1.index t (1 : Fin 4) * 16 + 1 * bb.val)) * 256
          + (win0_1.index t (2 : Fin 4) * 256 + 1 * i.val)) * 256 + (win0_1.index t (3 : Fin 4) * 256 + 1 * j.val)
  rw [e0, e1, e2, e3]
  omega

/-- The three weight windows stage their whole arrays: block index zero on both axes at every point. -/
theorem idx0_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx0_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx0_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

theorem blk2_apply (t : Fin cfg0.N) (k : Fin 256) (q : Fin 512) :
    xb2 m c t (ix2 k q) = Cert.FFConv.wca (A2 m c) (A3 m c) k q := by
  obtain ⟨e0, e1⟩ := idx0_2 t
  -- the block is the whole array: its embedding is the identity
  have hemb : ((cfg0.win 2).blk t).view.emb (ix2 k q) = ix2 k q := by
    funext a; apply Fin.ext
    match a with
    | ⟨0, _⟩ => show win0_2.index t (0 : Fin 2) * 256 + 1 * k.val = k.val; omega
    | ⟨1, _⟩ => show win0_2.index t (1 : Fin 2) * 512 + 1 * q.val = q.val; omega
  show V m c main_v5 (((cfg0.win 2).blk t).view.emb (ix2 k q)) = _
  rw [hemb, V_v5, truncf_apply]
  unfold Cert.FFConv.wca
  by_cases hk : k.val < 128
  · -- rows below 128: the first weight
    rw [dif_pos hk]
    refine concatenate_apply_piece _ _ _ (ix2 k q) 0 (by show (0 : ℕ) < 3; omega) S128x512 (A2 m c) rfl rfl 0 rfl
      (ix2 ⟨k.val, hk⟩ q) ?_ ?_
    · intro b hb
      match b with
      | ⟨0, _⟩ => exact absurd (Fin.ext rfl) hb
      | ⟨1, _⟩ => rfl
    · show 0 + k.val = k.val; omega
  · rw [dif_neg hk]
    by_cases hk1 : k.val = 128
    · -- row 128: the bias, broadcast along the row
      rw [if_pos hk1]
      refine (concatenate_apply_piece _ _ _ (ix2 k q) 1 (by show (1 : ℕ) < 3; omega) S1x512
        (broadcastInDim S1x512 ![1] bcast_S512_S1x512_1 (A3 m c)) rfl rfl 128 rfl (ix2 (0 : Fin 1) q) ?_ ?_).trans ?_
      · intro b hb
        match b with
        | ⟨0, _⟩ => exact absurd (Fin.ext rfl) hb
        | ⟨1, _⟩ => rfl
      · show 128 + 0 = k.val; omega
      · exact broadcastInDim_apply _ _ _ _ (ix1 q) (fun a => by match a with | ⟨0, _⟩ => rfl)
    · -- rows above 128: zero
      rw [if_neg hk1]
      refine (concatenate_apply_piece _ _ _ (ix2 k q) 2 (by show (2 : ℕ) < 3; omega) S127x512
        (broadcastInDim S127x512 ![] bcast_S_S127x512 (constant (F := Ideal) S_ .f32 0x00000000#32)) rfl rfl 129 rfl
        (ix2 ⟨k.val - 129, by have := k.isLt; omega⟩ q) ?_ ?_).trans ?_
      · intro b hb
        match b with
        | ⟨0, _⟩ => exact absurd (Fin.ext rfl) hb
        | ⟨1, _⟩ => rfl
      · show 129 + (k.val - 129) = k.val; omega
      · exact (broadcastInDim_apply _ _ _ _ (fun a => a.elim0) (fun a => a.elim0)).trans Cert.FFConv.zero_f32

theorem blk3_apply (t : Fin cfg0.N) (q : Fin 512) (d : Fin 128) :
    xb3 m c t (ix2 q d) = A4 m c (ix2 q d) := by
  obtain ⟨e0, e1⟩ := idx0_3 t
  have hemb : ((cfg0.win 3).blk t).view.emb (ix2 q d) = ix2 q d := by
    funext a; apply Fin.ext
    match a with
    | ⟨0, _⟩ => show win0_3.index t (0 : Fin 2) * 512 + 1 * q.val = q.val; omega
    | ⟨1, _⟩ => show win0_3.index t (1 : Fin 2) * 128 + 1 * d.val = d.val; omega
  show V m c main_v6 (((cfg0.win 3).blk t).view.emb (ix2 q d)) = _
  rw [hemb, V_v6, truncf_apply]

theorem blk4_apply (t : Fin cfg0.N) (d : Fin 128) :
    xb4 m c t (ix2 (0 : Fin 1) d) = A5 m c (ix1 d) := by
  obtain ⟨e0, e1⟩ := idx0_4 t
  show V m c main_v7 (((cfg0.win 4).blk t).view.emb (ix2 (0 : Fin 1) d)) = _
  rw [V_v7]
  refine shapeCast_apply _ _ _ (ix1 d) ?_
  rw [Shape.rowMajor_val_one, Shape.rowMajor_val_two]
  show d.val = (win0_4.index t (0 : Fin 2) * 1 + 1 * 0) * 128 + (win0_4.index t (1 : Fin 2) * 128 + 1 * d.val)
  rw [e0, e1]
  omega

/-! ## The point's output is the kernel's arrangement of the whole arrays -/

/-- The point's augmented features are the batch's, at the row's graph and node. -/
theorem haugAt_eq (t : Fin cfg0.N) (r : Fin 4096) (k : Fin 256) :
    haugAt (xb0 m c t) r k = Cert.FFConv.haug (A0 m c) (gOf t (rowB r)) (rowI r) k := by
  unfold haugAt Cert.FFConv.haug
  by_cases hk : k.val < 128
  · rw [dif_pos hk, dif_pos hk, blk0_apply]
  · rw [dif_neg hk, dif_neg hk]

/-- The point's mask times its augmented features is the batch's. -/
theorem mhAt_eq (t : Fin cfg0.N) (r : Fin 4096) (k : Fin 256) :
    mhAt (xb0 m c t) (xb1 m c t) r k = Cert.FFConv.mh (A0 m c) (A1 m c) (gOf t (rowB r)) (rowI r) k := by
  unfold mhAt Cert.FFConv.mh
  refine Finset.sum_congr rfl fun j _ => ?_
  rw [blk1_apply, haugAt_eq, rowB_rowOf, rowI_rowOf]

/-- The reciprocal of the clipped degree, likewise. -/
theorem invAt_eq (t : Fin cfg0.N) (r : Fin 4096) :
    invAt (xb0 m c t) (xb1 m c t) r = Cert.FFConv.inv (A0 m c) (A1 m c) (gOf t (rowB r)) (rowI r) := by
  unfold invAt Cert.FFConv.inv
  rw [mhAt_eq]

/-- The scaled rows, likewise. -/
theorem scaledAt_eq (t : Fin cfg0.N) (r : Fin 4096) (k : Fin 256) :
    scaledAt (xb0 m c t) (xb1 m c t) r k
      = Cert.FFConv.mh (A0 m c) (A1 m c) (gOf t (rowB r)) (rowI r) k * Cert.FFConv.inv (A0 m c) (A1 m c) (gOf t (rowB r)) (rowI r) := by
  unfold scaledAt
  rw [mhAt_eq, invAt_eq]

theorem outAt_eq_GK (t : Fin cfg0.N) (r : Fin 4096) (d : Fin 128) :
    outAt (xb0 m c t) (xb1 m c t) (xb2 m c t) (xb3 m c t) (xb4 m c t) r d
      = Cert.FFConv.GK (A0 m c) (A1 m c) (A2 m c) (A3 m c) (A4 m c) (A5 m c) (ix3 (gOf t (rowB r)) (rowI r) d) := by
  unfold outAt
  -- the three coordinates of the index are the graph, the node and the feature
  show _ = (∑ q : Fin 512, Cert.FFConv.hiddenK (A0 m c) (A1 m c) (A2 m c) (A3 m c) (gOf t (rowB r)) (rowI r) q * A4 m c (ix2 q d))
      + A5 m c (ix1 d)
  rw [blk4_apply]
  refine congrArg (· + A5 m c (ix1 d)) (Finset.sum_congr rfl fun q _ => ?_)
  rw [blk3_apply]
  unfold Cert.FFConv.hiddenK
  refine congrArg (fun s => max s 0 * A4 m c (ix2 q d)) (Finset.sum_congr rfl fun k _ => ?_)
  rw [scaledAt_eq, blk2_apply]

end Cert.KernelIdeal.Hand

end
-- ==== Proof.KI.Final.lean ====
/-
  The kernel's run at the ideal values, read as values.

  Point by point the output's staging buffer holds the point's output block and the first scratch the augmented features
  of the point's feature block (induction on the point: the first point by its own stores, a later one over the
  augmentation the point before left in the upper half). What point t writes back is therefore block t of ONE array: at
  (t, r, d) the kernel's arrangement of the whole argument arrays at graph 16 t + r div 256, node r mod 256, feature d.
  The eight blocks tile the result array, and the reshape after the region regroups it graph by graph.
-/
import proofs.«136502_g1906965479736_cont_8to1_1380_11_alg».proof.Proof.KI.ValA
import proofs.«136502_g1906965479736_cont_8to1_1380_11_alg».proof.Proof.KI.ValB
import proofs.«136502_g1906965479736_cont_8to1_1380_11_alg».proof.Proof.KI.Host
import Idealize.ShloMosaic.Lib.StableHlo.Run
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg) (c : Dev nD)

/-! ## Point by point -/

theorem outs_eq : ∀ (n : ℕ) (hn : n < cfg0.N), outsAt0 (F := Ideal) m c n hn
    = (outBlk (xb0 m c ⟨n, hn⟩) (xb1 m c ⟨n, hn⟩) (xb2 m c ⟨n, hn⟩) (xb3 m c ⟨n, hn⟩) (xb4 m c ⟨n, hn⟩), haugW (xb0 m c ⟨n, hn⟩))
  | 0, hn => by
    rw [show outsAt0 (F := Ideal) m c 0 hn = _ from outsAt0_A m c ⟨0, hn⟩ rfl]
    rw [show out0_A_5 (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (xb0 m c ⟨0, hn⟩) (xb1 m c ⟨0, hn⟩) (xb2 m c ⟨0, hn⟩) (xb3 m c ⟨0, hn⟩) (xb4 m c ⟨0, hn⟩) = _ from
        out_A_eq c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (xb0 m c ⟨0, hn⟩) (xb1 m c ⟨0, hn⟩) (xb2 m c ⟨0, hn⟩) (xb3 m c ⟨0, hn⟩) (xb4 m c ⟨0, hn⟩),
      show sout0_A_0 (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (xb0 m c ⟨0, hn⟩) (xb1 m c ⟨0, hn⟩) (xb2 m c ⟨0, hn⟩) (xb3 m c ⟨0, hn⟩) (xb4 m c ⟨0, hn⟩) = _ from
        sout_A_eq c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (xb0 m c ⟨0, hn⟩) (xb1 m c ⟨0, hn⟩) (xb2 m c ⟨0, hn⟩) (xb3 m c ⟨0, hn⟩) (xb4 m c ⟨0, hn⟩)]
  | n + 1, hn => by
    have ih := outs_eq n (Nat.lt_of_succ_lt hn)
    have ht : TailOK (outsAt0 (F := Ideal) m c n (Nat.lt_of_succ_lt hn)).2 := by rw [ih]; exact tailOK_haugW _
    rw [show outsAt0 (F := Ideal) m c (n + 1) hn = _ from outsAt0_B m c ⟨n + 1, hn⟩ (Nat.succ_ne_zero n)]
    show (out0_B_5 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 (F := Ideal) m c n (Nat.lt_of_succ_lt hn)).2, sout0_B_0 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 (F := Ideal) m c n (Nat.lt_of_succ_lt hn)).2) = _
    rw [show out0_B_5 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (xb0 m c ⟨n + 1, hn⟩) (xb1 m c ⟨n + 1, hn⟩) (xb2 m c ⟨n + 1, hn⟩) (xb3 m c ⟨n + 1, hn⟩) (xb4 m c ⟨n + 1, hn⟩) (outsAt0 (F := Ideal) m c n (Nat.lt_of_succ_lt hn)).2 = _ from
        out_B_eq c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (xb0 m c ⟨n + 1, hn⟩) (xb1 m c ⟨n + 1, hn⟩) (xb2 m c ⟨n + 1, hn⟩) (xb3 m c ⟨n + 1, hn⟩) (xb4 m c ⟨n + 1, hn⟩) (outsAt0 (F := Ideal) m c n (Nat.lt_of_succ_lt hn)).2 ht,
      show sout0_B_0 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (xb0 m c ⟨n + 1, hn⟩) (xb1 m c ⟨n + 1, hn⟩) (xb2 m c ⟨n + 1, hn⟩) (xb3 m c ⟨n + 1, hn⟩) (xb4 m c ⟨n + 1, hn⟩) (outsAt0 (F := Ideal) m c n (Nat.lt_of_succ_lt hn)).2 = _ from
        sout_B_eq c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (xb0 m c ⟨n + 1, hn⟩) (xb1 m c ⟨n + 1, hn⟩) (xb2 m c ⟨n + 1, hn⟩) (xb3 m c ⟨n + 1, hn⟩) (xb4 m c ⟨n + 1, hn⟩) (outsAt0 (F := Ideal) m c n (Nat.lt_of_succ_lt hn)).2 ht]

/-! ## The result array before the reshape -/

/-- The pipeline's result array [8, 4096, 128]: at (t, r, d) the kernel's arrangement at graph 16 t + r div 256, node
    r mod 256, feature d. -/
def Gout : S8x4096x128.Idx → EReal := fun y =>
  Cert.FFConv.GK (A0 m c) (A1 m c) (A2 m c) (A3 m c) (A4 m c) (A5 m c)
    (ix3 (⟨16 * (y 0).val + (y 1).val / 256, by have h0 : (y 0).val < 8 := (y 0).isLt; have h1 : (y 1).val < 4096 := (y 1).isLt; omega⟩ : Fin 128)
      (⟨(y 1).val % 256, Nat.mod_lt _ (by decide)⟩ : Fin 256) (⟨(y 2).val, (y 2).isLt⟩ : Fin 128))

/-- The output window's block index at point t is (t, 0, 0). -/
theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)

/-- What point t writes back is block t of that array. -/
theorem flushed5_eq (t : Fin cfg0.N) :
    (dats (F := Ideal) m 0 c).flushed 5 t = ((cfg0.win 5).blk t).view.read (Elt Ideal) (Gout m c) := by
  show (cfg0.win 5).cut (grid0.coords t) ((dats (F := Ideal) m 0 c).after 5 t) = _
  rw [after0_5, outs_eq m c t.val t.isLt]
  obtain ⟨e0, e1, e2⟩ := idx5 t
  funext j
  obtain ⟨a, r, d, rfl⟩ : ∃ (a : Fin 1) (r : Fin 4096) (d : Fin 128), j = ix3 a r d := ⟨j 0, j 1, j 2, eq_ix3 j⟩
  obtain rfl : a = 0 := Subsingleton.elim _ _
  show outBlk (xb0 m c t) (xb1 m c t) (xb2 m c t) (xb3 m c t) (xb4 m c t) (ix3 (0 : Fin 1) r d) = Gout m c (((cfg0.win 5).blk t).view.emb (ix3 (0 : Fin 1) r d))
  rw [outBlk_ix3, outAt_eq_GK]
  unfold Gout
  congr 1
  funext ax
  match ax with
  | ⟨0, _⟩ => apply Fin.ext; show 16 * t.val + r.val / 256 = 16 * (win0_5.index t (0 : Fin 3) * 1 + 1 * 0) + (win0_5.index t (1 : Fin 3) * 4096 + 1 * r.val) / 256; rw [e0, e1]; omega
  | ⟨1, _⟩ => apply Fin.ext; show r.val % 256 = (win0_5.index t (1 : Fin 3) * 4096 + 1 * r.val) % 256; rw [e1]; omega
  | ⟨2, _⟩ => apply Fin.ext; show d.val = win0_5.index t (2 : Fin 3) * 128 + 1 * d.val; rw [e2]; omega

/-- An index of the array is in point t's block iff each coordinate is in the block's range on its axis. -/
theorem mem_blk5 (t : Fin cfg0.N) (i : S8x4096x128.Idx) :
    i ∈ ((cfg0.win 5).blk t).view.set ↔ ∀ a : Fin 3, win0_5.index t a * S1x4096x128.size a ≤ (i a).val ∧ (i a).val < win0_5.index t a * S1x4096x128.size a + S1x4096x128.size a := by
  show i ∈ ((View.whole main_v8).slice (win0_5.rect t)).set ↔ _
  rw [View.set_slice_whole, Rect.mem_set_unit]
  exact Iff.rfl

/-- The eight blocks tile the array: index (t, r, d) lies in point t's block. -/
theorem cover5 (i : S8x4096x128.Idx) : ∃ t : Fin cfg0.N, (cfg0.win 5).flush t = true ∧ i ∈ ((cfg0.win 5).blk t).view.set := by
  have h0 : (i 0).val < 8 := (i 0).isLt
  have h1 : (i 1).val < 4096 := (i 1).isLt
  have h2 : (i 2).val < 128 := (i 2).isLt
  refine ⟨⟨(i 0).val, by rw [show cfg0.N = 8 from N_0]; exact h0⟩, flush0_5 _, ?_⟩
  rw [mem_blk5]
  obtain ⟨e0, e1, e2⟩ := idx5 ⟨(i 0).val, by rw [show cfg0.N = 8 from N_0]; exact h0⟩
  intro a
  match a with
  | ⟨0, _⟩ => show win0_5.index _ (0 : Fin 3) * 1 ≤ (i 0).val ∧ (i 0).val < win0_5.index _ (0 : Fin 3) * 1 + 1; rw [e0]; simp only []; omega
  | ⟨1, _⟩ => show win0_5.index _ (1 : Fin 3) * 4096 ≤ (i 1).val ∧ (i 1).val < win0_5.index _ (1 : Fin 3) * 4096 + 4096; rw [e1]; omega
  | ⟨2, _⟩ => show win0_5.index _ (2 : Fin 3) * 128 ≤ (i 2).val ∧ (i 2).val < win0_5.index _ (2 : Fin 3) * 128 + 128; rw [e2]; omega

/-- The pipeline's result array after the run. -/
theorem final5 : (dats (F := Ideal) m 0 c).arrAt 5 cfg0.N = Gout m c :=
  (dats (F := Ideal) m 0 c).arrAt_eq_of_cover 5 (Gout m c) (fun t _ => flushed5_eq m c t) (cover5)

/-! ## The reshape after the region, and the run read as values -/

/-- The program's result is the reshape of the pipeline's result array. -/
theorem tail_v9 : (Pipeline.afterTail₀ cfgs (dats (F := Ideal) m) 0 (V0 m) [hostOps1] c main_v9 : S128x256x128.Idx → EReal)
    = shapeCast S128x256x128 (Gout m c) shapeCasts_S8x4096x128_S128x256x128 := by
  unfold Pipeline.afterTail₀
  show StableHlo.after hostOps1 _ (Proc.devRef .tc main_v9) = _
  after_results
  rw [Pipeline.withArrays_arr spec0 launch0.win.arr_inj c _ _ 5, final5]
  rfl

/-- Regrouped graph by graph, the result is the kernel's arrangement of the whole arrays. -/
theorem v9_eq : shapeCast S128x256x128 (Gout m c) shapeCasts_S8x4096x128_S128x256x128
    = Cert.FFConv.GK (A0 m c) (A1 m c) (A2 m c) (A3 m c) (A4 m c) (A5 m c) := by
  funext y
  obtain ⟨b, i, d, rfl⟩ : ∃ (b : Fin 128) (i : Fin 256) (d : Fin 128), y = ix3 b i d := ⟨y 0, y 1, y 2, eq_ix3 y⟩
  have hb : b.val < 128 := b.isLt
  have hi : i.val < 256 := i.isLt
  have hd : d.val < 128 := d.isLt
  rw [shapeCast_apply (Gout m c) shapeCasts_S8x4096x128_S128x256x128 (ix3 b i d)
    (ix3 (⟨b.val / 16, by omega⟩ : Fin 8) (⟨(b.val % 16) * 256 + i.val, by omega⟩ : Fin 4096) d)
    (by rw [Shape.rowMajor_val_three, Shape.rowMajor_val_three]
        show (b.val / 16 * 4096 + ((b.val % 16) * 256 + i.val)) * 128 + d.val = (b.val * 256 + i.val) * 128 + d.val
        omega)]
  unfold Gout
  congr 1
  funext ax
  match ax with
  | ⟨0, _⟩ => apply Fin.ext; show 16 * (b.val / 16) + ((b.val % 16) * 256 + i.val) / 256 = b.val; omega
  | ⟨1, _⟩ => apply Fin.ext; show ((b.val % 16) * 256 + i.val) % 256 = i.val; omega
  | ⟨2, _⟩ => rfl

/-- The kernel's run at the ideal values: it ends with the result at the kernel's arrangement of the argument arrays, and
    the arguments as launched. -/
theorem run_val : θ_run defs (onTc (τ := τ) (main (F := Ideal))) ⟨m, fun _ => 0, ρ⟩ (fun r => ∀ c : Dev nD,
      r.2.mem ((c.tc : Thread nD τ).loc main_v9) = Cert.FFConv.GK (A0 m c) (A1 m c) (A2 m c) (A3 m c) (A4 m c) (A5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
    ((h c).2 main_v9 (Pipeline.mem_restRefs_of main_v9 (by decide) (by decide))).trans ((tail_v9 m c).trans (v9_eq m c)),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c)⟩)
    (run_main (F := Ideal) m ρ)

end Cert.KernelIdeal.Hand

end
-- ==== Proof.RefIsG.lean ====
/-
  The reference is G.

  The reference's run ends with its result at one composed term of the six argument arrays. Read at an index (b, i, d),
  stage by stage, that term is the specification's arrangement G:

    * the first product plus the twice-broadcast bias row is the support of a node at a hidden unit;
    * the mask's row sum, begun at zero, clipped below at one, is the clipped degree (the clip is printed as the
      maximum of the broadcast constant one and the sum, in that order);
    * the mask times the supports, divided by the broadcast clipped degree and rectified (the maximum of the quotient and
      the broadcast constant zero, in that order), is the hidden value;
    * the hidden values through the second weight, plus the twice-broadcast second bias, is G.

  Each composed index function of the stage-by-stage reading is identified with the index built from coordinates.
-/
import proofs.«136502_g1906965479736_cont_8to1_1380_11_alg».proof.Proof.Gen.ReferenceIdeal.Run
import proofs.«136502_g1906965479736_cont_8to1_1380_11_alg».proof.Proof.Gen.ReferenceIdeal.Read
import proofs.«136502_g1906965479736_cont_8to1_1380_11_alg».proof.Proof.Spec
import Idealize.ShloMosaic.Lib.ValueIdx
import Idealize.ShloMosaic.PureOps.Ideal
import Idealize.ShloMosaic.PureOps.Ideal.Laws

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

variable (h : FVec Ideal S128x256x128 .f32) (mask : FVec Ideal S128x256x256 .f32) (Wc : FVec Ideal S128x512 .f32)
  (bc : FVec Ideal S512 .f32) (Wf : FVec Ideal S512x128 .f32) (bf : FVec Ideal S128 .f32)

/-! ## The composed index functions, at an index given by coordinates -/

theorem lidx_v0 (b : Fin 128) (j : Fin 256) (q : Fin 512) (k : Fin 128) : Read.lidx_main_v0 (ix3 b j q) k = ix3 b j k :=
  funext fun a => Fin.ext (by match a with | ⟨0, _⟩ => rfl | ⟨1, _⟩ => rfl | ⟨2, _⟩ => rfl)
theorem ridx_v0 (b : Fin 128) (j : Fin 256) (q : Fin 512) (k : Fin 128) : Read.ridx_main_v0 (ix3 b j q) k = ix2 k q :=
  funext fun a => Fin.ext (by match a with | ⟨0, _⟩ => rfl | ⟨1, _⟩ => rfl)
theorem lidx_v4 (b : Fin 128) (i : Fin 256) (q : Fin 512) (j : Fin 256) : Read.lidx_main_v4 (ix3 b i q) j = ix3 b i j :=
  funext fun a => Fin.ext (by match a with | ⟨0, _⟩ => rfl | ⟨1, _⟩ => rfl | ⟨2, _⟩ => rfl)
theorem ridx_v4 (b : Fin 128) (i : Fin 256) (q : Fin 512) (j : Fin 256) : Read.ridx_main_v4 (ix3 b i q) j = ix3 b j q :=
  funext fun a => Fin.ext (by match a with | ⟨0, _⟩ => rfl | ⟨1, _⟩ => rfl | ⟨2, _⟩ => rfl)
theorem lidx_v11 (b : Fin 128) (i : Fin 256) (d : Fin 128) (q : Fin 512) : Read.lidx_main_v11 (ix3 b i d) q = ix3 b i q :=
  funext fun a => Fin.ext (by match a with | ⟨0, _⟩ => rfl | ⟨1, _⟩ => rfl | ⟨2, _⟩ => rfl)
theorem ridx_v11 (b : Fin 128) (i : Fin 256) (d : Fin 128) (q : Fin 512) : Read.ridx_main_v11 (ix3 b i d) q = ix2 q d :=
  funext fun a => Fin.ext (by match a with | ⟨0, _⟩ => rfl | ⟨1, _⟩ => rfl)

/-! ## The stages -/

/-- The first bias, broadcast along the graphs and the nodes, read at an index: the bias at the hidden unit. -/
theorem bias_c (b : Fin 128) (j : Fin 256) (q : Fin 512) : Read.val_main_v2 (F := Ideal) bc (ix3 b j q) = bc (ix1 q) := by
  rw [Read.val_main_v2_apply, Read.val_main_v1_apply]
  exact congrArg bc (funext fun a => Fin.ext (by match a with | ⟨0, _⟩ => rfl))

/-- The second bias, broadcast along the graphs and the nodes, read at an index: the bias at the output feature. -/
theorem bias_f (b : Fin 128) (i : Fin 256) (d : Fin 128) : Read.val_main_v13 (F := Ideal) bf (ix3 b i d) = bf (ix1 d) := by
  rw [Read.val_main_v13_apply, Read.val_main_v12_apply]
  exact congrArg bf (funext fun a => Fin.ext (by match a with | ⟨0, _⟩ => rfl))

/-- The features through the first weight plus the bias: the support of node j at hidden unit q. -/
theorem support_eq (b : Fin 128) (j : Fin 256) (q : Fin 512) :
    Read.val_main_v3 (F := Ideal) h Wc bc (ix3 b j q) = Cert.FFConv.support h Wc bc b j q := by
  rw [Read.val_main_v3_apply, Read.val_main_v0_apply, bias_c, Ideal.addf_def]
  unfold Cert.FFConv.support
  refine congrArg (· + bc (ix1 q)) (Finset.sum_congr rfl fun k _ => ?_)
  rw [lidx_v0, ridx_v0]

/-- The mask's row sum, begun at zero, under the maximum with one: the clipped degree of node i. -/
theorem deg_eq (b : Fin 128) (i : Fin 256) (z : Fin 1) :
    Read.val_main_v7 (F := Ideal) mask (ix3 b i z) = Cert.FFConv.deg mask b i := by
  rw [Read.val_main_v7_apply, Read.val_main_call0_v1_apply, Read.val_main_call0_v0_apply, Read.val_main_cst_0_apply,
    Read.val_main_v6_apply, Read.val_main_v5_apply, Read.val_main_cst_apply, Ideal.maximumf_def]
  simp only [Ideal.ofBits_def]
  rw [Cert.FFConv.one_f32, Cert.FFConv.zero_f32, zero_add]
  unfold Cert.FFConv.deg
  refine congrArg (max 1) (Finset.sum_congr rfl fun k _ => ?_)
  exact congrArg mask (funext fun a => Fin.ext (by match a with | ⟨0, _⟩ => rfl | ⟨1, _⟩ => rfl | ⟨2, _⟩ => rfl))

/-- The mask times the supports, over the broadcast clipped degree, rectified: the hidden value. -/
theorem hidden_eq (b : Fin 128) (i : Fin 256) (q : Fin 512) :
    Read.val_main_v10 (F := Ideal) h mask Wc bc (ix3 b i q) = Cert.FFConv.hidden h mask Wc bc b i q := by
  have e8 : Read.idx_main_v8 (ix3 b i q) = ix3 b i (⟨0, Nat.one_pos⟩ : Fin 1) :=
    funext fun a => Fin.ext (by match a with | ⟨0, _⟩ => rfl | ⟨1, _⟩ => rfl | ⟨2, _⟩ => rfl)
  rw [Read.val_main_v10_apply, Read.val_main_v9_apply, Read.val_main_v4_apply, Read.val_main_v8_apply,
    Read.val_main_call1_v0_apply, Read.val_main_call1_cst_apply, e8, deg_eq, Ideal.maximumf_def, Ideal.hostDivf_def]
  simp only [Ideal.ofBits_def]
  rw [Cert.FFConv.zero_f32]
  unfold Cert.FFConv.hidden
  refine congrArg (fun s => max (Ideal.div s (Cert.FFConv.deg mask b i)) 0) (Finset.sum_congr rfl fun j _ => ?_)
  rw [lidx_v4, ridx_v4, support_eq]

/-- The last stage, read at every index, is G. -/
theorem val_eq_G : Read.val_main_v14 (F := Ideal) h mask Wc bc Wf bf = Cert.FFConv.G h mask Wc bc Wf bf := by
  funext x
  obtain ⟨b, i, d, rfl⟩ : ∃ (b : Fin 128) (i : Fin 256) (d : Fin 128), x = ix3 b i d := ⟨x 0, x 1, x 2, eq_ix3 x⟩
  rw [Read.val_main_v14_apply, Read.val_main_v11_apply, bias_f, Ideal.addf_def]
  show _ = (∑ q : Fin 512, Cert.FFConv.hidden h mask Wc bc b i q * Wf (ix2 q d)) + bf (ix1 d)
  refine congrArg (· + bf (ix1 d)) (Finset.sum_congr rfl fun q _ => ?_)
  rw [lidx_v11, ridx_v11, hidden_eq]

/-! ## The run's composed term -/

/-- The term the reference's run ends with, at the six argument arrays, is G of them. -/
theorem ref_eq_G (h : FVec Ideal S128x256x128 .f32) (mask : FVec Ideal S128x256x256 .f32) (Wc : FVec Ideal S128x512 .f32) (bc : FVec Ideal S512 .f32) (Wf : FVec Ideal S512x128 .f32) (bf : FVec Ideal S128 .f32) :
    addf (Host.dotGeneral dot_S128x256x512_S512x128_S128x256x128_2_0_01_1_n_n none (maximumf (Host.divf (Host.dotGeneral dot_S128x256x256_S128x256x512_S128x256x512_2_1_1_2_0_0 none (mask) (addf (Host.dotGeneral dot_S128x256x128_S128x512_S128x256x512_2_0_01_1_n_n none (h) (Wc)) (broadcastInDim S128x256x512 ![0, 1, 2] bcast_S1x1x512_S128x256x512_0_1_2 (broadcastInDim S1x1x512 ![2] bcast_S512_S1x1x512_2 (bc))))) (broadcastInDim S128x256x512 ![0, 1, 2] bcast_S128x256x1_S128x256x512_0_1_2 (maximumf (broadcastInDim S128x256x1 ![] bcast_S_S128x256x1 (id (constant S_ .f32 0x3F800000#32))) (broadcastInDim S128x256x1 ![0, 1] bcast_S128x256_S128x256x1_0_1 (Host.reduceAdd (mask) (constant S_ .f32 0x00000000#32) reducesTo_S128x256x256_S128x256_d2 h_S_))))) (broadcastInDim S128x256x512 ![] bcast_S_S128x256x512 (constant S_ .f32 0x00000000#32))) (Wf)) (broadcastInDim S128x256x128 ![0, 1, 2] bcast_S1x1x128_S128x256x128_0_1_2 (broadcastInDim S1x1x128 ![2] bcast_S128_S1x1x128_2 (bf))) = Cert.FFConv.G h mask Wc bc Wf bf :=
  (Read.val_main_v14_eq (F := Ideal) h mask Wc bc Wf bf).trans (val_eq_G h mask Wc bc Wf bf)

/-- The reference's run, its result stated as G of the arguments' launch contents, the arguments unchanged. -/
theorem run_G (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v14) = Cert.FFConv.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ hr c => ⟨(hr c).1.trans (ref_eq_G _ _ _ _ _ _), (hr c).2⟩)
    (Cert.ReferenceIdeal.Value.run (F := Ideal) m ρ)

end Cert.ReferenceIdeal.RefValue

end
-- ==== Proof.Algebra.lean ====
/-
  The kernel's arrangement equals the reference's on finite inputs.

  With every array real-valued, the mask times the augmented features is, at a column k below 128, the real sum
  Σ_j mask·h; at column 128 it is the degree Σ_j mask; beyond it the augmented weight is zero.  The clipped degree is at
  least one, so its reciprocal is the real reciprocal, and the sum over the 256 augmented columns is

      Σ_{k<128} (Σ_j mask·h)·inv·Wc + (Σ_j mask)·inv·bc  =  (Σ_j mask·(Σ_k h·Wc + bc)) · inv

  by distributivity and an exchange of the two sums.
-/
import proofs.«136502_g1906965479736_cont_8to1_1380_11_alg».proof.Proof.Spec
import Mathlib.Algebra.BigOperators.Fin
import Mathlib.Algebra.BigOperators.Ring.Finset
import Mathlib.Tactic.Ring

noncomputable section

open scoped BigOperators

namespace Cert.FFConv

open Idealize.ShloMosaic Idealize.ShloMosaic.ValueIdx

/-! ## Coercion of the reals into the extended reals -/

/-- The coercion commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion commutes with the maximum. -/
theorem coe_max (x y : ℝ) : ((max x y : ℝ) : EReal) = max (x : EReal) (y : EReal) :=
  EReal.coe_strictMono.monotone.map_max

/-! ## Splitting the 256 augmented columns -/

/-- A sum over 256 columns whose terms vanish beyond column 128 is the sum over the first 128 columns plus the term at
    column 128. -/
theorem sum_split {M : Type*} [AddCommMonoid M] (f : Fin 256 → M) (hz : ∀ k : Fin 256, 128 < k.val → f k = 0) :
    ∑ k, f k = (∑ k : Fin 128, f ⟨k.val, by omega⟩) + f ⟨128, by norm_num⟩ := by
  have h1 : ∑ k, f k = ∑ i : Fin 128, f (Fin.castAdd 128 i) + ∑ i : Fin 128, f (Fin.natAdd 128 i) :=
    Fin.sum_univ_add (a := 128) (b := 128) f
  have h2 : ∑ i : Fin 128, f (Fin.natAdd 128 i)
      = f (Fin.natAdd 128 (0 : Fin 128)) + ∑ i : Fin 127, f (Fin.natAdd 128 i.succ) :=
    Fin.sum_univ_succ (n := 127) (fun i => f (Fin.natAdd 128 i))
  have h3 : ∑ i : Fin 127, f (Fin.natAdd 128 i.succ) = 0 :=
    Finset.sum_eq_zero fun i _ => hz _ (by simp [Fin.natAdd])
  rw [h1, h2, h3, add_zero]
  rfl

/-! ## The identity over the reals -/

/-- Scaling each aggregated column by t and contracting with the weight, the bias riding on the degree column, is the
    aggregate of the supports scaled by t. -/
theorem real_core {J K : Type*} [Fintype J] [Fintype K] (m : J → ℝ) (x : J → K → ℝ) (W : K → ℝ) (c t : ℝ) :
    (∑ k, ((∑ j, m j * x j k) * t) * W k) + ((∑ j, m j) * t) * c
      = (∑ j, m j * ((∑ k, x j k * W k) + c)) * t := by
  simp only [mul_add, Finset.sum_add_distrib, Finset.mul_sum, Finset.sum_mul, add_mul]
  rw [Finset.sum_comm]
  congr 1
  · refine Finset.sum_congr rfl fun j _ => Finset.sum_congr rfl fun k _ => ?_
    ring
  · refine Finset.sum_congr rfl fun j _ => ?_
    ring

/-! ## The two arrangements on real-valued arrays -/

section Real

variable (hr : Sh.Idx → ℝ) (mr : Smask.Idx → ℝ) (Wr : Swc.Idx → ℝ) (br : Sbc.Idx → ℝ)

/-- Below column 128 the mask times the augmented features is the real aggregate of the features. -/
theorem mh_low (b : Fin 128) (i : Fin 256) (k : Fin 256) (hk : k.val < 128) :
    mh (fun x => (hr x : EReal)) (fun x => (mr x : EReal)) b i k
      = ((∑ j : Fin 256, mr (ix3 b i j) * hr (ix3 b j ⟨k.val, hk⟩) : ℝ) : EReal) := by
  rw [coe_sum]
  unfold mh haug
  simp only [dif_pos hk, EReal.coe_mul]

/-- At column 128 the mask times the augmented features is the real degree. -/
theorem mh_deg (b : Fin 128) (i : Fin 256) :
    mh (fun x => (hr x : EReal)) (fun x => (mr x : EReal)) b i ⟨128, by decide⟩
      = ((∑ j : Fin 256, mr (ix3 b i j) : ℝ) : EReal) := by
  rw [coe_sum]
  unfold mh haug
  refine Finset.sum_congr rfl fun j _ => ?_
  rw [dif_neg (by decide), if_pos rfl, mul_one]

/-- The clipped degree is at least one, so its reciprocal is the real reciprocal. -/
theorem inv_eq (b : Fin 128) (i : Fin 256) :
    inv (fun x => (hr x : EReal)) (fun x => (mr x : EReal)) b i
      = ((1 / max (∑ j : Fin 256, mr (ix3 b i j)) 1 : ℝ) : EReal) := by
  have hpos : max (∑ j : Fin 256, mr (ix3 b i j)) 1 ≠ 0 :=
    ne_of_gt (lt_of_lt_of_le one_pos (le_max_right _ _))
  unfold inv
  rw [mh_deg, ← EReal.coe_one, ← coe_max, Ideal.div_coe hpos, ← EReal.coe_mul, one_mul]

/-- The reference's clipped degree is the real clipped degree. -/
theorem deg_eq (b : Fin 128) (i : Fin 256) :
    deg (fun x => (mr x : EReal)) b i = ((max 1 (∑ j : Fin 256, mr (ix3 b i j)) : ℝ) : EReal) := by
  unfold deg
  rw [coe_max, coe_sum, EReal.coe_one]

/-- A node's support is real. -/
theorem support_eq (b : Fin 128) (j : Fin 256) (q : Fin 512) :
    support (fun x => (hr x : EReal)) (fun x => (Wr x : EReal)) (fun x => (br x : EReal)) b j q
      = (((∑ k : Fin 128, hr (ix3 b j k) * Wr (ix2 k q)) + br (ix1 q) : ℝ) : EReal) := by
  unfold support
  rw [EReal.coe_add, coe_sum]
  simp only [EReal.coe_mul]

/-- The two rectified hidden layers agree on real-valued arrays. -/
theorem hiddenK_eq_hidden_real (b : Fin 128) (i : Fin 256) (q : Fin 512) :
    hiddenK (fun x => (hr x : EReal)) (fun x => (mr x : EReal)) (fun x => (Wr x : EReal)) (fun x => (br x : EReal)) b i q
      = hidden (fun x => (hr x : EReal)) (fun x => (mr x : EReal)) (fun x => (Wr x : EReal)) (fun x => (br x : EReal))
          b i q := by
  have hpos : max 1 (∑ j : Fin 256, mr (ix3 b i j)) ≠ 0 :=
    ne_of_gt (lt_of_lt_of_le one_pos (le_max_left _ _))
  unfold hiddenK hidden
  congr 1
  -- the reference's side, as a real
  rw [deg_eq, Ideal.div_coe hpos]
  simp only [support_eq, ← EReal.coe_mul, ← coe_sum]
  -- the kernel's side: the columns beyond 128 contribute nothing
  rw [sum_split _ (fun k hk => by unfold wca; rw [dif_neg (by omega), if_neg (by omega), mul_zero])]
  have e1 : ∀ k : Fin 128,
      (mh (fun x => (hr x : EReal)) (fun x => (mr x : EReal)) b i ⟨k.val, by omega⟩
          * inv (fun x => (hr x : EReal)) (fun x => (mr x : EReal)) b i)
        * wca (fun x => (Wr x : EReal)) (fun x => (br x : EReal)) ⟨k.val, by omega⟩ q
      = ((((∑ j : Fin 256, mr (ix3 b i j) * hr (ix3 b j k)) * (1 / max (∑ j : Fin 256, mr (ix3 b i j)) 1))
          * Wr (ix2 k q) : ℝ) : EReal) := by
    intro k
    rw [mh_low hr mr b i ⟨k.val, by omega⟩ k.isLt, inv_eq]
    unfold wca
    rw [dif_pos k.isLt, ← EReal.coe_mul, ← EReal.coe_mul]
  have e2 : (mh (fun x => (hr x : EReal)) (fun x => (mr x : EReal)) b i ⟨128, by norm_num⟩
          * inv (fun x => (hr x : EReal)) (fun x => (mr x : EReal)) b i)
        * wca (fun x => (Wr x : EReal)) (fun x => (br x : EReal)) ⟨128, by norm_num⟩ q
      = ((((∑ j : Fin 256, mr (ix3 b i j)) * (1 / max (∑ j : Fin 256, mr (ix3 b i j)) 1))
          * br (ix1 q) : ℝ) : EReal) := by
    rw [mh_deg, inv_eq]
    unfold wca
    rw [dif_neg (by decide), if_pos rfl, ← EReal.coe_mul, ← EReal.coe_mul]
  rw [Finset.sum_congr rfl (fun k _ => e1 k), e2, ← coe_sum, ← EReal.coe_add, real_core, max_comm]

end Real

/-! ## The two arrangements on finite inputs -/

/-- On finite inputs the kernel's rectified hidden layer is the reference's. -/
theorem hiddenK_eq_hidden (h : Sh.Idx → EReal) (mask : Smask.Idx → EReal) (Wc : Swc.Idx → EReal)
    (bc : Sbc.Idx → EReal)
    (hh : ∀ x, ∃ r : ℝ, h x = (r : EReal)) (hm : ∀ x, ∃ r : ℝ, mask x = (r : EReal))
    (hWc : ∀ x, ∃ r : ℝ, Wc x = (r : EReal)) (hbc : ∀ x, ∃ r : ℝ, bc x = (r : EReal))
    (b : Fin 128) (i : Fin 256) (q : Fin 512) :
    hiddenK h mask Wc bc b i q = hidden h mask Wc bc b i q := by
  choose hr hhr using hh
  choose mr hmr using hm
  choose Wr hWr using hWc
  choose br hbr using hbc
  obtain rfl : h = fun x => (hr x : EReal) := funext hhr
  obtain rfl : mask = fun x => (mr x : EReal) := funext hmr
  obtain rfl : Wc = fun x => (Wr x : EReal) := funext hWr
  obtain rfl : bc = fun x => (br x : EReal) := funext hbr
  exact hiddenK_eq_hidden_real hr mr Wr br b i q

/-- On finite inputs the kernel's arrangement of the whole layer is the reference's. -/
theorem GK_eq_G (h : Sh.Idx → EReal) (mask : Smask.Idx → EReal) (Wc : Swc.Idx → EReal) (bc : Sbc.Idx → EReal)
    (Wf : Swf.Idx → EReal) (bf : Sbf.Idx → EReal)
    (hh : ∀ x, ∃ r : ℝ, h x = (r : EReal)) (hm : ∀ x, ∃ r : ℝ, mask x = (r : EReal))
    (hWc : ∀ x, ∃ r : ℝ, Wc x = (r : EReal)) (hbc : ∀ x, ∃ r : ℝ, bc x = (r : EReal)) :
    GK h mask Wc bc Wf bf = G h mask Wc bc Wf bf := by
  have e : hiddenK h mask Wc bc = hidden h mask Wc bc := by
    funext b i q
    exact hiddenK_eq_hidden h mask Wc bc hh hm hWc hbc b i q
  unfold GK G
  rw [e]

end Cert.FFConv

end
-- ==== Proof.Finite.lean ====
/-
  The precondition makes every input entry a real number.

  The precondition is the conjunction, over the six float inputs, of "every entry x has |x| < +∞". A conjunction of
  bits is 1 exactly when each bit is; a reduction by "and" over all axes that comes out 1 met a 1 at every index; and
  an extended real x with max x (−x) < ⊤ is neither ⊤ nor ⊥, hence the image of a real.
-/
import proofs.«136502_g1906965479736_cont_8to1_1380_11_alg».proof.Pre_finite_inputs
import proofs.«136502_g1906965479736_cont_8to1_1380_11_alg».proof.Proof.Gen.Pre_finite_inputs
import Idealize.ShloMosaic.Lib.ReduceAll
import Idealize.ShloMosaic.Lib.ValueIdx
import Idealize.ShloMosaic.PureOps.Ideal

noncomputable section

namespace Cert.FFConv.Finite

open Idealize.ShloMosaic

/-- The pattern 0x7F800000 denotes +∞. -/
theorem inf_f32 : Ideal.ofBits .f32 0x7F800000#32 = ⊤ := by simp [Ideal.ofBits, Ideal.ieee]

/-- An extended real whose absolute value compares below +∞ is a real number. -/
theorem real_of_abs_lt_inf (x : EReal)
    (h : FloatOps.cmpf (F := Ideal) (φ := .f32) .olt (FloatOps.hostAbsf (F := Ideal) (φ := .f32) x)
          (FloatOps.ofBits (F := Ideal) .f32 0x7F800000#32) = 1#1) :
    ∃ r : ℝ, x = (r : EReal) := by
  have h' : Ideal.cmp .olt (max (x : EReal) (-(x : EReal))) (Ideal.ofBits .f32 0x7F800000#32) = 1#1 := h
  rw [inf_f32] at h'
  induction x using EReal.rec with
  | bot => simp [Ideal.cmp] at h'
  | coe r => exact ⟨r, rfl⟩
  | top => simp [Ideal.cmp] at h'

/-- The rank-0 shape has one index. -/
instance : Subsingleton Cert.Pre_finite_inputs.S_.Idx := ⟨fun a b => funext fun d => d.elim0⟩

/-- One `jnp.all(|a| < +∞)` that holds makes every entry of `a` a real number. -/
theorem all_real {s : Shape} {axes : List (Fin s.rank)}
    (hr : s.ReducesTo axes Cert.Pre_finite_inputs.S_) (hu : 0 < Cert.Pre_finite_inputs.S_.numel)
    (hb : Cert.Pre_finite_inputs.S_.BroadcastsInDim s (![] : Fin 0 → Fin s.rank))
    (a : FVec Ideal s .f32)
    (e : Host.reduce IntOp.andi
          (cmpf .olt (Host.absf a)
            (broadcastInDim s ![] hb (constant (F := Ideal) Cert.Pre_finite_inputs.S_ .f32 0x7F800000#32)))
          (constantI Cert.Pre_finite_inputs.S_ 1 1#1) hr hu ValueIdx.ix0 = 1#1) :
    ∀ x, ∃ r : ℝ, a x = (r : EReal) := fun x =>
  real_of_abs_lt_inf (a x) (Host.reduce_andi_all _ _ hr hu ValueIdx.ix0 e x)

theorem finite_of_pre [Cert.Pre_finite_inputs.Facts]
    (a0 : FVec Ideal Cert.Pre_finite_inputs.S128x256x128 .f32) (a1 : FVec Ideal Cert.Pre_finite_inputs.S128x256x256 .f32)
    (a2 : FVec Ideal Cert.Pre_finite_inputs.S128x512 .f32) (a3 : FVec Ideal Cert.Pre_finite_inputs.S512 .f32)
    (a4 : FVec Ideal Cert.Pre_finite_inputs.S512x128 .f32) (a5 : FVec Ideal Cert.Pre_finite_inputs.S128 .f32)
    (hpre : Cert.Pre_finite_inputs.fn (F := Ideal) a0 a1 a2 a3 a4 a5 = fun _ => 1#1) :
    (∀ x, ∃ r : ℝ, a0 x = (r : EReal)) ∧ (∀ x, ∃ r : ℝ, a1 x = (r : EReal)) ∧ (∀ x, ∃ r : ℝ, a2 x = (r : EReal)) ∧
    (∀ x, ∃ r : ℝ, a3 x = (r : EReal)) ∧ (∀ x, ∃ r : ℝ, a4 x = (r : EReal)) ∧ (∀ x, ∃ r : ℝ, a5 x = (r : EReal)) := by
  have h0 := congrFun hpre ValueIdx.ix0
  dsimp only [Cert.Pre_finite_inputs.fn, Cert.Pre_finite_inputs.fn_part1, andi] at h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real _ _ _ a0 e0, all_real _ _ _ a1 e1, all_real _ _ _ a2 e2, all_real _ _ _ a3 e3,
    all_real _ _ _ a4 e4, all_real _ _ _ a5 e5⟩

end Cert.FFConv.Finite

end
-- ==== Proof.lean ====
/-
  The certificate: a fused graph-convolution and feed-forward layer against its reference.

  The reference computes, graph by graph, the support of every node (its features through a first weight, plus a
  bias), the mean of the supports over each node's neighbours (the mask's row, divided by the degree clipped at one),
  rectifies it and sends it through a second weight plus a bias. The kernel aggregates the FEATURES first and applies the
  first weight afterwards; it carries the degree and the bias through its two products by augmenting the features with
  a column of ones and the first weight with the bias row. On finite inputs the two arrangements are the same real
  numbers: the aggregation is linear, the clipped degree is at least one, and the bias row is weighted by degree over
  clipped degree exactly as in the mean of the supports.

  Frames: both printings of the kernel run the same body point by point (Proof/KI, Proof/KB); the reference is a line of
  host operations. The ideal pass rewrote nothing, so there is nothing to preserve.
-/
import proofs.«136502_g1906965479736_cont_8to1_1380_11_alg».proof.Defs
import proofs.«136502_g1906965479736_cont_8to1_1380_11_alg».proof.Proof.Gen.Kernel
import proofs.«136502_g1906965479736_cont_8to1_1380_11_alg».proof.Proof.Gen.KernelIdeal
import proofs.«136502_g1906965479736_cont_8to1_1380_11_alg».proof.Proof.Gen.ReferenceIdeal
import proofs.«136502_g1906965479736_cont_8to1_1380_11_alg».proof.Proof.Gen.Pre_finite_inputs
import proofs.«136502_g1906965479736_cont_8to1_1380_11_alg».proof.Proof.Gen.ReferenceIdeal.Run
import proofs.«136502_g1906965479736_cont_8to1_1380_11_alg».proof.Proof.Gen.ReferenceIdeal.Read
import proofs.«136502_g1906965479736_cont_8to1_1380_11_alg».proof.Proof.KB.Frame
import proofs.«136502_g1906965479736_cont_8to1_1380_11_alg».proof.Proof.KI.Final
import proofs.«136502_g1906965479736_cont_8to1_1380_11_alg».proof.Proof.RefIsG
import proofs.«136502_g1906965479736_cont_8to1_1380_11_alg».proof.Proof.Algebra
import proofs.«136502_g1906965479736_cont_8to1_1380_11_alg».proof.Proof.Finite
import Idealize.ShloMosaic.Adequacy
import Idealize.ShloMosaic.Init

noncomputable section

namespace Cert.Proof

open Idealize.ShloMosaic Idealize.SL.Sem

/-- The word-level kernel runs to the end and leaves its arguments as launched. -/
theorem frame_k : Cert.frame_Kernel (hKernel := Cert.Kernel.Gen.facts) (hPre_finite_inputs := Cert.Pre_finite_inputs.Gen.facts) :=
  fun m ρ _ => Cert.Kernel.Hand.frame m ρ

/-- So does the kernel at the ideal values. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- And the reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both programs end at the kernel's arrangement of the argument arrays: the
    kernel by its run read as values, the reference because its arrangement is the kernel's on finite inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.FFConv.GK (Cert.KernelIdeal.Hand.A0 m c) (Cert.KernelIdeal.Hand.A1 m c) (Cert.KernelIdeal.Hand.A2 m c)
      (Cert.KernelIdeal.Hand.A3 m c) (Cert.KernelIdeal.Hand.A4 m c) (Cert.KernelIdeal.Hand.A5 m c),
    Cert.KernelIdeal.Hand.run_val m ρ, ?_⟩
  refine (θ_run Cert.ReferenceIdeal.defs _ _).mono (fun _ h c => ⟨(h c).1.trans ?_, (h c).2⟩)
    (Cert.ReferenceIdeal.RefValue.run_G m' ρ')
  obtain ⟨h0, h1, h2, h3, -, -⟩ := Cert.FFConv.Finite.finite_of_pre (hpre := hpre c)
  rw [(hagree c).1, (hagree c).2.1, (hagree c).2.2.1, (hagree c).2.2.2.1, (hagree c).2.2.2.2.1, (hagree c).2.2.2.2.2]
  exact (Cert.FFConv.GK_eq_G _ _ _ _ _ _ h0 h1 h2 h3).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
